-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20480x512 : Shape := ⟨2, ![20480, 512]⟩
abbrev S65536x4096 : Shape := ⟨2, ![65536, 4096]⟩
abbrev S65536x2 : Shape := ⟨2, ![65536, 2]⟩
abbrev S20480 : Shape := ⟨1, ![20480]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x51 : Shape := ⟨2, ![4096, 51]⟩
abbrev S51 : Shape := ⟨1, ![51]⟩
abbrev S1024x51 : Shape := ⟨2, ![1024, 51]⟩
abbrev S22801x51 : Shape := ⟨2, ![22801, 51]⟩
abbrev S_ : Shape := ⟨0, ![]⟩

class Facts : Prop where
  bcast_S_S20480x512 : S_.BroadcastsInDim S20480x512 (![] : Fin 0 → Fin S20480x512.rank)
  reducesTo_S20480x512_S_d0_1 : S20480x512.ReducesTo [0, 1] S_
  h_S_ : 0 < S_.numel
  bcast_S_S65536x4096 : S_.BroadcastsInDim S65536x4096 (![] : Fin 0 → Fin S65536x4096.rank)
  reducesTo_S65536x4096_S_d0_1 : S65536x4096.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x51 : S_.BroadcastsInDim S4096x51 (![] : Fin 0 → Fin S4096x51.rank)
  reducesTo_S4096x51_S_d0_1 : S4096x51.ReducesTo [0, 1] S_
  bcast_S_S51 : S_.BroadcastsInDim S51 (![] : Fin 0 → Fin S51.rank)
  reducesTo_S51_S_d0 : S51.ReducesTo [0] S_
  bcast_S_S1024x51 : S_.BroadcastsInDim S1024x51 (![] : Fin 0 → Fin S1024x51.rank)
  reducesTo_S1024x51_S_d0_1 : S1024x51.ReducesTo [0, 1] S_
  bcast_S_S22801x51 : S_.BroadcastsInDim S22801x51 (![] : Fin 0 → Fin S22801x51.rank)
  reducesTo_S22801x51_S_d0_1 : S22801x51.ReducesTo [0, 1] S_
  bcast_S_S65536x2 : S_.BroadcastsInDim S65536x2 (![] : Fin 0 → Fin S65536x2.rank)
  reducesTo_S65536x2_S_d0_1 : S65536x2.ReducesTo [0, 1] S_
  bcast_S_S20480 : S_.BroadcastsInDim S20480 (![] : Fin 0 → Fin S20480.rank)
  reducesTo_S20480_S_d0 : S20480.ReducesTo [0] S_

variable [Facts]

def fn_part3 {F : FTy → Type} [FloatOps F] (main_arg2 : IVec S65536x2 32) (main_arg3 : IVec S20480 32) (main_v48 : IVec S_ 1) (main_v49 : FVec F S22801x51 .f32) (main_v50 : FVec F S22801x51 .f32) : IVec S_ 1 :=
  let main_v51 : IVec S22801x51 1 := cmpf .olt main_v49 main_v50
  let main_c_19 : IVec S_ 1 := constantI S_ 1 1#1
  let main_v52 : IVec S_ 1 := (fun x v => Host.reduce IntOp.andi x v reducesTo_S22801x51_S_d0_1 h_S_) main_v51 main_c_19
  let main_v53 : IVec S_ 1 := andi main_v48 main_v52
  let main_c_20 : IVec S_ 32 := constantI S_ 32 0#32
  let main_v54 : IVec S65536x2 32 := broadcastInDim S65536x2 ![] bcast_S_S65536x2 main_c_20
  let main_v55 : IVec S65536x2 1 := cmpi .sge main_arg2 main_v54
  let main_c_21 : IVec S_ 32 := constantI S_ 32 20480#32
  let main_v56 : IVec S65536x2 32 := broadcastInDim S65536x2 ![] bcast_S_S65536x2 main_c_21
  let main_v57 : IVec S65536x2 1 := cmpi .slt main_arg2 main_v56
  let main_v58 : IVec S65536x2 1 := andi main_v55 main_v57
  let main_c_22 : IVec S_ 1 := constantI S_ 1 1#1
  let main_v59 : IVec S_ 1 := (fun x v => Host.reduce IntOp.andi x v reducesTo_S65536x2_S_d0_1 h_S_) main_v58 main_c_22
  let main_v60 : IVec S_ 1 := andi main_v53 main_v59
  let main_c_23 : IVec S_ 32 := constantI S_ 32 0#32
  let main_v61 : IVec S20480 32 := broadcastInDim S20480 ![] bcast_S_S20480 main_c_23
  let main_v62 : IVec S20480 1 := cmpi .sge main_arg3 main_v61
  let main_c_24 : IVec S_ 32 := constantI S_ 32 151#32
  let main_v63 : IVec S20480 32 := broadcastInDim S20480 ![] bcast_S_S20480 main_c_24
  let main_v64 : IVec S20480 1 := cmpi .slt main_arg3 main_v63
  let main_v65 : IVec S20480 1 := andi main_v62 main_v64
  let main_c_25 : IVec S_ 1 := constantI S_ 1 1#1
  let main_v66 : IVec S_ 1 := (fun x v => Host.reduce IntOp.andi x v reducesTo_S20480_S_d0 h_S_) main_v65 main_c_25
  let main_v67 : IVec S_ 1 := andi main_v60 main_v66
  main_v67

def fn_part2 {F : FTy → Type} [FloatOps F] (main_arg2 : IVec S65536x2 32) (main_arg3 : IVec S20480 32) (main_arg9 : FVec F S51 .f32) (main_arg10 : FVec F S1024x51 .f32) (main_arg11 : FVec F S51 .f32) (main_arg12 : FVec F S22801x51 .f32) (main_v33 : IVec S_ 1) : IVec S_ 1 :=
  let main_v34 : FVec F S51 .f32 := Host.absf main_arg9
  let main_cst_12 : FVec F S_ .f32 := constant S_ .f32 0x7F800000#32
  let main_v35 : FVec F S51 .f32 := broadcastInDim S51 ![] bcast_S_S51 main_cst_12
  let main_v36 : IVec S51 1 := cmpf .olt main_v34 main_v35
  let main_c_13 : IVec S_ 1 := constantI S_ 1 1#1
  let main_v37 : IVec S_ 1 := (fun x v => Host.reduce IntOp.andi x v reducesTo_S51_S_d0 h_S_) main_v36 main_c_13
  let main_v38 : IVec S_ 1 := andi main_v33 main_v37
  let main_v39 : FVec F S1024x51 .f32 := Host.absf main_arg10
  let main_cst_14 : FVec F S_ .f32 := constant S_ .f32 0x7F800000#32
  let main_v40 : FVec F S1024x51 .f32 := broadcastInDim S1024x51 ![] bcast_S_S1024x51 main_cst_14
  let main_v41 : IVec S1024x51 1 := cmpf .olt main_v39 main_v40
  let main_c_15 : IVec S_ 1 := constantI S_ 1 1#1
  let main_v42 : IVec S_ 1 := (fun x v => Host.reduce IntOp.andi x v reducesTo_S1024x51_S_d0_1 h_S_) main_v41 main_c_15
  let main_v43 : IVec S_ 1 := andi main_v38 main_v42
  let main_v44 : FVec F S51 .f32 := Host.absf main_arg11
  let main_cst_16 : FVec F S_ .f32 := constant S_ .f32 0x7F800000#32
  let main_v45 : FVec F S51 .f32 := broadcastInDim S51 ![] bcast_S_S51 main_cst_16
  let main_v46 : IVec S51 1 := cmpf .olt main_v44 main_v45
  let main_c_17 : IVec S_ 1 := constantI S_ 1 1#1
  let main_v47 : IVec S_ 1 := (fun x v => Host.reduce IntOp.andi x v reducesTo_S51_S_d0 h_S_) main_v46 main_c_17
  let main_v48 : IVec S_ 1 := andi main_v43 main_v47
  let main_v49 : FVec F S22801x51 .f32 := Host.absf main_arg12
  let main_cst_18 : FVec F S_ .f32 := constant S_ .f32 0x7F800000#32
  let main_v50 : FVec F S22801x51 .f32 := broadcastInDim S22801x51 ![] bcast_S_S22801x51 main_cst_18
  fn_part3 (F := F) main_arg2 main_arg3 main_v48 main_v49 main_v50

def fn_part1 {F : FTy → Type} [FloatOps F] (main_arg2 : IVec S65536x2 32) (main_arg3 : IVec S20480 32) (main_arg6 : FVec F S1024x4096 .f32) (main_arg7 : FVec F S4096 .f32) (main_arg8 : FVec F S4096x51 .f32) (main_arg9 : FVec F S51 .f32) (main_arg10 : FVec F S1024x51 .f32) (main_arg11 : FVec F S51 .f32) (main_arg12 : FVec F S22801x51 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg6
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x51 .f32 := Host.absf main_arg8
  let main_cst_10 : FVec F S_ .f32 := constant S_ .f32 0x7F800000#32
  let main_v30 : FVec F S4096x51 .f32 := broadcastInDim S4096x51 ![] bcast_S_S4096x51 main_cst_10
  let main_v31 : IVec S4096x51 1 := cmpf .olt main_v29 main_v30
  let main_c_11 : IVec S_ 1 := constantI S_ 1 1#1
  let main_v32 : IVec S_ 1 := (fun x v => Host.reduce IntOp.andi x v reducesTo_S4096x51_S_d0_1 h_S_) main_v31 main_c_11
  let main_v33 : IVec S_ 1 := andi main_v28 main_v32
  fn_part2 (F := F) main_arg2 main_arg3 main_arg9 main_arg10 main_arg11 main_arg12 main_v33

def fn {F : FTy → Type} [FloatOps F] (main_arg0 : FVec F S20480x512 .f32) (main_arg1 : FVec F S65536x4096 .f32) (main_arg2 : IVec S65536x2 32) (main_arg3 : IVec S20480 32) (main_arg4 : FVec F S512x1024 .f32) (main_arg5 : FVec F S1024 .f32) (main_arg6 : FVec F S1024x4096 .f32) (main_arg7 : FVec F S4096 .f32) (main_arg8 : FVec F S4096x51 .f32) (main_arg9 : FVec F S51 .f32) (main_arg10 : FVec F S1024x51 .f32) (main_arg11 : FVec F S51 .f32) (main_arg12 : FVec F S22801x51 .f32) : IVec S_ 1 :=
  let main_v0 : FVec F S20480x512 .f32 := Host.absf main_arg0
  let main_cst : FVec F S_ .f32 := constant S_ .f32 0x7F800000#32
  let main_v1 : FVec F S20480x512 .f32 := broadcastInDim S20480x512 ![] bcast_S_S20480x512 main_cst
  let main_v2 : IVec S20480x512 1 := cmpf .olt main_v0 main_v1
  let main_c : IVec S_ 1 := constantI S_ 1 1#1
  let main_v3 : IVec S_ 1 := (fun x v => Host.reduce IntOp.andi x v reducesTo_S20480x512_S_d0_1 h_S_) main_v2 main_c
  let main_v4 : FVec F S65536x4096 .f32 := Host.absf main_arg1
  let main_cst_0 : FVec F S_ .f32 := constant S_ .f32 0x7F800000#32
  let main_v5 : FVec F S65536x4096 .f32 := broadcastInDim S65536x4096 ![] bcast_S_S65536x4096 main_cst_0
  let main_v6 : IVec S65536x4096 1 := cmpf .olt main_v4 main_v5
  let main_c_1 : IVec S_ 1 := constantI S_ 1 1#1
  let main_v7 : IVec S_ 1 := (fun x v => Host.reduce IntOp.andi x v reducesTo_S65536x4096_S_d0_1 h_S_) main_v6 main_c_1
  let main_v8 : IVec S_ 1 := andi main_v3 main_v7
  let main_v9 : FVec F S512x1024 .f32 := Host.absf main_arg4
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg3 main_arg6 main_arg7 main_arg8 main_arg9 main_arg10 main_arg11 main_arg12 main_v13 main_v16
-- ==== Kernel.lean ====
abbrev S20480x512 : Shape := ⟨2, ![20480, 512]⟩
abbrev S65536x4096 : Shape := ⟨2, ![65536, 4096]⟩
abbrev S65536x2 : Shape := ⟨2, ![65536, 2]⟩
abbrev S20480 : Shape := ⟨1, ![20480]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x51 : Shape := ⟨2, ![4096, 51]⟩
abbrev S51 : Shape := ⟨1, ![51]⟩
abbrev S1024x51 : Shape := ⟨2, ![1024, 51]⟩
abbrev S22801x51 : Shape := ⟨2, ![22801, 51]⟩
abbrev S1x1024 : Shape := ⟨2, ![1, 1024]⟩
abbrev S512x4096 : Shape := ⟨2, ![512, 4096]⟩
abbrev S1x4096 : Shape := ⟨2, ![1, 4096]⟩
abbrev S1x51 : Shape := ⟨2, ![1, 51]⟩
abbrev S512x51 : Shape := ⟨2, ![512, 51]⟩
abbrev S20480x1024 : Shape := ⟨2, ![20480, 1024]⟩
abbrev S1024x512 : Shape := ⟨2, ![1024, 512]⟩
abbrev S1024x1024 : Shape := ⟨2, ![1024, 1024]⟩
abbrev S65536x1 : Shape := ⟨2, ![65536, 1]⟩
abbrev S65536 : Shape := ⟨1, ![65536]⟩
abbrev S_ : Shape := ⟨0, ![]⟩
abbrev S1 : Shape := ⟨1, ![1]⟩
abbrev S1x1 : Shape := ⟨2, ![1, 1]⟩
abbrev S65536x512 : Shape := ⟨2, ![65536, 512]⟩
abbrev S65536x51 : Shape := ⟨2, ![65536, 51]⟩
abbrev S512x512 : Shape := ⟨2, ![512, 512]⟩

abbrev nBuf : Space → Nat
  | .hbm => 130
  | .vmem => 24
  | .smem => 0
  | _ => 0

abbrev hbmTy0_0 (i : Nat) : BufTy := match i % 128 with
  | 0 => ⟨S20480x512, .f32⟩
  | 1 => ⟨S65536x4096, .f32⟩
  | 2 => ⟨S65536x2, .i32⟩
  | 3 => ⟨S20480, .i32⟩
  | 4 => ⟨S512x1024, .f32⟩
  | 5 => ⟨S1024, .f32⟩
  | 6 => ⟨S1024x4096, .f32⟩
  | 7 => ⟨S4096, .f32⟩
  | 8 => ⟨S4096x51, .f32⟩
  | 9 => ⟨S51, .f32⟩
  | 10 => ⟨S1024x51, .f32⟩
  | 11 => ⟨S51, .f32⟩
  | 12 => ⟨S22801x51, .f32⟩
  | 13 => ⟨S512x1024, .bf16⟩
  | 14 => ⟨S1x1024, .f32⟩
  | 15 => ⟨S512x4096, .f32⟩
  | 16 => ⟨S512x4096, .bf16⟩
  | 17 => ⟨S512x4096, .f32⟩
  | 18 => ⟨S512x4096, .bf16⟩
  | 19 => ⟨S1x4096, .f32⟩
  | 20 => ⟨S4096x51, .bf16⟩
  | 21 => ⟨S1x51, .f32⟩
  | 22 => ⟨S512x51, .f32⟩
  | 23 => ⟨S512x51, .bf16⟩
  | 24 => ⟨S512x51, .f32⟩
  | 25 => ⟨S512x51, .bf16⟩
  | 26 => ⟨S1x51, .f32⟩
  | 27 => ⟨S20480x1024, .f32⟩
  | 28 => ⟨S20480x512, .f32⟩
  | 29 => ⟨S20480x512, .f32⟩
  | 30 => ⟨S65536x1, .i32⟩
  | 31 => ⟨S65536, .i32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S1, .i32⟩
  | 41 => ⟨S_, .i32⟩
  | 42 => ⟨S65536x1, .i32⟩
  | 43 => ⟨S65536x1, .i1⟩
  | 44 => ⟨S1x1, .i32⟩
  | 45 => ⟨S65536x1, .i32⟩
  | 46 => ⟨S65536x1, .i1⟩
  | 47 => ⟨S65536x1, .i1⟩
  | 48 => ⟨S_, .i1⟩
  | 49 => ⟨S65536, .i1⟩
  | 50 => ⟨S65536x512, .f32⟩
  | 51 => ⟨S65536x512, .i1⟩
  | 52 => ⟨S_, .f32⟩
  | 53 => ⟨S65536x512, .f32⟩
  | 54 => ⟨S65536x512, .f32⟩
  | 55 => ⟨S65536x1, .i32⟩
  | 56 => ⟨S65536, .i32⟩
  | 57 => ⟨S_, .i32⟩
  | 58 => ⟨S65536, .i32⟩
  | 59 => ⟨S65536, .i1⟩
  | 60 => ⟨S_, .i32⟩
  | 61 => ⟨S65536, .i32⟩
  | 62 => ⟨S65536, .i32⟩
  | 63 => ⟨S65536, .i32⟩
  | 64 => ⟨S65536x1, .i32⟩
  | 65 => ⟨S1, .i32⟩
  | 66 => ⟨S_, .i32⟩
  | 67 => ⟨S65536x1, .i32⟩
  | 68 => ⟨S65536x1, .i1⟩
  | 69 => ⟨S1x1, .i32⟩
  | 70 => ⟨S65536x1, .i32⟩
  | 71 => ⟨S65536x1, .i1⟩
  | 72 => ⟨S65536x1, .i1⟩
  | 73 => ⟨S_, .i1⟩
  | 74 => ⟨S65536, .i1⟩
  | 75 => ⟨S65536x512, .f32⟩
  | 76 => ⟨S65536x512, .i1⟩
  | 77 => ⟨S_, .f32⟩
  | 78 => ⟨S65536x512, .f32⟩
  | 79 => ⟨S65536x512, .f32⟩
  | 80 => ⟨S65536x1, .i32⟩
  | 81 => ⟨S65536, .i32⟩
  | 82 => ⟨S_, .i32⟩
  | 83 => ⟨S65536, .i32⟩
  | 84 => ⟨S65536, .i1⟩
  | 85 => ⟨S_, .i32⟩
  | 86 => ⟨S65536, .i32⟩
  | 87 => ⟨S65536, .i32⟩
  | 88 => ⟨S65536, .i32⟩
  | 89 => ⟨S65536x1, .i32⟩
  | 90 => ⟨S65536, .i32⟩
  | 91 => ⟨S_, .i32⟩
  | 92 => ⟨S65536, .i32⟩
  | 93 => ⟨S65536, .i32⟩
  | 94 => ⟨S65536x1, .i32⟩
  | 95 => ⟨S65536, .i32⟩
  | 96 => ⟨S_, .i32⟩
  | 97 => ⟨S65536, .i32⟩
  | 98 => ⟨S65536, .i1⟩
  | 99 => ⟨S_, .i32⟩
  | 100 => ⟨S65536, .i32⟩
  | 101 => ⟨S65536, .i32⟩
  | 102 => ⟨S65536, .i32⟩
  | 103 => ⟨S65536x1, .i32⟩
  | 104 => ⟨S65536, .i32⟩
  | 105 => ⟨S65536, .i32⟩
  | 106 => ⟨S_, .i32⟩
  | 107 => ⟨S65536, .i32⟩
  | 108 => ⟨S65536, .i1⟩
  | 109 => ⟨S_, .i32⟩
  | 110 => ⟨S65536, .i32⟩
  | 111 => ⟨S65536, .i32⟩
  | 112 => ⟨S65536, .i32⟩
  | 113 => ⟨S65536x1, .i32⟩
  | 114 => ⟨S1, .i32⟩
  | 115 => ⟨S_, .i32⟩
  | 116 => ⟨S65536x1, .i32⟩
  | 117 => ⟨S65536x1, .i1⟩
  | 118 => ⟨S1x1, .i32⟩
  | 119 => ⟨S65536x1, .i32⟩
  | 120 => ⟨S65536x1, .i1⟩
  | 121 => ⟨S65536x1, .i1⟩
  | 122 => ⟨S_, .i1⟩
  | 123 => ⟨S65536, .i1⟩
  | 124 => ⟨S65536x51, .f32⟩
  | 125 => ⟨S65536x51, .i1⟩
  | 126 => ⟨S_, .f32⟩
  | 127 => ⟨S65536x51, .f32⟩
  | _ => ⟨S20480x512, .f32⟩

abbrev hbmTy0_1 (i : Nat) : BufTy := match i % 128 with
  | 0 => ⟨S65536x51, .f32⟩
  | 1 => ⟨S65536x51, .f32⟩
  | _ => ⟨S20480x512, .f32⟩

abbrev hbmTy (i : Nat) : BufTy := match i / 128 with
  | 0 => hbmTy0_0 i
  | 1 => hbmTy0_1 i
  | _ => ⟨S20480x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x4096, .f32⟩
  | .local _ .vmem, ⟨11, _⟩ => ⟨S512x4096, .f32⟩
  | .local _ .vmem, ⟨12, _⟩ => ⟨S512x51, .f32⟩
  | .local _ .vmem, ⟨13, _⟩ => ⟨S512x51, .f32⟩
  | .local _ .vmem, ⟨14, _⟩ => ⟨S512x4096, .bf16⟩
  | .local _ .vmem, ⟨15, _⟩ => ⟨S512x4096, .bf16⟩
  | .local _ .vmem, ⟨16, _⟩ => ⟨S1x4096, .f32⟩
  | .local _ .vmem, ⟨17, _⟩ => ⟨S4096x51, .bf16⟩
  | .local _ .vmem, ⟨18, _⟩ => ⟨S1x51, .f32⟩
  | .local _ .vmem, ⟨19, _⟩ => ⟨S512x51, .bf16⟩
  | .local _ .vmem, ⟨20, _⟩ => ⟨S512x51, .bf16⟩
  | .local _ .vmem, ⟨21, _⟩ => ⟨S1x51, .f32⟩
  | .local _ .vmem, ⟨22, _⟩ => ⟨S512x51, .f32⟩
  | .local _ .vmem, ⟨23, _⟩ => ⟨S512x51, .f32⟩
  | _, _ => ⟨S20480x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_c : Ref sig .tc := ⟨.hbm, 82, rfl⟩
abbrev main_v25 : Ref sig .tc := ⟨.hbm, 83, rfl⟩
abbrev main_v26 : Ref sig .tc := ⟨.hbm, 84, rfl⟩
abbrev main_c_0 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_c_1 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_c_2 : Ref sig .tc := ⟨.hbm, 96, rfl⟩
abbrev main_v36 : Ref sig .tc := ⟨.hbm, 97, rfl⟩
abbrev main_v37 : Ref sig .tc := ⟨.hbm, 98, rfl⟩
abbrev main_c_3 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_c_1 : Ref sig .tc := ⟨.hbm, 114, rfl⟩
abbrev main_call2_c_2 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_c_3 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_cst : Ref sig .tc := ⟨.hbm, 126, rfl⟩
abbrev main_call2_v15 : Ref sig .tc := ⟨.hbm, 127, rfl⟩
abbrev main_v44 : Ref sig .tc := ⟨.hbm, 128, rfl⟩
abbrev main_v45 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x51 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x51 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x51 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x51 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x51 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x51 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x51 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bitsLt_bf16_f32 : FTy.bits .bf16 < FTy.bits .f32
  shapeCasts_S1024_S1x1024 : S1024.ShapeCasts S1x1024
  slices_S1024x4096_S512x4096_0_0 : S1024x4096.Slices ![0, 0] S512x4096
  slices_S1024x4096_S512x4096_512_0 : S1024x4096.Slices ![512, 0] S512x4096
  shapeCasts_S4096_S1x4096 : S4096.ShapeCasts S1x4096
  shapeCasts_S51_S1x51 : S51.ShapeCasts S1x51
  slices_S1024x51_S512x51_0_0 : S1024x51.Slices ![0, 0] S512x51
  slices_S1024x51_S512x51_512_0 : S1024x51.Slices ![512, 0] S512x51
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S20480x1024_S20480x512_0_0 : S20480x1024.Slices ![0, 0] S20480x512
  slices_S20480x1024_S20480x512_0_512 : S20480x1024.Slices ![0, 512] S20480x512
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x512_0 : S65536.BroadcastsInDim S65536x512 (![0] : Fin 1 → Fin S65536x512.rank)
  bcast_S_S65536x512 : S_.BroadcastsInDim S65536x512 (![] : Fin 0 → Fin S65536x512.rank)
  slices_S65536x2_S65536x1_0_1 : S65536x2.Slices ![0, 1] S65536x1
  bcast_S65536_S65536x51_0 : S65536.BroadcastsInDim S65536x51 (![0] : Fin 1 → Fin S65536x51.rank)
  bcast_S_S65536x51 : S_.BroadcastsInDim S65536x51 (![] : Fin 0 → Fin S65536x51.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x1024_0_0 : ∀ a, (![0, 0] : Fin 2 → Nat) a + S512x1024.size a ≤ S512x4096.size a
  inb_S1x4096_S1x1024_0_0 : ∀ a, (![0, 0] : Fin 2 → Nat) a + S1x1024.size a ≤ S1x4096.size a
  broadcasts_S1x1024_S512x1024 : S1x1024.Broadcasts S512x1024
  inb_S4096x51_S1024x51_0_0 : ∀ a, (![0, 0] : Fin 2 → Nat) a + S1024x51.size a ≤ S4096x51.size a
  h_S1024x51 : 0 < S1024x51.numel
  shapeCasts_S1024x51_S1024x51 : S1024x51.ShapeCasts S1024x51
  inb_S512x4096_S512x1024_0_1024 : ∀ a, (![0, 1024] : Fin 2 → Nat) a + S512x1024.size a ≤ S512x4096.size a
  inb_S1x4096_S1x1024_0_1024 : ∀ a, (![0, 1024] : Fin 2 → Nat) a + S1x1024.size a ≤ S1x4096.size a
  inb_S4096x51_S1024x51_1024_0 : ∀ a, (![1024, 0] : Fin 2 → Nat) a + S1024x51.size a ≤ S4096x51.size a
  inb_S512x4096_S512x1024_0_2048 : ∀ a, (![0, 2048] : Fin 2 → Nat) a + S512x1024.size a ≤ S512x4096.size a
  inb_S1x4096_S1x1024_0_2048 : ∀ a, (![0, 2048] : Fin 2 → Nat) a + S1x1024.size a ≤ S1x4096.size a
  inb_S4096x51_S1024x51_2048_0 : ∀ a, (![2048, 0] : Fin 2 → Nat) a + S1024x51.size a ≤ S4096x51.size a
  inb_S512x4096_S512x1024_0_3072 : ∀ a, (![0, 3072] : Fin 2 → Nat) a + S512x1024.size a ≤ S512x4096.size a
  inb_S1x4096_S1x1024_0_3072 : ∀ a, (![0, 3072] : Fin 2 → Nat) a + S1x1024.size a ≤ S1x4096.size a
  inb_S4096x51_S1024x51_3072_0 : ∀ a, (![3072, 0] : Fin 2 → Nat) a + S1024x51.size a ≤ S4096x51.size a
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S512x51 : S1x51.Broadcasts S512x51
  inb_S512x51_S512x51_0_0 : ∀ a, (![0, 0] : Fin 2 → Nat) a + S512x51.size a ≤ S512x51.size a
  h_S512x51 : 0 < S512x51.numel
  shapeCasts_S512x51_S512x51 : S512x51.ShapeCasts S512x51
  dot_S1024x512_S512x1024_S1024x1024_1_0_0_1_n_n_wf : DotDims.WF S1024x512 S512x1024 S1024x1024 [1] [0] [0] [1] [] []
  gather_S20480x512_S65536x1_S65536x512_1_0_n_n_0_1_1512_wf : GatherDims.WF S20480x512 S65536x1 S65536x512 [1] [0] [] [0] [] 1 ![1, 512]
  gather_S20480_S65536x1_S65536_n_0_n_n_0_1_1_wf : GatherDims.WF S20480 S65536x1 S65536 [] [0] [] [0] [] 1 ![1]
  gather_S22801x51_S65536x1_S65536x51_1_0_n_n_0_1_151_wf : GatherDims.WF S22801x51 S65536x1 S65536x51 [1] [0] [] [0] [] 1 ![1, 51]
  dot_S512x512_S512x1024_S512x1024_1_0_0_1_n_n_wf : DotDims.WF S512x512 S512x1024 S512x1024 [1] [0] [0] [1] [] []
  dot_S512x1024_S1024x51_S512x51_1_0_0_1_n_n_wf : DotDims.WF S512x1024 S1024x51 S512x51 [1] [0] [0] [1] [] []
  dot_S512x512_S512x51_S512x51_1_0_0_1_n_n_wf : DotDims.WF S512x512 S512x51 S512x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S20480x512.size a
  hwx0_0 : ∀ i : grid0.Coords, EltTy.bits .f32 = 32 ∨ (Rect.block (s := S20480x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S20480x1024.size a
  hwx0_3 : ∀ i : grid0.Coords, EltTy.bits .f32 = 32 ∨ (Rect.block (s := S20480x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S65536x512.size a
  hwx1_0 : ∀ i : grid1.Coords, EltTy.bits .f32 = 32 ∨ (Rect.block (s := S65536x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S65536x512.size a
  hwx1_1 : ∀ i : grid1.Coords, EltTy.bits .f32 = 32 ∨ (Rect.block (s := S65536x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S65536x4096.size a
  hwx1_2 : ∀ i : grid1.Coords, EltTy.bits .f32 = 32 ∨ (Rect.block (s := S65536x4096) S512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x51.size a ≤ S65536x51.size a
  hwx1_3 : ∀ i : grid1.Coords, EltTy.bits .f32 = 32 ∨ (Rect.block (s := S65536x51) S512x51.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S512x4096.size a
  hwx1_4 : ∀ i : grid1.Coords, EltTy.bits .bf16 = 32 ∨ (Rect.block (s := S512x4096) S512x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S512x4096.size a
  hwx1_5 : ∀ i : grid1.Coords, EltTy.bits .bf16 = 32 ∨ (Rect.block (s := S512x4096) S512x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x51.size a ≤ S4096x51.size a
  hwx1_7 : ∀ i : grid1.Coords, EltTy.bits .bf16 = 32 ∨ (Rect.block (s := S4096x51) S4096x51.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x51.size a ≤ S1x51.size a
  hwx1_8 : ∀ i : grid1.Coords, EltTy.bits .f32 = 32 ∨ (Rect.block (s := S1x51) S1x51.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x51.size a ≤ S512x51.size a
  hwx1_9 : ∀ i : grid1.Coords, EltTy.bits .bf16 = 32 ∨ (Rect.block (s := S512x51) S512x51.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x51.size a ≤ S512x51.size a
  hwx1_10 : ∀ i : grid1.Coords, EltTy.bits .bf16 = 32 ∨ (Rect.block (s := S512x51) S512x51.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x51.size a ≤ S1x51.size a
  hwx1_11 : ∀ i : grid1.Coords, EltTy.bits .f32 = 32 ∨ (Rect.block (s := S1x51) S1x51.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S512x51.size a ≤ S65536x51.size a
  hwx1_12 : ∀ i : grid1.Coords, EltTy.bits .f32 = 32 ∨ (Rect.block (s := S65536x51) S512x51.size (cc1_transform_12 i) (hinb1_12 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S20480x512_S65536x1_S65536x512_1_0_n_n_0_1_1512 : GatherDims S20480x512 S65536x1 S65536x512 where
  offsetDims := [1]
  collapsedSliceDims := [0]
  operandBatchingDims := []
  startIndicesBatchingDims := []
  startIndexMap := [0]
  indexVectorDim := 1
  sliceSizes := ![1, 512]
  wf := gather_S20480x512_S65536x1_S65536x512_1_0_n_n_0_1_1512_wf
def gather_S20480_S65536x1_S65536_n_0_n_n_0_1_1 : GatherDims S20480 S65536x1 S65536 where
  offsetDims := []
  collapsedSliceDims := [0]
  operandBatchingDims := []
  startIndicesBatchingDims := []
  startIndexMap := [0]
  indexVectorDim := 1
  sliceSizes := ![1]
  wf := gather_S20480_S65536x1_S65536_n_0_n_n_0_1_1_wf
def gather_S22801x51_S65536x1_S65536x51_1_0_n_n_0_1_151 : GatherDims S22801x51 S65536x1 S65536x51 where
  offsetDims := [1]
  collapsedSliceDims := [0]
  operandBatchingDims := []
  startIndicesBatchingDims := []
  startIndexMap := [0]
  indexVectorDim := 1
  sliceSizes := ![1, 51]
  wf := gather_S22801x51_S65536x1_S65536x51_1_0_n_n_0_1_151_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x51_S512x51_1_0_0_1_n_n : DotDims S512x1024 S1024x51 S512x51 where
  lhsContracting := [1]
  rhsContracting := [0]
  lhsNonContracting := [0]
  rhsNonContracting := [1]
  lhsBatch := []
  rhsBatch := []
  wf := dot_S512x1024_S1024x51_S512x51_1_0_0_1_n_n_wf
def dot_S512x512_S512x51_S512x51_1_0_0_1_n_n : DotDims S512x512 S512x51 S512x51 where
  lhsContracting := [1]
  rhsContracting := [0]
  lhsNonContracting := [0]
  rhsNonContracting := [1]
  lhsBatch := []
  rhsBatch := []
  wf := dot_S512x512_S512x51_S512x51_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S512x51.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S4096x51.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x51.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S512x51.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S512x51.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13) S1x51.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v45) S512x51.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S20480x512 : Shape := ⟨2, ![20480, 512]⟩
abbrev S65536x4096 : Shape := ⟨2, ![65536, 4096]⟩
abbrev S65536x2 : Shape := ⟨2, ![65536, 2]⟩
abbrev S20480 : Shape := ⟨1, ![20480]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x51 : Shape := ⟨2, ![4096, 51]⟩
abbrev S51 : Shape := ⟨1, ![51]⟩
abbrev S1024x51 : Shape := ⟨2, ![1024, 51]⟩
abbrev S22801x51 : Shape := ⟨2, ![22801, 51]⟩
abbrev S20480x1024 : Shape := ⟨2, ![20480, 1024]⟩
abbrev S1x1024 : Shape := ⟨2, ![1, 1024]⟩
abbrev S20480x2x512 : Shape := ⟨3, ![20480, 2, 512]⟩
abbrev S20480x1x512 : Shape := ⟨3, ![20480, 1, 512]⟩
abbrev S65536x1 : Shape := ⟨2, ![65536, 1]⟩
abbrev S65536 : Shape := ⟨1, ![65536]⟩
abbrev S_ : Shape := ⟨0, ![]⟩
abbrev S65536x512 : Shape := ⟨2, ![65536, 512]⟩
abbrev S65536x1024 : Shape := ⟨2, ![65536, 1024]⟩
abbrev S1x4096 : Shape := ⟨2, ![1, 4096]⟩
abbrev S65536x51 : Shape := ⟨2, ![65536, 51]⟩
abbrev S1x51 : Shape := ⟨2, ![1, 51]⟩

abbrev nBuf : Space → Nat
  | .hbm => 95
  | .vmem => 0
  | .smem => 0
  | _ => 0

abbrev bufTy : (tb : Table) → Fin (tcTables nBuf tb) → BufTy
  | .hbm, ⟨0, _⟩ => ⟨S20480x512, .f32⟩
  | .hbm, ⟨1, _⟩ => ⟨S65536x4096, .f32⟩
  | .hbm, ⟨2, _⟩ => ⟨S65536x2, .i32⟩
  | .hbm, ⟨3, _⟩ => ⟨S20480, .i32⟩
  | .hbm, ⟨4, _⟩ => ⟨S512x1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x51, .f32⟩
  | .hbm, ⟨9, _⟩ => ⟨S51, .f32⟩
  | .hbm, ⟨10, _⟩ => ⟨S1024x51, .f32⟩
  | .hbm, ⟨11, _⟩ => ⟨S51, .f32⟩
  | .hbm, ⟨12, _⟩ => ⟨S22801x51, .f32⟩
  | .hbm, ⟨13, _⟩ => ⟨S20480x1024, .f32⟩
  | .hbm, ⟨14, _⟩ => ⟨S1x1024, .f32⟩
  | .hbm, ⟨15, _⟩ => ⟨S20480x1024, .f32⟩
  | .hbm, ⟨16, _⟩ => ⟨S20480x1024, .f32⟩
  | .hbm, ⟨17, _⟩ => ⟨S20480x2x512, .f32⟩
  | .hbm, ⟨18, _⟩ => ⟨S20480x1x512, .f32⟩
  | .hbm, ⟨19, _⟩ => ⟨S20480x512, .f32⟩
  | .hbm, ⟨20, _⟩ => ⟨S20480x1x512, .f32⟩
  | .hbm, ⟨21, _⟩ => ⟨S20480x512, .f32⟩
  | .hbm, ⟨22, _⟩ => ⟨S65536x1, .i32⟩
  | .hbm, ⟨23, _⟩ => ⟨S65536, .i32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S65536x512, .f32⟩
  | .hbm, ⟨33, _⟩ => ⟨S65536x1, .i32⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536x512, .f32⟩
  | .hbm, ⟨44, _⟩ => ⟨S65536x1024, .f32⟩
  | .hbm, ⟨45, _⟩ => ⟨S65536x4096, .f32⟩
  | .hbm, ⟨46, _⟩ => ⟨S1x4096, .f32⟩
  | .hbm, ⟨47, _⟩ => ⟨S65536x4096, .f32⟩
  | .hbm, ⟨48, _⟩ => ⟨S65536x4096, .f32⟩
  | .hbm, ⟨49, _⟩ => ⟨S65536x4096, .f32⟩
  | .hbm, ⟨50, _⟩ => ⟨S65536x51, .f32⟩
  | .hbm, ⟨51, _⟩ => ⟨S1x51, .f32⟩
  | .hbm, ⟨52, _⟩ => ⟨S65536x51, .f32⟩
  | .hbm, ⟨53, _⟩ => ⟨S65536x51, .f32⟩
  | .hbm, ⟨54, _⟩ => ⟨S65536x51, .f32⟩
  | .hbm, ⟨55, _⟩ => ⟨S65536x51, .f32⟩
  | .hbm, ⟨56, _⟩ => ⟨S1x51, .f32⟩
  | .hbm, ⟨57, _⟩ => ⟨S65536x51, .f32⟩
  | .hbm, ⟨58, _⟩ => ⟨S65536x51, .f32⟩
  | .hbm, ⟨59, _⟩ => ⟨S65536x1, .i32⟩
  | .hbm, ⟨60, _⟩ => ⟨S65536, .i32⟩
  | .hbm, ⟨61, _⟩ => ⟨S_, .i32⟩
  | .hbm, ⟨62, _⟩ => ⟨S65536, .i32⟩
  | .hbm, ⟨63, _⟩ => ⟨S65536, .i1⟩
  | .hbm, ⟨64, _⟩ => ⟨S_, .i32⟩
  | .hbm, ⟨65, _⟩ => ⟨S65536, .i32⟩
  | .hbm, ⟨66, _⟩ => ⟨S65536, .i32⟩
  | .hbm, ⟨67, _⟩ => ⟨S65536, .i32⟩
  | .hbm, ⟨68, _⟩ => ⟨S65536x1, .i32⟩
  | .hbm, ⟨69, _⟩ => ⟨S65536, .i32⟩
  | .hbm, ⟨70, _⟩ => ⟨S_, .i32⟩
  | .hbm, ⟨71, _⟩ => ⟨S65536, .i32⟩
  | .hbm, ⟨72, _⟩ => ⟨S65536, .i32⟩
  | .hbm, ⟨73, _⟩ => ⟨S65536x1, .i32⟩
  | .hbm, ⟨74, _⟩ => ⟨S65536, .i32⟩
  | .hbm, ⟨75, _⟩ => ⟨S_, .i32⟩
  | .hbm, ⟨76, _⟩ => ⟨S65536, .i32⟩
  | .hbm, ⟨77, _⟩ => ⟨S65536, .i1⟩
  | .hbm, ⟨78, _⟩ => ⟨S_, .i32⟩
  | .hbm, ⟨79, _⟩ => ⟨S65536, .i32⟩
  | .hbm, ⟨80, _⟩ => ⟨S65536, .i32⟩
  | .hbm, ⟨81, _⟩ => ⟨S65536, .i32⟩
  | .hbm, ⟨82, _⟩ => ⟨S65536x1, .i32⟩
  | .hbm, ⟨83, _⟩ => ⟨S65536, .i32⟩
  | .hbm, ⟨84, _⟩ => ⟨S65536, .i32⟩
  | .hbm, ⟨85, _⟩ => ⟨S_, .i32⟩
  | .hbm, ⟨86, _⟩ => ⟨S65536, .i32⟩
  | .hbm, ⟨87, _⟩ => ⟨S65536, .i1⟩
  | .hbm, ⟨88, _⟩ => ⟨S_, .i32⟩
  | .hbm, ⟨89, _⟩ => ⟨S65536, .i32⟩
  | .hbm, ⟨90, _⟩ => ⟨S65536, .i32⟩
  | .hbm, ⟨91, _⟩ => ⟨S65536, .i32⟩
  | .hbm, ⟨92, _⟩ => ⟨S65536x1, .i32⟩
  | .hbm, ⟨93, _⟩ => ⟨S65536x51, .f32⟩
  | .hbm, ⟨94, _⟩ => ⟨S65536x51, .f32⟩
  | _, _ => ⟨S20480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_3 : Ref sig .tc := ⟨.hbm, 61, rfl⟩
abbrev main_v44 : Ref sig .tc := ⟨.hbm, 62, rfl⟩
abbrev main_v45 : Ref sig .tc := ⟨.hbm, 63, rfl⟩
abbrev main_c_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_6 : Ref sig .tc := ⟨.hbm, 75, rfl⟩
abbrev main_v55 : Ref sig .tc := ⟨.hbm, 76, rfl⟩
abbrev main_v56 : Ref sig .tc := ⟨.hbm, 77, rfl⟩
abbrev main_c_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_8 : Ref sig .tc := ⟨.hbm, 85, rfl⟩
abbrev main_v63 : Ref sig .tc := ⟨.hbm, 86, rfl⟩
abbrev main_v64 : Ref sig .tc := ⟨.hbm, 87, rfl⟩
abbrev main_c_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S20480x1024_0_1 : S1x1024.BroadcastsInDim S20480x1024 (![0, 1] : Fin 2 → Fin S20480x1024.rank)
  shapeCasts_S20480x1024_S20480x2x512 : S20480x1024.ShapeCasts S20480x2x512
  slices_S20480x2x512_S20480x1x512_0_0_0 : S20480x2x512.Slices ![0, 0, 0] S20480x1x512
  shapeCasts_S20480x1x512_S20480x512 : S20480x1x512.ShapeCasts S20480x512
  slices_S20480x2x512_S20480x1x512_0_1_0 : S20480x2x512.Slices ![0, 1, 0] S20480x1x512
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x2_S65536x1_0_1 : S65536x2.Slices ![0, 1] S65536x1
  concatenates_S65536x512_S65536x512_S65536x1024_d1 : Shape.Concatenates [S65536x512, S65536x512] S65536x1024 1
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  bcast_S51_S1x51_1 : S51.BroadcastsInDim S1x51 (![1] : Fin 1 → Fin S1x51.rank)
  bcast_S1x51_S65536x51_0_1 : S1x51.BroadcastsInDim S65536x51 (![0, 1] : Fin 2 → Fin S65536x51.rank)
  dot_S20480x512_S512x1024_S20480x1024_1_0_0_1_n_n_wf : DotDims.WF S20480x512 S512x1024 S20480x1024 [1] [0] [0] [1] [] []
  gather_S20480x512_S65536x1_S65536x512_1_0_n_n_0_1_1512_wf : GatherDims.WF S20480x512 S65536x1 S65536x512 [1] [0] [] [0] [] 1 ![1, 512]
  dot_S65536x1024_S1024x4096_S65536x4096_1_0_0_1_n_n_wf : DotDims.WF S65536x1024 S1024x4096 S65536x4096 [1] [0] [0] [1] [] []
  dot_S65536x4096_S4096x51_S65536x51_1_0_0_1_n_n_wf : DotDims.WF S65536x4096 S4096x51 S65536x51 [1] [0] [0] [1] [] []
  dot_S65536x1024_S1024x51_S65536x51_1_0_0_1_n_n_wf : DotDims.WF S65536x1024 S1024x51 S65536x51 [1] [0] [0] [1] [] []
  gather_S20480_S65536x1_S65536_n_0_n_n_0_1_1_wf : GatherDims.WF S20480 S65536x1 S65536 [] [0] [] [0] [] 1 ![1]
  gather_S22801x51_S65536x1_S65536x51_1_0_n_n_0_1_151_wf : GatherDims.WF S22801x51 S65536x1 S65536x51 [1] [0] [] [0] [] 1 ![1, 51]

variable [Facts₀]

def dot_S20480x512_S512x1024_S20480x1024_1_0_0_1_n_n : DotDims S20480x512 S512x1024 S20480x1024 where
  lhsContracting := [1]
  rhsContracting := [0]
  lhsNonContracting := [0]
  rhsNonContracting := [1]
  lhsBatch := []
  rhsBatch := []
  wf := dot_S20480x512_S512x1024_S20480x1024_1_0_0_1_n_n_wf
def gather_S20480x512_S65536x1_S65536x512_1_0_n_n_0_1_1512 : GatherDims S20480x512 S65536x1 S65536x512 where
  offsetDims := [1]
  collapsedSliceDims := [0]
  operandBatchingDims := []
  startIndicesBatchingDims := []
  startIndexMap := [0]
  indexVectorDim := 1
  sliceSizes := ![1, 512]
  wf := gather_S20480x512_S65536x1_S65536x512_1_0_n_n_0_1_1512_wf
def dot_S65536x1024_S1024x4096_S65536x4096_1_0_0_1_n_n : DotDims S65536x1024 S1024x4096 S65536x4096 where
  lhsContracting := [1]
  rhsContracting := [0]
  lhsNonContracting := [0]
  rhsNonContracting := [1]
  lhsBatch := []
  rhsBatch := []
  wf := dot_S65536x1024_S1024x4096_S65536x4096_1_0_0_1_n_n_wf
def dot_S65536x4096_S4096x51_S65536x51_1_0_0_1_n_n : DotDims S65536x4096 S4096x51 S65536x51 where
  lhsContracting := [1]
  rhsContracting := [0]
  lhsNonContracting := [0]
  rhsNonContracting := [1]
  lhsBatch := []
  rhsBatch := []
  wf := dot_S65536x4096_S4096x51_S65536x51_1_0_0_1_n_n_wf
def dot_S65536x1024_S1024x51_S65536x51_1_0_0_1_n_n : DotDims S65536x1024 S1024x51 S65536x51 where
  lhsContracting := [1]
  rhsContracting := [0]
  lhsNonContracting := [0]
  rhsNonContracting := [1]
  lhsBatch := []
  rhsBatch := []
  wf := dot_S65536x1024_S1024x51_S65536x51_1_0_0_1_n_n_wf
def gather_S20480_S65536x1_S65536_n_0_n_n_0_1_1 : GatherDims S20480 S65536x1 S65536 where
  offsetDims := []
  collapsedSliceDims := [0]
  operandBatchingDims := []
  startIndicesBatchingDims := []
  startIndexMap := [0]
  indexVectorDim := 1
  sliceSizes := ![1]
  wf := gather_S20480_S65536x1_S65536_n_0_n_n_0_1_1_wf
def gather_S22801x51_S65536x1_S65536x51_1_0_n_n_0_1_151 : GatherDims S22801x51 S65536x1 S65536x51 where
  offsetDims := [1]
  collapsedSliceDims := [0]
  operandBatchingDims := []
  startIndicesBatchingDims := []
  startIndexMap := [0]
  indexVectorDim := 1
  sliceSizes := ![1, 51]
  wf := gather_S22801x51_S65536x1_S65536x51_1_0_n_n_0_1_151_wf

class Facts : Prop extends Facts₀ where

variable [Facts]
-- ==== Proof.Spec.lean ====
/-
  The mathematics of the certificate, with no program in sight.  Every array is a curried function on
  `Fin` coordinates into the extended reals; integer arrays hold 32-bit words.

  * `edge x we be` is the affine map  E[i, j] = Σ_k x[i, k] · we[k, j] + be[j]  (k < 512).
  * A pair row r selects two rows of E: `headRow` from the first column of the pair table and `tailRow` from the
    second, each word first wrapped (a negative word has the table's length added) and then clamped into the table.
  * The product row of r is  P[k] = E[headRow r, k] for k < 512  and  E[tailRow r, k] for 512 ≤ k < 1024.
  * `refRow` is the reference's row:
        (((Σ_p ((Σ_k P[k]·w1[k,p] + b1[p]) · u[p]) · w2[p,j]) + b2[j]) + Σ_k P[k]·w3[k,j]) + b3[j]) + fb[j]
  * `kerRow` is the kernel's row: the contraction over k cut in its two halves (the head half against the top 512 rows
    of a weight, the tail half against the bottom 512) and the contraction over p cut in four consecutive quarters of
    1024, accumulated from zero in order.
  The two agree because addition of extended reals is commutative and associative: only sums are regrouped, no
  product is distributed, so no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array as a function of its two coordinates. -/
abbrev c2 {n0 n1 : Nat} {α : Type} (a : (⟨2, ![n0, n1]⟩ : Shape).Idx → α) : Fin n0 → Fin n1 → α := fun i j => a (ix2 i j)
/-- A rank-1 array as a function of its coordinate. -/
abbrev c1 {n0 : Nat} {α : Type} (a : (⟨1, ![n0]⟩ : Shape).Idx → α) : Fin n0 → α := fun i => a (ix1 i)
/-- The one row of a [1, n] array as a function of its column. -/
abbrev r1 {n1 : Nat} {α : Type} (a : (⟨2, ![1, n1]⟩ : Shape).Idx → α) : Fin n1 → α := fun j => a (ix2 (0 : Fin 1) j)

/-- The first half of the 1024 product coordinates. -/
def lo (k : Fin 512) : Fin 1024 := ⟨k.val, by omega⟩
/-- The second half of the 1024 product coordinates. -/
def hi (k : Fin 512) : Fin 1024 := ⟨512 + k.val, by omega⟩
/-- Coordinate q of quarter c of the 4096 pooled coordinates. -/
def off (c : Fin 4) (q : Fin 1024) : Fin 4096 := ⟨1024 * c.val + q.val, by omega⟩

/-- A signed word with the table length added when negative. -/
def wrap (n v : BitVec 32) : BitVec 32 := if v.slt 0#32 then v + n else v
/-- A signed word clamped into the rows of a table of N rows. -/
def row (N : Nat) (hN : 0 < N) (v : BitVec 32) : Fin N := ⟨min v.toInt.toNat (N - 1), by omega⟩

/-- The head row of pair r. -/
def headRow (p : Fin 65536 → Fin 2 → BitVec 32) (r : Fin 65536) : Fin 20480 := row 20480 (by decide) (wrap 20480#32 (p r 0))
/-- The tail row of pair r. -/
def tailRow (p : Fin 65536 → Fin 2 → BitVec 32) (r : Fin 65536) : Fin 20480 := row 20480 (by decide) (wrap 20480#32 (p r 1))
/-- The pair's label word: head label · 151 + tail label. -/
def lbl (p : Fin 65536 → Fin 2 → BitVec 32) (o : Fin 20480 → BitVec 32) (r : Fin 65536) : BitVec 32 :=
  o (headRow p r) * 151#32 + o (tailRow p r)
/-- The row of the label table that pair r reads. -/
def lblRow (p : Fin 65536 → Fin 2 → BitVec 32) (o : Fin 20480 → BitVec 32) (r : Fin 65536) : Fin 22801 :=
  row 22801 (by decide) (wrap 22801#32 (lbl p o r))

/-- Every pair word is a row number and every label word a label. -/
def IdxOk (p : Fin 65536 → Fin 2 → BitVec 32) (o : Fin 20480 → BitVec 32) : Prop :=
  (∀ r c, 0 ≤ (p r c).toInt ∧ (p r c).toInt < 20480) ∧ (∀ i, 0 ≤ (o i).toInt ∧ (o i).toInt < 151)

/-- E[i, j] = Σ_k x[i, k] · we[k, j] + be[j]. -/
def edge (x : Fin 20480 → Fin 512 → EReal) (we : Fin 512 → Fin 1024 → EReal) (be : Fin 1024 → EReal)
    (i : Fin 20480) (j : Fin 1024) : EReal :=
  (∑ k : Fin 512, x i k * we k j) + be j

/-- The reference's result row from the product row P, the pooled row u and the label row fb. -/
def refRow (P : Fin 1024 → EReal) (u : Fin 4096 → EReal) (w1 : Fin 1024 → Fin 4096 → EReal) (b1 : Fin 4096 → EReal)
    (w2 : Fin 4096 → Fin 51 → EReal) (b2 : Fin 51 → EReal) (w3 : Fin 1024 → Fin 51 → EReal) (b3 : Fin 51 → EReal)
    (fb : Fin 51 → EReal) (j : Fin 51) : EReal :=
  ((((∑ p : Fin 4096, (((∑ k : Fin 1024, P k * w1 k p) + b1 p) * u p) * w2 p j) + b2 j)
      + ∑ k : Fin 1024, P k * w3 k j) + b3 j) + fb j

/-- Quarter c of the kernel's gated contraction: Σ_q ((Σ_k h·w1t + Σ_k t·w1b + b1) · u) · w2 over the quarter. -/
def quarter (h t : Fin 512 → EReal) (u : Fin 4096 → EReal) (w1t w1b : Fin 512 → Fin 4096 → EReal) (b1 : Fin 4096 → EReal)
    (w2 : Fin 4096 → Fin 51 → EReal) (c : Fin 4) (j : Fin 51) : EReal :=
  ∑ q : Fin 1024, ((((∑ k : Fin 512, h k * w1t k (off c q)) + ∑ k : Fin 512, t k * w1b k (off c q)) + b1 (off c q))
      * u (off c q)) * w2 (off c q) j

/-- The kernel's result row from the head half h and tail half t of the product row. -/
def kerRow (h t : Fin 512 → EReal) (u : Fin 4096 → EReal) (w1t w1b : Fin 512 → Fin 4096 → EReal) (b1 : Fin 4096 → EReal)
    (w2 : Fin 4096 → Fin 51 → EReal) (b2 : Fin 51 → EReal) (w3t w3b : Fin 512 → Fin 51 → EReal) (b3 : Fin 51 → EReal)
    (fb : Fin 51 → EReal) (j : Fin 51) : EReal :=
  ((((((0 + quarter h t u w1t w1b b1 w2 0 j) + quarter h t u w1t w1b b1 w2 1 j) + quarter h t u w1t w1b b1 w2 2 j)
        + quarter h t u w1t w1b b1 w2 3 j) + b2 j)
      + (((∑ k : Fin 512, h k * w3t k j) + ∑ k : Fin 512, t k * w3b k j) + b3 j)) + fb j

/-- A sum over the 1024 product coordinates is the sum over its first half plus the sum over its second half. -/
private theorem sum_halves (f : Fin 1024 → EReal) :
    ∑ k : Fin 1024, f k = (∑ k : Fin 512, f (lo k)) + ∑ k : Fin 512, f (hi k) :=
  Fin.sum_univ_add (a := 512) (b := 512) f

/-- A sum over the 4096 pooled coordinates is the sum of the sums over its four consecutive quarters. -/
private theorem sum_quarters (g : Fin 4096 → EReal) :
    ∑ p : Fin 4096, g p
      = (((∑ q : Fin 1024, g (off 0 q)) + ∑ q : Fin 1024, g (off 1 q)) + ∑ q : Fin 1024, g (off 2 q))
          + ∑ q : Fin 1024, g (off 3 q) := by
  have h3 := Fin.sum_univ_add (a := 3072) (b := 1024) g
  have h2 := Fin.sum_univ_add (a := 2048) (b := 1024) (fun i : Fin 3072 => g (Fin.castAdd 1024 i))
  have h1 := Fin.sum_univ_add (a := 1024) (b := 1024) (fun i : Fin 2048 => g (Fin.castAdd 1024 (Fin.castAdd 1024 i)))
  have e0 : ∀ q : Fin 1024, Fin.castAdd 1024 (Fin.castAdd 1024 (Fin.castAdd 1024 q)) = off 0 q := fun q =>
    Fin.ext (by simp [off] <;> omega)
  have e1 : ∀ q : Fin 1024, Fin.castAdd 1024 (Fin.castAdd 1024 (Fin.natAdd 1024 q)) = off 1 q := fun q =>
    Fin.ext (by simp [off] <;> omega)
  have e2 : ∀ q : Fin 1024, Fin.castAdd 1024 (Fin.natAdd 2048 q) = off 2 q := fun q =>
    Fin.ext (by simp [off] <;> omega)
  have e3 : ∀ q : Fin 1024, Fin.natAdd 3072 q = off 3 q := fun q =>
    Fin.ext (by simp [off] <;> omega)
  simp only [e0, e1, e2, e3] at h1 h2 h3
  rw [h3, h2, h1]

/-- The reference's row is the kernel's row on the two halves of the product row and of the weights. -/
private theorem refRow_eq_kerRow (P : Fin 1024 → EReal) (u : Fin 4096 → EReal) (w1 : Fin 1024 → Fin 4096 → EReal)
    (b1 : Fin 4096 → EReal) (w2 : Fin 4096 → Fin 51 → EReal) (b2 : Fin 51 → EReal) (w3 : Fin 1024 → Fin 51 → EReal)
    (b3 : Fin 51 → EReal) (fb : Fin 51 → EReal) (j : Fin 51) :
    kerRow (fun k => P (lo k)) (fun k => P (hi k)) u (fun k q => w1 (lo k) q) (fun k q => w1 (hi k) q) b1 w2 b2
        (fun k j => w3 (lo k) j) (fun k j => w3 (hi k) j) b3 fb j
      = refRow P u w1 b1 w2 b2 w3 b3 fb j := by
  unfold kerRow refRow quarter
  simp only [sum_quarters, sum_halves, zero_add, add_assoc]

section Out
variable (p : Fin 65536 → Fin 2 → BitVec 32) (o : Fin 20480 → BitVec 32)
  (x : Fin 20480 → Fin 512 → EReal) (we : Fin 512 → Fin 1024 → EReal) (be : Fin 1024 → EReal)
  (u : Fin 65536 → Fin 4096 → EReal) (w1 : Fin 1024 → Fin 4096 → EReal) (b1 : Fin 4096 → EReal)
  (w2 : Fin 4096 → Fin 51 → EReal) (b2 : Fin 51 → EReal) (w3 : Fin 1024 → Fin 51 → EReal) (b3 : Fin 51 → EReal)
  (fbT : Fin 22801 → Fin 51 → EReal)

/-- The product row of pair r. -/
def prodRow (r : Fin 65536) (k : Fin 1024) : EReal :=
  edge x we be (if k.val < 512 then headRow p r else tailRow p r) k

/-- The reference's result at (r, j). -/
def out (r : Fin 65536) (j : Fin 51) : EReal :=
  refRow (prodRow p x we be r) (u r) w1 b1 w2 b2 w3 b3 (fbT (lblRow p o r)) j

/-- The kernel's result at (r, j). -/
def kout (r : Fin 65536) (j : Fin 51) : EReal :=
  kerRow (fun k => edge x we be (headRow p r) (lo k)) (fun k => edge x we be (tailRow p r) (hi k)) (u r)
    (fun k q => w1 (lo k) q) (fun k q => w1 (hi k) q) b1 w2 b2 (fun k j => w3 (lo k) j) (fun k j => w3 (hi k) j) b3
    (fbT (lblRow p o r)) j

/-- The two rows are one: the sums over 1024 and over 4096 regrouped. -/
theorem kout_eq_out (r : Fin 65536) (j : Fin 51) :
    kout p o x we be u w1 b1 w2 b2 w3 b3 fbT r j = out p o x we be u w1 b1 w2 b2 w3 b3 fbT r j := by
  have hlo : (fun k : Fin 512 => edge x we be (headRow p r) (lo k)) = fun k => prodRow p x we be r (lo k) := by
    funext k
    unfold prodRow
    rw [if_pos (show (lo k).val < 512 from k.isLt)]
  have hhi : (fun k : Fin 512 => edge x we be (tailRow p r) (hi k)) = fun k => prodRow p x we be r (hi k) := by
    funext k
    unfold prodRow
    rw [if_neg (show ¬ (hi k).val < 512 from by show ¬ (512 + k.val < 512); omega)]
  unfold kout out
  rw [hlo, hhi]
  exact refRow_eq_kerRow (prodRow p x we be r) (u r) w1 b1 w2 b2 w3 b3 (fbT (lblRow p o r)) j

end Out

end Cert.Spec

end
-- ==== Proof.PreIdx.lean ====
/-
  What the precondition says of the two integer inputs: its last two conjuncts are "every pair word w has
  0 ≤ w < 20480" and "every label word w has 0 ≤ w < 151", each an all-reduction of the conjunction of two signed
  word compares; the precondition being all ones makes every conjunct one, and each all-reduction being one makes
  its compare hold at every index.
-/
import proofs.«405842_j56667798503473_3_alg».proof.Pre_finite_inputs
import proofs.«405842_j56667798503473_3_alg».proof.Proof.Spec
import Idealize.ShloMosaic.Lib.ReduceAll
import Idealize.ShloMosaic.Lib.StableHlo.Predicate

noncomputable section

open scoped BigOperators

namespace Cert.PreIdx

open Cert.Pre_finite_inputs Idealize.ShloMosaic Idealize.ShloMosaic.ValueIdx Cert.Spec

/-- The rank-0 shape has one index. -/
instance : Subsingleton S_.Idx := ⟨fun a b => funext fun d => d.elim0⟩

/-- A pointwise conjunction of bits that is one at an index has both bits one there. -/
theorem andi_at {s : Shape} (x y : IVec s 1) (i : s.Idx) (h : andi x y i = 1#1) : x i = 1#1 ∧ y i = 1#1 :=
  IntOp.andi_eq_one.1 h

/-- A word that passes "0 ≤ w" and "w < n" as signed compares lies in [0, n). -/
theorem range_of_cmp (w lo hi : BitVec 32) (n : Int) (hlo : lo.toInt = 0) (hhi : hi.toInt = n)
    (h0 : IntOp.cmpi .sge w lo = 1#1) (h1 : IntOp.cmpi .slt w hi = 1#1) : 0 ≤ w.toInt ∧ w.toInt < n := by
  have a := IntOp.cmpi_sge.1 h0
  have b := IntOp.cmpi_slt.1 h1
  rw [hlo] at a
  rw [hhi] at b
  exact ⟨a, b⟩

/-- The compare of an array against a broadcast scalar, at an index, is the compare of the word against the scalar. -/
theorem range_at {s : Shape} (x : IVec s 32) (hb : S_.BroadcastsInDim s (![] : Fin 0 → Fin s.rank)) (lo hi : BitVec 32) (n : Int)
    (hlo : lo.toInt = 0) (hhi : hi.toInt = n) (i : s.Idx)
    (h : andi (cmpi .sge x (broadcastInDim s ![] hb (constantI S_ 32 lo)))
      (cmpi .slt x (broadcastInDim s ![] hb (constantI S_ 32 hi))) i = 1#1) :
    0 ≤ (x i).toInt ∧ (x i).toInt < n := by
  obtain ⟨g0, g1⟩ := andi_at _ _ _ h
  exact range_of_cmp (x i) lo hi n hlo hhi g0 g1

/-- Under the precondition every pair word is a row number and every label word a label. -/
theorem idxOk_of_fn [Cert.Pre_finite_inputs.Facts]
    (x0 : FVec Ideal S20480x512 .f32) (x1 : FVec Ideal S65536x4096 .f32) (x2 : IVec S65536x2 32) (x3 : IVec S20480 32)
    (x4 : FVec Ideal S512x1024 .f32) (x5 : FVec Ideal S1024 .f32) (x6 : FVec Ideal S1024x4096 .f32) (x7 : FVec Ideal S4096 .f32)
    (x8 : FVec Ideal S4096x51 .f32) (x9 : FVec Ideal S51 .f32) (x10 : FVec Ideal S1024x51 .f32) (x11 : FVec Ideal S51 .f32)
    (x12 : FVec Ideal S22801x51 .f32)
    (h : Cert.Pre_finite_inputs.fn (F := Ideal) x0 x1 x2 x3 x4 x5 x6 x7 x8 x9 x10 x11 x12 = fun _ => 1#1) :
    Spec.IdxOk (c2 x2) (c1 x3) := by
  have e := congrFun h ValueIdx.ix0
  dsimp only [fn, fn_part1, fn_part2, fn_part3] at e
  obtain ⟨e1, e3⟩ := andi_at _ _ _ e
  obtain ⟨-, e2⟩ := andi_at _ _ _ e1
  have a2 := Host.reduce_andi_all _ _ _ _ _ e2
  have a3 := Host.reduce_andi_all _ _ _ _ _ e3
  refine ⟨fun r c => ?_, fun i => ?_⟩
  · exact range_at x2 _ 0#32 20480#32 20480 (by decide) (by decide) (ix2 r c) (a2 (ix2 r c))
  · exact range_at x3 _ 0#32 151#32 151 (by decide) (by decide) (ix1 i) (a3 (ix1 i))

end Cert.PreIdx

end
-- ==== Proof.EdgeVal.lean ====
/-
  The first kernel region (the affine map E = x · we + be, tiled in 20 row blocks of 1024): what one grid point's body
  leaves in its output block, element by element, and from it the whole output array after the region, as a function
  of the three arrays the region finds on entry.
-/
import proofs.«405842_j56667798503473_3_alg».proof.Proof.Gen.KernelIdeal.Frame
import proofs.«405842_j56667798503473_3_alg».proof.Proof.Spec
import Idealize.ShloMosaic.Lib.Pipeline.Value
import Idealize.ShloMosaic.PureOps.Ideal.Laws

noncomputable section

open scoped BigOperators

namespace Cert.KernelIdeal.EdgeVal

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

/-! ## One block: the body's stored value, element by element -/

/-- The offsets of an access to a whole block are zero on both axes. -/
theorem edge_zero_off : (![0, 0] : Fin 2 → Nat) = fun _ => 0 := funext fun a => by
  match a with
  | ⟨0, _⟩ => rfl
  | ⟨1, _⟩ => rfl

/-- The block product's left operand index at output index i and contraction index k: row i₀ … -/
theorem edge_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- … and column k. -/
theorem edge_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand index: row k … -/
theorem edge_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and column i₁. -/
theorem edge_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product accumulated from zero, at (p, q): the sum over the 512 contracted coordinates of a[p, k] · b[k, q]. -/
theorem edge_mm_apply (a : FVec Ideal S1024x512 .bf16) (b : FVec Ideal S512x1024 .bf16) (p : Fin 1024) (q : Fin 1024) :
    matmul (F := Ideal) dot_S1024x512_S512x1024_S1024x1024_1_0_0_1_n_n none a b (constant (F := Ideal) S1024x1024 .f32 0x00000000#32) (ix2 p q)
      = ∑ k : Fin 512, a (ix2 p k) * b (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact edge_lhs_0 _ _
    | ⟨1, _⟩ => exact (edge_lhs_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (edge_rhs_0 _ _).trans hk
    | ⟨1, _⟩ => exact edge_rhs_1 _ _)
  rw [el, er]

/-- The bias row repeated over the 1024 rows of a block, at (p, q): the row's entry q. -/
theorem edge_bias_apply (x2 : FVec Ideal S1x1024 .f32) (p : Fin 1024) (q : Fin 1024) :
    broadcastTo S1024x1024 x2 broadcasts_S1x1024_S1024x1024 (ix2 p q) = x2 (ix2 (0 : Fin 1) q) :=
  broadcastTo_apply x2 broadcasts_S1x1024_S1024x1024 (ix2 p q) (ix2 (0 : Fin 1) q) (fun a => by
    match a with
    | ⟨0, _⟩ => rfl
    | ⟨1, _⟩ => rfl)

/-- The value the body stores, at (p, q): the narrowing of x and the casts to the same shape are the identity on the
    extended reals, so it is the block product plus the bias row. -/
theorem edge_pay_apply (x0 : Vec Ideal S1024x512 .f32) (x1 : Vec Ideal S512x1024 .bf16) (x2 : Vec Ideal S1x1024 .f32)
    (p : Fin 1024) (q : Fin 1024) :
    k0_pay1 (F := Ideal) x0 x1 x2 (ix2 p q) = (∑ k : Fin 512, x0 (ix2 p k) * x1 (ix2 k q)) + x2 (ix2 (0 : Fin 1) q) := by
  unfold k0_pay1
  rw [addf_apply, shapeCast_self, shapeCast_self, edge_mm_apply, edge_bias_apply]
  rfl

/-- One output block of the first region: the block of x times the whole weight, plus the bias row. -/
theorem out0_3_apply (x0 : Vec Ideal S1024x512 .f32) (x1 : Vec Ideal S512x1024 .bf16) (x2 : Vec Ideal S1x1024 .f32)
    (p : Fin 1024) (q : Fin 1024) :
    out0_3 (F := Ideal) x0 x1 x2 (ix2 p q) = (∑ k : Fin 512, x0 (ix2 p k) * x1 (ix2 k q)) + x2 (ix2 (0 : Fin 1) q) := by
  unfold out0_3
  rw [View.canon_unit_zero edge_zero_off]
  simp only [View.ld_unit_zero (S := S1024x512) edge_zero_off, View.ld_unit_zero (S := S512x1024) edge_zero_off, View.ld_unit_zero (S := S1x1024) edge_zero_off]
  exact edge_pay_apply x0 x1 x2 p q

/-! ## From the 20 blocks to the array -/

variable (V : (c : Dev nD) → (b : Ref sig .tc) → Buf (Elt Ideal) ((c : Thread nD τ).loc b))

/-- The affine map of the three arrays found on entry, as an array over the index of the region's output. -/
abbrev edgeArr (c : Dev nD) : S20480x1024.Idx → EReal := fun i =>
  Spec.edge (c2 (V c (Pipeline.arrRef spec0 0))) (c2 (V c (Pipeline.arrRef spec0 1))) (r1 (V c (Pipeline.arrRef spec0 2))) (i 0) (i 1)

/-- The block indices over the 20 points: the block of x and the output block sit at block row t, column 0; the
    weight's and the bias's block is block (0, 0) at every point. -/
theorem edge_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of the body's result is a block of the affine map: when x0 is rows 1024·n … 1024·n + 1023 of A0, x1 is A1
    and x2 is A2, the result at y is the map at row 1024·n + y₀ and column y₁. -/
theorem edge_block (A0 : S20480x512.Idx → EReal) (A1 : S512x1024.Idx → EReal) (A2 : S1x1024.Idx → EReal)
    (x0 : Vec Ideal S1024x512 .f32) (x1 : Vec Ideal S512x1024 .bf16) (x2 : Vec Ideal S1x1024 .f32) (n : Nat)
    (h0 : ∀ (y : S1024x512.Idx) (i : S20480x512.Idx), (i 0).val = 1024 * n + (y 0).val → (i 1).val = (y 1).val → x0 y = A0 i)
    (h1 : ∀ y : S512x1024.Idx, x1 y = A1 y)
    (h2 : ∀ y : S1x1024.Idx, x2 y = A2 y)
    (y : S1024x1024.Idx) (i : S20480x1024.Idx) (hi0 : (i 0).val = 1024 * n + (y 0).val) (hi1 : (i 1).val = (y 1).val) :
    out0_3 (F := Ideal) x0 x1 x2 y = Spec.edge (c2 A0) (c2 A1) (r1 A2) (i 0) (i 1) := by
  obtain ⟨p, q, rfl⟩ : ∃ (p : Fin 1024) (q : Fin 1024), y = ix2 p q := ⟨y 0, y 1, eq_ix2 y⟩
  obtain ⟨r, s, rfl⟩ : ∃ (r : Fin 20480) (s : Fin 1024), i = ix2 r s := ⟨i 0, i 1, eq_ix2 i⟩
  obtain rfl : s = q := Fin.ext hi1
  show out0_3 (F := Ideal) x0 x1 x2 (ix2 p s) = Spec.edge (c2 A0) (c2 A1) (r1 A2) r s
  rw [out0_3_apply]
  unfold Spec.edge
  rw [h2]
  exact congrArg (· + A2 (ix2 (0 : Fin 1) s)) (Finset.sum_congr rfl fun k _ => by rw [h0 (ix2 p k) (ix2 r k) hi0 rfl, h1])

/-- What point t writes back is block t of the affine map of the entry arrays: the block of x is rows 1024·t … of x,
    the weight's and the bias's blocks are the whole arrays, and the output block sits at rows 1024·t … (a block's
    coordinate in its array is block index × block size + the coordinate inside the block). -/
theorem edge_flushed (c : Dev nD) (t : Fin cfg0.N) :
    (dat0 V c).flushed 3 t = ((cfg0.win 3).blk t).view.read (Elt Ideal) (edgeArr V c) := by
  show (cfg0.win 3).cut (grid0.coords t) ((dat0 V c).after 3 t) = _
  rw [after0_3]
  obtain ⟨e00, e01, e10, e11, e20, e21, e30, e31⟩ := edge_idx_facts t
  funext j
  refine edge_block (V c (Pipeline.arrRef spec0 0)) (V c (Pipeline.arrRef spec0 1)) (V c (Pipeline.arrRef spec0 2))
    (iblk0 V c 0 t) (iblk0 V c 1 t) (iblk0 V c 2 t) t.val ?_ ?_ ?_
    ((cfg0.win 3).xinj (grid0.coords t) j) (((cfg0.win 3).blk t).view.emb j) ?_ ?_
  · intro y i hy0 hy1
    show V c (Pipeline.arrRef spec0 0) (((cfg0.win 0).blk t).view.emb y) = V c (Pipeline.arrRef spec0 0) i
    refine congrArg _ (funext fun a => Fin.ext ?_)
    match a with
    | ⟨0, _⟩ => show win0_0.index t (0 : Fin 2) * 1024 + 1 * (y 0).val = (i 0).val; omega
    | ⟨1, _⟩ => show win0_0.index t (1 : Fin 2) * 512 + 1 * (y 1).val = (i 1).val; omega
  · intro y
    show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 1024 + 1 * (y 1).val = (y 1).val; omega
  · intro y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 1024 + 1 * (y 1).val = (y 1).val; omega
  · show win0_3.index t (0 : Fin 2) * 1024 + 1 * (j 0).val = 1024 * t.val + (j 0).val; omega
  · show win0_3.index t (1 : Fin 2) * 1024 + 1 * (j 1).val = (j 1).val; omega

/-- An index of the output array is in point t's block iff each coordinate is in the block's range on its axis. -/
theorem edge_mem_blk (t : Fin cfg0.N) (i : S20480x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v14).slice (win0_3.rect t)).set ↔ _
  rw [View.set_slice_whole, Rect.mem_set_unit]
  exact Iff.rfl

/-- The 20 blocks cover the output array: row r lies in the block of point r / 1024, and every point writes back. -/
theorem edge_covered (i : S20480x1024.Idx) :
    ∃ t : Fin cfg0.N, (cfg0.win 3).flush t = true ∧ i ∈ ((cfg0.win 3).blk t).view.set := by
  have hN : grid0.N = 20 := N_0
  have hN' : cfg0.N = 20 := N_0
  have hi0 : (i 0).val < 20480 := (i 0).isLt
  have hi1 : (i 1).val < 1024 := (i 1).isLt
  refine ⟨⟨(i 0).val / 1024, by omega⟩, flush0_3 _, ?_⟩
  rw [edge_mem_blk]
  obtain ⟨-, -, -, -, -, -, e30, e31⟩ := edge_idx_facts ⟨(i 0).val / 1024, by omega⟩
  have e30' : win0_3.index ⟨(i 0).val / 1024, by omega⟩ (0 : Fin 2) = (i 0).val / 1024 := e30
  intro a
  match a with
  | ⟨0, _⟩ => show win0_3.index ⟨(i 0).val / 1024, _⟩ (0 : Fin 2) * 1024 ≤ (i 0).val ∧ (i 0).val < win0_3.index ⟨(i 0).val / 1024, _⟩ (0 : Fin 2) * 1024 + 1024; omega
  | ⟨1, _⟩ => show win0_3.index ⟨(i 0).val / 1024, _⟩ (1 : Fin 2) * 1024 ≤ (i 1).val ∧ (i 1).val < win0_3.index ⟨(i 0).val / 1024, _⟩ (1 : Fin 2) * 1024 + 1024; omega

/-- The output array after the region is the affine map of the entry arrays, everywhere. -/
theorem edge_array (c : Dev nD) : (dat0 V c).arrAt 3 cfg0.N = edgeArr V c :=
  (dat0 V c).arrAt_eq_of_cover 3 (edgeArr V c) (fun t _ => edge_flushed V c t) edge_covered

/-- The first region's output array after the region, at (i, j): the affine map of the arrays found on entry. -/
theorem edge_apply (c : Dev nD) (i : Fin 20480) (j : Fin 1024) :
    (dat0 V c).arrAt 3 cfg0.N (ix2 i j)
      = Spec.edge (c2 (V c (Pipeline.arrRef spec0 0))) (c2 (V c (Pipeline.arrRef spec0 1))) (r1 (V c (Pipeline.arrRef spec0 2))) i j := by
  rw [edge_array]

end Cert.KernelIdeal.EdgeVal

end
-- ==== Proof.RelPay.lean ====
/-
  The second kernel region's body at one grid point, element by element: from the twelve input blocks it leaves in the
  output block the kernel's row formula `Cert.Spec.kerRow` — four quarters of the gated contraction accumulated from
  zero, the pooled bias, the two halves of the context contraction with their bias, and the label row.
-/
import proofs.«405842_j56667798503473_3_alg».proof.Proof.Gen.KernelIdeal.Frame
import proofs.«405842_j56667798503473_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.RelPay

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

/-! ## The quarters of the resident blocks

A block of 4096 pooled coordinates is read in four consecutive quarters of 1024: coordinate b of quarter c is coordinate
1024·c + b of the block (`Spec.off c b`). -/

/-- The offsets of a whole-block rectangle are zero. -/
theorem hz : (![0, 0] : Fin 2 → Nat) = fun _ => 0 := funext fun a => by
  match a with
  | ⟨0, _⟩ => rfl
  | ⟨1, _⟩ => rfl

/-- Columns 1024·c … 1024·c + 1023 of a 512 × 4096 block, read at (a, b): the block at (a, 1024·c + b). -/
theorem ld_cols {e : EltTy} (x : Vec Ideal S512x4096 e) (o : Nat) (c : Fin 4) (ho : o = 1024 * c.val)
    (inb : ∀ a, (![0, o] : Fin 2 → Nat) a + S512x1024.size a ≤ S512x4096.size a) (a : Fin 512) (b : Fin 1024) :
    View.ld x (Rect.unit (s := S512x4096) ![0, o] S512x1024.size inb) (ix2 a b) = x (ix2 a (off c b)) := by
  subst ho
  show x _ = x _
  refine congrArg x (funext fun d => Fin.ext ?_)
  match d with
  | ⟨0, _⟩ => show 0 + 1 * a.val = a.val; omega
  | ⟨1, _⟩ => show 1024 * c.val + 1 * b.val = 1024 * c.val + b.val; omega

/-- Columns 1024·c … 1024·c + 1023 of the one row of a 1 × 4096 block, read at (0, b): the block at (0, 1024·c + b). -/
theorem ld_row {e : EltTy} (x : Vec Ideal S1x4096 e) (o : Nat) (c : Fin 4) (ho : o = 1024 * c.val)
    (inb : ∀ a, (![0, o] : Fin 2 → Nat) a + S1x1024.size a ≤ S1x4096.size a) (b : Fin 1024) :
    View.ld x (Rect.unit (s := S1x4096) ![0, o] S1x1024.size inb) (ix2 (0 : Fin 1) b) = x (ix2 (0 : Fin 1) (off c b)) := by
  subst ho
  show x _ = x _
  refine congrArg x (funext fun d => Fin.ext ?_)
  match d with
  | ⟨0, _⟩ => rfl
  | ⟨1, _⟩ => show 1024 * c.val + 1 * b.val = 1024 * c.val + b.val; omega

/-- Rows 1024·c … 1024·c + 1023 of a 4096 × 51 block, read at (a, j): the block at (1024·c + a, j). -/
theorem ld_rows {e : EltTy} (x : Vec Ideal S4096x51 e) (o : Nat) (c : Fin 4) (ho : o = 1024 * c.val)
    (inb : ∀ a, (![o, 0] : Fin 2 → Nat) a + S1024x51.size a ≤ S4096x51.size a) (a : Fin 1024) (j : Fin 51) :
    View.ld x (Rect.unit (s := S4096x51) ![o, 0] S1024x51.size inb) (ix2 a j) = x (ix2 (off c a) j) := by
  subst ho
  show x _ = x _
  refine congrArg x (funext fun d => Fin.ext ?_)
  match d with
  | ⟨0, _⟩ => show 1024 * c.val + 1 * a.val = 1024 * c.val + a.val; omega
  | ⟨1, _⟩ => show 0 + 1 * j.val = j.val; omega

/-- Quarter c of the 4096 columns of a block of 512 rows, as a block of 1024 columns. -/
def colsQ {e : EltTy} (x : Vec Ideal S512x4096 e) (c : Fin 4) : Vec Ideal S512x1024 e :=
  fun i => x (ix2 (⟨(i 0).val, idx2_lt0 i⟩ : Fin 512) (off c ⟨(i 1).val, idx2_lt1 i⟩))
/-- Quarter c of the 4096 columns of a one-row block, as a block of 1024 columns. -/
def rowQ {e : EltTy} (x : Vec Ideal S1x4096 e) (c : Fin 4) : Vec Ideal S1x1024 e :=
  fun i => x (ix2 (0 : Fin 1) (off c ⟨(i 1).val, idx2_lt1 i⟩))
/-- Quarter c of the 4096 rows of a block of 51 columns, as a block of 1024 rows. -/
def rowsQ {e : EltTy} (x : Vec Ideal S4096x51 e) (c : Fin 4) : Vec Ideal S1024x51 e :=
  fun i => x (ix2 (off c ⟨(i 0).val, idx2_lt0 i⟩) (⟨(i 1).val, idx2_lt1 i⟩ : Fin 51))

theorem colsQ_apply {e : EltTy} (x : Vec Ideal S512x4096 e) (c : Fin 4) (a : Fin 512) (b : Fin 1024) :
    colsQ x c (ix2 a b) = x (ix2 a (off c b)) := rfl
theorem rowQ_apply {e : EltTy} (x : Vec Ideal S1x4096 e) (c : Fin 4) (b : Fin 1024) :
    rowQ x c (ix2 (0 : Fin 1) b) = x (ix2 (0 : Fin 1) (off c b)) := rfl
theorem rowsQ_apply {e : EltTy} (x : Vec Ideal S4096x51 e) (c : Fin 4) (a : Fin 1024) (j : Fin 51) :
    rowsQ x c (ix2 a j) = x (ix2 (off c a) j) := rfl

/-- A load of 1024 columns from column 1024·c of a 512 × 4096 block is its quarter c. -/
theorem ld_colsQ {e : EltTy} (x : Vec Ideal S512x4096 e) (o : Nat) (c : Fin 4) (ho : o = 1024 * c.val)
    (inb : ∀ a, (![0, o] : Fin 2 → Nat) a + S512x1024.size a ≤ S512x4096.size a) :
    View.ld x (Rect.unit (s := S512x4096) ![0, o] S512x1024.size inb) = colsQ x c := by
  funext i
  obtain ⟨a, b, rfl⟩ : ∃ (a : Fin 512) (b : Fin 1024), i = ix2 a b := ⟨i 0, i 1, eq_ix2 i⟩
  exact ld_cols x o c ho inb a b
/-- A load of 1024 columns from column 1024·c of a 1 × 4096 block is its quarter c. -/
theorem ld_rowQ {e : EltTy} (x : Vec Ideal S1x4096 e) (o : Nat) (c : Fin 4) (ho : o = 1024 * c.val)
    (inb : ∀ a, (![0, o] : Fin 2 → Nat) a + S1x1024.size a ≤ S1x4096.size a) :
    View.ld x (Rect.unit (s := S1x4096) ![0, o] S1x1024.size inb) = rowQ x c := by
  funext i
  obtain ⟨a, b, rfl⟩ : ∃ (a : Fin 1) (b : Fin 1024), i = ix2 a b := ⟨i 0, i 1, eq_ix2 i⟩
  obtain rfl : a = 0 := Subsingleton.elim _ _
  exact ld_row x o c ho inb b
/-- A load of 1024 rows from row 1024·c of a 4096 × 51 block is its quarter c. -/
theorem ld_rowsQ {e : EltTy} (x : Vec Ideal S4096x51 e) (o : Nat) (c : Fin 4) (ho : o = 1024 * c.val)
    (inb : ∀ a, (![o, 0] : Fin 2 → Nat) a + S1024x51.size a ≤ S4096x51.size a) :
    View.ld x (Rect.unit (s := S4096x51) ![o, 0] S1024x51.size inb) = rowsQ x c := by
  funext i
  obtain ⟨a, b, rfl⟩ : ∃ (a : Fin 1024) (b : Fin 51), i = ix2 a b := ⟨i 0, i 1, eq_ix2 i⟩
  exact ld_rows x o c ho inb a b

/-! ## The 512 × 512 by 512 × 1024 product -/

/-- The left operand's row is the result's row. -/
theorem lhs_gate_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
/-- The left operand's column is the contracted coordinate. -/
theorem lhs_gate_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
/-- The right operand's row is the contracted coordinate. -/
theorem rhs_gate_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
/-- The right operand's column is the result's column. -/
theorem rhs_gate_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
/-- The 512 × 512 by 512 × 1024 product into a zero accumulator, at (a, b): Σ_k l[a, k] · r[k, b] over the 512 contracted
    coordinates. -/
theorem mm_gate (l : FVec Ideal S512x512 .bf16) (r : FVec Ideal S512x1024 .bf16) (a : Fin 512) (b : Fin 1024) :
    matmul dot_S512x512_S512x1024_S512x1024_1_0_0_1_n_n none l r (constant (F := Ideal) S512x1024 .f32 0x00000000#32) (ix2 a b)
      = ∑ k : Fin 512, l (ix2 a k) * r (ix2 k b) := by
  show FloatOps.matmul dot_S512x512_S512x1024_S512x1024_1_0_0_1_n_n none l r (constant (F := Ideal) S512x1024 .f32 0x00000000#32) (ix2 a b) = _
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 a b) ((ValueIdx.contrEquiv1 dot_S512x512_S512x1024_S512x1024_1_0_0_1_n_n 512 rfl rfl).symm k) = ix2 a k := funext fun d => Fin.ext (by
    match d with
    | ⟨0, _⟩ => exact lhs_gate_0 _ _
    | ⟨1, _⟩ => exact (lhs_gate_1 _ _).trans hk)
  have er : dot_S512x512_S512x1024_S512x1024_1_0_0_1_n_n.rhsIdx (ix2 a b) ((ValueIdx.contrEquiv1 dot_S512x512_S512x1024_S512x1024_1_0_0_1_n_n 512 rfl rfl).symm k) = ix2 k b := funext fun d => Fin.ext (by
    match d with
    | ⟨0, _⟩ => exact (rhs_gate_0 _ _).trans hk
    | ⟨1, _⟩ => exact rhs_gate_1 _ _)
  rw [el, er]

/-! ## The 512 × 1024 by 1024 × 51 product -/

/-- The left operand's row is the result's row. -/
theorem lhs_pool_0 (i : S512x51.Idx) (q : dot_S512x1024_S1024x51_S512x51_1_0_0_1_n_n.contr.Idx) :
    (dot_S512x1024_S1024x51_S512x51_1_0_0_1_n_n.lhsIdx i q 0).val = (i 0).val := by
  unfold DotDims.lhsIdx
  rw [dif_neg (show ¬(0 : Fin S512x1024.rank) ∈ dot_S512x1024_S1024x51_S512x51_1_0_0_1_n_n.lhsBatch by decide), dif_pos (show (0 : Fin S512x1024.rank) ∈ dot_S512x1024_S1024x51_S512x51_1_0_0_1_n_n.lhsNonContracting by decide)]
  rfl
/-- The left operand's column is the contracted coordinate. -/
theorem lhs_pool_1 (i : S512x51.Idx) (q : dot_S512x1024_S1024x51_S512x51_1_0_0_1_n_n.contr.Idx) :
    (dot_S512x1024_S1024x51_S512x51_1_0_0_1_n_n.lhsIdx i q 1).val = (q ⟨0, by decide⟩).val :=
  dot_S512x1024_S1024x51_S512x51_1_0_0_1_n_n.lhsIdx_val_of_single rfl i q
/-- The right operand's row is the contracted coordinate. -/
theorem rhs_pool_0 (i : S512x51.Idx) (q : dot_S512x1024_S1024x51_S512x51_1_0_0_1_n_n.contr.Idx) :
    (dot_S512x1024_S1024x51_S512x51_1_0_0_1_n_n.rhsIdx i q 0).val = (q ⟨0, by decide⟩).val :=
  dot_S512x1024_S1024x51_S512x51_1_0_0_1_n_n.rhsIdx_val_of_single rfl i q
/-- The right operand's column is the result's column. -/
theorem rhs_pool_1 (i : S512x51.Idx) (q : dot_S512x1024_S1024x51_S512x51_1_0_0_1_n_n.contr.Idx) :
    (dot_S512x1024_S1024x51_S512x51_1_0_0_1_n_n.rhsIdx i q 1).val = (i 1).val := by
  unfold DotDims.rhsIdx
  rw [dif_neg (show ¬(1 : Fin S1024x51.rank) ∈ dot_S512x1024_S1024x51_S512x51_1_0_0_1_n_n.rhsBatch by decide), dif_pos (show (1 : Fin S1024x51.rank) ∈ dot_S512x1024_S1024x51_S512x51_1_0_0_1_n_n.rhsNonContracting by decide)]
  rfl
/-- The 512 × 1024 by 1024 × 51 product into a zero accumulator, at (a, b): Σ_k l[a, k] · r[k, b] over the 1024 contracted
    coordinates. -/
theorem mm_pool (l : FVec Ideal S512x1024 .bf16) (r : FVec Ideal S1024x51 .bf16) (a : Fin 512) (b : Fin 51) :
    matmul dot_S512x1024_S1024x51_S512x51_1_0_0_1_n_n none l r (constant (F := Ideal) S512x51 .f32 0x00000000#32) (ix2 a b)
      = ∑ k : Fin 1024, l (ix2 a k) * r (ix2 k b) := by
  show FloatOps.matmul dot_S512x1024_S1024x51_S512x51_1_0_0_1_n_n none l r (constant (F := Ideal) S512x51 .f32 0x00000000#32) (ix2 a b) = _
  rw [Ideal.matmul_constant_zero_apply, ← Equiv.sum_comp (ValueIdx.contrEquiv1 dot_S512x1024_S1024x51_S512x51_1_0_0_1_n_n 1024 rfl rfl).symm]
  refine Finset.sum_congr rfl fun k _ => ?_
  have hk := ValueIdx.contrEquiv1_symm_val dot_S512x1024_S1024x51_S512x51_1_0_0_1_n_n 1024 rfl rfl k
  have el : dot_S512x1024_S1024x51_S512x51_1_0_0_1_n_n.lhsIdx (ix2 a b) ((ValueIdx.contrEquiv1 dot_S512x1024_S1024x51_S512x51_1_0_0_1_n_n 1024 rfl rfl).symm k) = ix2 a k := funext fun d => Fin.ext (by
    match d with
    | ⟨0, _⟩ => exact lhs_pool_0 _ _
    | ⟨1, _⟩ => exact (lhs_pool_1 _ _).trans hk)
  have er : dot_S512x1024_S1024x51_S512x51_1_0_0_1_n_n.rhsIdx (ix2 a b) ((ValueIdx.contrEquiv1 dot_S512x1024_S1024x51_S512x51_1_0_0_1_n_n 1024 rfl rfl).symm k) = ix2 k b := funext fun d => Fin.ext (by
    match d with
    | ⟨0, _⟩ => exact (rhs_pool_0 _ _).trans hk
    | ⟨1, _⟩ => exact rhs_pool_1 _ _)
  rw [el, er]

/-! ## The 512 × 512 by 512 × 51 product -/

/-- The left operand's row is the result's row. -/
theorem lhs_ctx_0 (i : S512x51.Idx) (q : dot_S512x512_S512x51_S512x51_1_0_0_1_n_n.contr.Idx) :
    (dot_S512x512_S512x51_S512x51_1_0_0_1_n_n.lhsIdx i q 0).val = (i 0).val := by
  unfold DotDims.lhsIdx
  rw [dif_neg (show ¬(0 : Fin S512x512.rank) ∈ dot_S512x512_S512x51_S512x51_1_0_0_1_n_n.lhsBatch by decide), dif_pos (show (0 : Fin S512x512.rank) ∈ dot_S512x512_S512x51_S512x51_1_0_0_1_n_n.lhsNonContracting by decide)]
  rfl
/-- The left operand's column is the contracted coordinate. -/
theorem lhs_ctx_1 (i : S512x51.Idx) (q : dot_S512x512_S512x51_S512x51_1_0_0_1_n_n.contr.Idx) :
    (dot_S512x512_S512x51_S512x51_1_0_0_1_n_n.lhsIdx i q 1).val = (q ⟨0, by decide⟩).val :=
  dot_S512x512_S512x51_S512x51_1_0_0_1_n_n.lhsIdx_val_of_single rfl i q
/-- The right operand's row is the contracted coordinate. -/
theorem rhs_ctx_0 (i : S512x51.Idx) (q : dot_S512x512_S512x51_S512x51_1_0_0_1_n_n.contr.Idx) :
    (dot_S512x512_S512x51_S512x51_1_0_0_1_n_n.rhsIdx i q 0).val = (q ⟨0, by decide⟩).val :=
  dot_S512x512_S512x51_S512x51_1_0_0_1_n_n.rhsIdx_val_of_single rfl i q
/-- The right operand's column is the result's column. -/
theorem rhs_ctx_1 (i : S512x51.Idx) (q : dot_S512x512_S512x51_S512x51_1_0_0_1_n_n.contr.Idx) :
    (dot_S512x512_S512x51_S512x51_1_0_0_1_n_n.rhsIdx i q 1).val = (i 1).val := by
  unfold DotDims.rhsIdx
  rw [dif_neg (show ¬(1 : Fin S512x51.rank) ∈ dot_S512x512_S512x51_S512x51_1_0_0_1_n_n.rhsBatch by decide), dif_pos (show (1 : Fin S512x51.rank) ∈ dot_S512x512_S512x51_S512x51_1_0_0_1_n_n.rhsNonContracting by decide)]
  rfl
/-- The 512 × 512 by 512 × 51 product into a zero accumulator, at (a, b): Σ_k l[a, k] · r[k, b] over the 512 contracted
    coordinates. -/
theorem mm_ctx (l : FVec Ideal S512x512 .bf16) (r : FVec Ideal S512x51 .bf16) (a : Fin 512) (b : Fin 51) :
    matmul dot_S512x512_S512x51_S512x51_1_0_0_1_n_n none l r (constant (F := Ideal) S512x51 .f32 0x00000000#32) (ix2 a b)
      = ∑ k : Fin 512, l (ix2 a k) * r (ix2 k b) := by
  show FloatOps.matmul dot_S512x512_S512x51_S512x51_1_0_0_1_n_n none l r (constant (F := Ideal) S512x51 .f32 0x00000000#32) (ix2 a b) = _
  rw [Ideal.matmul_constant_zero_apply, ← Equiv.sum_comp (ValueIdx.contrEquiv1 dot_S512x512_S512x51_S512x51_1_0_0_1_n_n 512 rfl rfl).symm]
  refine Finset.sum_congr rfl fun k _ => ?_
  have hk := ValueIdx.contrEquiv1_symm_val dot_S512x512_S512x51_S512x51_1_0_0_1_n_n 512 rfl rfl k
  have el : dot_S512x512_S512x51_S512x51_1_0_0_1_n_n.lhsIdx (ix2 a b) ((ValueIdx.contrEquiv1 dot_S512x512_S512x51_S512x51_1_0_0_1_n_n 512 rfl rfl).symm k) = ix2 a k := funext fun d => Fin.ext (by
    match d with
    | ⟨0, _⟩ => exact lhs_ctx_0 _ _
    | ⟨1, _⟩ => exact (lhs_ctx_1 _ _).trans hk)
  have er : dot_S512x512_S512x51_S512x51_1_0_0_1_n_n.rhsIdx (ix2 a b) ((ValueIdx.contrEquiv1 dot_S512x512_S512x51_S512x51_1_0_0_1_n_n 512 rfl rfl).symm k) = ix2 k b := funext fun d => Fin.ext (by
    match d with
    | ⟨0, _⟩ => exact (rhs_ctx_0 _ _).trans hk
    | ⟨1, _⟩ => exact rhs_ctx_1 _ _)
  rw [el, er]

/-! ## The body's values at an index -/

/-- The zero scalar. -/
theorem scalar_zero : (Scalar.ofBits (F := Ideal) .f32 0x00000000#32) = (0 : EReal) := Ideal.ofBits_zero_f32

/-- The head block narrowed: the same extended reals. -/
theorem pay2_apply (v0 : Vec Ideal S512x512 .f32) (i : S512x512.Idx) : k1_pay2 (F := Ideal) v0 i = v0 i := by
  unfold k1_pay2
  simp only [shapeCast_self, truncf_apply]

/-- The tail block narrowed: the same extended reals. -/
theorem pay3_apply (v3 : Vec Ideal S512x512 .f32) (i : S512x512.Idx) : k1_pay3 (F := Ideal) v3 i = v3 i := by
  unfold k1_pay3
  simp only [shapeCast_self, truncf_apply]

/-- The gate sum from the raw blocks at (a, b): Σ_k h·w1t + Σ_k t·w1b. -/
theorem pay5_apply (v0 v3 : Vec Ideal S512x512 .f32) (v25 v28 : Vec Ideal S512x1024 .bf16) (a : Fin 512) (b : Fin 1024) :
    k1_pay5 (F := Ideal) v0 v3 v25 v28 (ix2 a b)
      = (∑ k : Fin 512, v0 (ix2 a k) * v25 (ix2 k b)) + ∑ k : Fin 512, v3 (ix2 a k) * v28 (ix2 k b) := by
  unfold k1_pay5
  simp only [shapeCast_self, addf_apply, mm_gate, pay2_apply, pay3_apply]

/-- The gate sum from the narrowed blocks at (a, b): Σ_k h·w1t + Σ_k t·w1b. -/
theorem pay7_apply (v2 v5 : FVec Ideal S512x512 .bf16) (v61 v64 : Vec Ideal S512x1024 .bf16) (a : Fin 512) (b : Fin 1024) :
    k1_pay7 (F := Ideal) v2 v5 v61 v64 (ix2 a b)
      = (∑ k : Fin 512, v2 (ix2 a k) * v61 (ix2 k b)) + ∑ k : Fin 512, v5 (ix2 a k) * v64 (ix2 k b) := by
  unfold k1_pay7
  simp only [shapeCast_self, addf_apply, mm_gate]

/-- The first quarter, added to a zero block, at (a, j). -/
theorem pay4_apply (v0 v3 : Vec Ideal S512x512 .f32) (v7 v10 : Vec Ideal S512x1024 .bf16) (v14 : Vec Ideal S1x1024 .f32)
    (v18 : Vec Ideal S512x1024 .f32) (v21 : Vec Ideal S1024x51 .bf16) (a : Fin 512) (j : Fin 51) :
    k1_pay4 (F := Ideal) v0 v3 v7 v10 v14 v18 v21 (ix2 a j)
      = 0 + ∑ q : Fin 1024, ((((∑ k : Fin 512, v0 (ix2 a k) * v7 (ix2 k q)) + ∑ k : Fin 512, v3 (ix2 a k) * v10 (ix2 k q))
          + v14 (ix2 (0 : Fin 1) q)) * v18 (ix2 a q)) * v21 (ix2 q j) := by
  unfold k1_pay4
  simp only [shapeCast_self, addf_apply, mulf_apply, truncf_apply, broadcast_apply, scalar_zero, mm_pool, mm_gate,
    broadcastTo_1b_ab_apply, pay2_apply, pay3_apply]

/-- The second and third quarters added to what came before, at (a, j). -/
theorem pay6_apply (v2 v5 : FVec Ideal S512x512 .bf16) (v24 : FVec Ideal S512x51 .f32) (v31 : FVec Ideal S512x1024 .f32)
    (v32 : Vec Ideal S1x1024 .f32) (v36 : Vec Ideal S512x1024 .f32) (v39 : Vec Ideal S1024x51 .bf16)
    (v43 v46 : Vec Ideal S512x1024 .bf16) (v50 : Vec Ideal S1x1024 .f32) (v54 : Vec Ideal S512x1024 .f32)
    (v57 : Vec Ideal S1024x51 .bf16) (a : Fin 512) (j : Fin 51) :
    k1_pay6 (F := Ideal) v2 v5 v24 v31 v32 v36 v39 v43 v46 v50 v54 v57 (ix2 a j)
      = (v24 (ix2 a j) + ∑ q : Fin 1024, ((v31 (ix2 a q) + v32 (ix2 (0 : Fin 1) q)) * v36 (ix2 a q)) * v39 (ix2 q j))
        + ∑ q : Fin 1024, ((((∑ k : Fin 512, v2 (ix2 a k) * v43 (ix2 k q)) + ∑ k : Fin 512, v5 (ix2 a k) * v46 (ix2 k q))
          + v50 (ix2 (0 : Fin 1) q)) * v54 (ix2 a q)) * v57 (ix2 q j) := by
  unfold k1_pay6
  simp only [shapeCast_self, addf_apply, mulf_apply, truncf_apply, mm_pool, mm_gate, broadcastTo_1b_ab_apply]

/-- The fourth quarter added to what came before, then the pooled bias, the context contraction with its bias, and
    the label row, at (a, j). -/
theorem pay1_apply (v2 v5 : FVec Ideal S512x512 .bf16) (v60 : FVec Ideal S512x51 .f32) (v67 : FVec Ideal S512x1024 .f32)
    (v68 : Vec Ideal S1x1024 .f32) (v72 : Vec Ideal S512x1024 .f32) (v75 : Vec Ideal S1024x51 .bf16) (v79 : Vec Ideal S1x51 .f32)
    (v83 v86 : Vec Ideal S512x51 .bf16) (v90 : Vec Ideal S1x51 .f32) (v95 : Vec Ideal S512x51 .f32) (a : Fin 512) (j : Fin 51) :
    k1_pay1 (F := Ideal) v2 v5 v60 v67 v68 v72 v75 v79 v83 v86 v90 v95 (ix2 a j)
      = (((v60 (ix2 a j) + ∑ q : Fin 1024, ((v67 (ix2 a q) + v68 (ix2 (0 : Fin 1) q)) * v72 (ix2 a q)) * v75 (ix2 q j))
            + v79 (ix2 (0 : Fin 1) j))
          + (((∑ k : Fin 512, v2 (ix2 a k) * v83 (ix2 k j)) + ∑ k : Fin 512, v5 (ix2 a k) * v86 (ix2 k j))
            + v90 (ix2 (0 : Fin 1) j)))
        + v95 (ix2 a j) := by
  unfold k1_pay1
  simp only [shapeCast_self, addf_apply, mulf_apply, truncf_apply, mm_pool, mm_ctx, broadcastTo_1b_ab_apply]

/-! ## The output block -/

/-- One output block of the second region at (p, q): the kernel's row formula of row p of the row-tiled blocks
    (head x0, tail x1, pooled x2, label x3) and of the resident weights and biases (x4 … x11). -/
theorem out1_12_apply (x0 : Vec Ideal S512x512 .f32) (x1 : Vec Ideal S512x512 .f32) (x2 : Vec Ideal S512x4096 .f32)
    (x3 : Vec Ideal S512x51 .f32) (x4 : Vec Ideal S512x4096 .bf16) (x5 : Vec Ideal S512x4096 .bf16) (x6 : Vec Ideal S1x4096 .f32)
    (x7 : Vec Ideal S4096x51 .bf16) (x8 : Vec Ideal S1x51 .f32) (x9 : Vec Ideal S512x51 .bf16) (x10 : Vec Ideal S512x51 .bf16)
    (x11 : Vec Ideal S1x51 .f32) (p : Fin 512) (q : Fin 51) :
    out1_12 (F := Ideal) x0 x1 x2 x3 x4 x5 x6 x7 x8 x9 x10 x11 (ix2 p q)
      = Spec.kerRow (fun k => x0 (ix2 p k)) (fun k => x1 (ix2 p k)) (fun a => x2 (ix2 p a)) (c2 x4) (c2 x5) (r1 x6) (c2 x7) (r1 x8)
          (c2 x9) (c2 x10) (r1 x11) (fun a => x3 (ix2 p a)) q := by
  unfold out1_12
  rw [View.canon_unit_zero hz]
  simp only [View.ld_unit_zero (S := S512x512) hz, View.ld_unit_zero (S := S1x51) hz, View.ld_unit_zero (S := S512x51) hz]
  rw [ld_colsQ x4 0 0 rfl, ld_colsQ x4 1024 1 rfl, ld_colsQ x4 2048 2 rfl, ld_colsQ x4 3072 3 rfl,
    ld_colsQ x5 0 0 rfl, ld_colsQ x5 1024 1 rfl, ld_colsQ x5 2048 2 rfl, ld_colsQ x5 3072 3 rfl,
    ld_colsQ x2 0 0 rfl, ld_colsQ x2 1024 1 rfl, ld_colsQ x2 2048 2 rfl, ld_colsQ x2 3072 3 rfl,
    ld_rowQ x6 0 0 rfl, ld_rowQ x6 1024 1 rfl, ld_rowQ x6 2048 2 rfl, ld_rowQ x6 3072 3 rfl,
    ld_rowsQ x7 0 0 rfl, ld_rowsQ x7 1024 1 rfl, ld_rowsQ x7 2048 2 rfl, ld_rowsQ x7 3072 3 rfl]
  refine (pay1_apply _ _ _ _ _ _ _ _ _ _ _ _ p q).trans ?_
  rw [pay6_apply, pay4_apply]
  simp only [pay5_apply, pay7_apply, pay2_apply, pay3_apply, colsQ_apply, rowQ_apply, rowsQ_apply]
  unfold kerRow quarter
  rfl

end Cert.KernelIdeal.RelPay

end
-- ==== Proof.RelVal.lean ====
/-
  The second kernel region (128 row blocks of 512): its output array after the region, element by element, as the
  kernel's row formula of the twelve arrays the region finds on entry — row r of the four row-tiled arrays, the
  eight resident arrays whole.
-/
import proofs.«405842_j56667798503473_3_alg».proof.Proof.Gen.KernelIdeal.Frame
import proofs.«405842_j56667798503473_3_alg».proof.Proof.Spec
import proofs.«405842_j56667798503473_3_alg».proof.Proof.RelPay
import Idealize.ShloMosaic.Lib.Pipeline.Value

noncomputable section

open scoped BigOperators

namespace Cert.KernelIdeal.RelVal

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-- The block indices of the thirteen windows at every grid point: the four row-tiled inputs and the output sit at
    row block t, column block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_12.index t (0 : Fin 2) = t.val ∧ win1_12.index t (1 : Fin 2) = 0) :=
  (by decide +kernel : ∀ t : Fin grid1.N, _)

/-- The eight resident windows sit at block (0, 0) at every grid point. -/
theorem idx_facts_res : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-! ## The input blocks as parts of their arrays -/

/-- Resident window 4: its block at any point is its whole array. -/
theorem iblk_whole4 (c : Dev nD) (t : Fin cfg1.N) :
    (iblk1 V c 4 t : Vec Ideal S512x4096 .bf16) = V c (Pipeline.arrRef spec1 4) := by
  funext y
  obtain ⟨⟨e0, e1⟩, -, -, -, -, -, -, -⟩ := idx_facts_res t
  unfold iblk1
  rw [View.read_apply]
  show V c (Pipeline.arrRef spec1 4) (((cfg1.win 4).blk t).view.emb y) = V c (Pipeline.arrRef spec1 4) y
  congr 1
  funext a; apply Fin.ext
  match a with
  | ⟨0, _⟩ => show win1_4.index t (0 : Fin 2) * 512 + 1 * (y 0).val = (y 0).val; omega
  | ⟨1, _⟩ => show win1_4.index t (1 : Fin 2) * 4096 + 1 * (y 1).val = (y 1).val; omega

/-- Resident window 5: its block at any point is its whole array. -/
theorem iblk_whole5 (c : Dev nD) (t : Fin cfg1.N) :
    (iblk1 V c 5 t : Vec Ideal S512x4096 .bf16) = V c (Pipeline.arrRef spec1 5) := by
  funext y
  obtain ⟨-, ⟨e0, e1⟩, -, -, -, -, -, -⟩ := idx_facts_res t
  unfold iblk1
  rw [View.read_apply]
  show V c (Pipeline.arrRef spec1 5) (((cfg1.win 5).blk t).view.emb y) = V c (Pipeline.arrRef spec1 5) y
  congr 1
  funext a; apply Fin.ext
  match a with
  | ⟨0, _⟩ => show win1_5.index t (0 : Fin 2) * 512 + 1 * (y 0).val = (y 0).val; omega
  | ⟨1, _⟩ => show win1_5.index t (1 : Fin 2) * 4096 + 1 * (y 1).val = (y 1).val; omega

/-- Resident window 6: its block at any point is its whole array. -/
theorem iblk_whole6 (c : Dev nD) (t : Fin cfg1.N) :
    (iblk1 V c 6 t : Vec Ideal S1x4096 .f32) = V c (Pipeline.arrRef spec1 6) := by
  funext y
  obtain ⟨-, -, ⟨e0, e1⟩, -, -, -, -, -⟩ := idx_facts_res t
  unfold iblk1
  rw [View.read_apply]
  show V c (Pipeline.arrRef spec1 6) (((cfg1.win 6).blk t).view.emb y) = V c (Pipeline.arrRef spec1 6) y
  congr 1
  funext a; apply Fin.ext
  match a with
  | ⟨0, _⟩ => show win1_6.index t (0 : Fin 2) * 1 + 1 * (y 0).val = (y 0).val; omega
  | ⟨1, _⟩ => show win1_6.index t (1 : Fin 2) * 4096 + 1 * (y 1).val = (y 1).val; omega

/-- Resident window 7: its block at any point is its whole array. -/
theorem iblk_whole7 (c : Dev nD) (t : Fin cfg1.N) :
    (iblk1 V c 7 t : Vec Ideal S4096x51 .bf16) = V c (Pipeline.arrRef spec1 7) := by
  funext y
  obtain ⟨-, -, -, ⟨e0, e1⟩, -, -, -, -⟩ := idx_facts_res t
  unfold iblk1
  rw [View.read_apply]
  show V c (Pipeline.arrRef spec1 7) (((cfg1.win 7).blk t).view.emb y) = V c (Pipeline.arrRef spec1 7) y
  congr 1
  funext a; apply Fin.ext
  match a with
  | ⟨0, _⟩ => show win1_7.index t (0 : Fin 2) * 4096 + 1 * (y 0).val = (y 0).val; omega
  | ⟨1, _⟩ => show win1_7.index t (1 : Fin 2) * 51 + 1 * (y 1).val = (y 1).val; omega

/-- Resident window 8: its block at any point is its whole array. -/
theorem iblk_whole8 (c : Dev nD) (t : Fin cfg1.N) :
    (iblk1 V c 8 t : Vec Ideal S1x51 .f32) = V c (Pipeline.arrRef spec1 8) := by
  funext y
  obtain ⟨-, -, -, -, ⟨e0, e1⟩, -, -, -⟩ := idx_facts_res t
  unfold iblk1
  rw [View.read_apply]
  show V c (Pipeline.arrRef spec1 8) (((cfg1.win 8).blk t).view.emb y) = V c (Pipeline.arrRef spec1 8) y
  congr 1
  funext a; apply Fin.ext
  match a with
  | ⟨0, _⟩ => show win1_8.index t (0 : Fin 2) * 1 + 1 * (y 0).val = (y 0).val; omega
  | ⟨1, _⟩ => show win1_8.index t (1 : Fin 2) * 51 + 1 * (y 1).val = (y 1).val; omega

/-- Resident window 9: its block at any point is its whole array. -/
theorem iblk_whole9 (c : Dev nD) (t : Fin cfg1.N) :
    (iblk1 V c 9 t : Vec Ideal S512x51 .bf16) = V c (Pipeline.arrRef spec1 9) := by
  funext y
  obtain ⟨-, -, -, -, -, ⟨e0, e1⟩, -, -⟩ := idx_facts_res t
  unfold iblk1
  rw [View.read_apply]
  show V c (Pipeline.arrRef spec1 9) (((cfg1.win 9).blk t).view.emb y) = V c (Pipeline.arrRef spec1 9) y
  congr 1
  funext a; apply Fin.ext
  match a with
  | ⟨0, _⟩ => show win1_9.index t (0 : Fin 2) * 512 + 1 * (y 0).val = (y 0).val; omega
  | ⟨1, _⟩ => show win1_9.index t (1 : Fin 2) * 51 + 1 * (y 1).val = (y 1).val; omega

/-- Resident window 10: its block at any point is its whole array. -/
theorem iblk_whole10 (c : Dev nD) (t : Fin cfg1.N) :
    (iblk1 V c 10 t : Vec Ideal S512x51 .bf16) = V c (Pipeline.arrRef spec1 10) := by
  funext y
  obtain ⟨-, -, -, -, -, -, ⟨e0, e1⟩, -⟩ := idx_facts_res t
  unfold iblk1
  rw [View.read_apply]
  show V c (Pipeline.arrRef spec1 10) (((cfg1.win 10).blk t).view.emb y) = V c (Pipeline.arrRef spec1 10) y
  congr 1
  funext a; apply Fin.ext
  match a with
  | ⟨0, _⟩ => show win1_10.index t (0 : Fin 2) * 512 + 1 * (y 0).val = (y 0).val; omega
  | ⟨1, _⟩ => show win1_10.index t (1 : Fin 2) * 51 + 1 * (y 1).val = (y 1).val; omega

/-- Resident window 11: its block at any point is its whole array. -/
theorem iblk_whole11 (c : Dev nD) (t : Fin cfg1.N) :
    (iblk1 V c 11 t : Vec Ideal S1x51 .f32) = V c (Pipeline.arrRef spec1 11) := by
  funext y
  obtain ⟨-, -, -, -, -, -, -, ⟨e0, e1⟩⟩ := idx_facts_res t
  unfold iblk1
  rw [View.read_apply]
  show V c (Pipeline.arrRef spec1 11) (((cfg1.win 11).blk t).view.emb y) = V c (Pipeline.arrRef spec1 11) y
  congr 1
  funext a; apply Fin.ext
  match a with
  | ⟨0, _⟩ => show win1_11.index t (0 : Fin 2) * 1 + 1 * (y 0).val = (y 0).val; omega
  | ⟨1, _⟩ => show win1_11.index t (1 : Fin 2) * 51 + 1 * (y 1).val = (y 1).val; omega

/-- Row-tiled window 0: row p of its block at point t is row 512·t + p of its array. -/
theorem iblk_row0 (c : Dev nD) (t : Fin cfg1.N) (p : Fin 512) (k : Fin 512) (r : Fin 65536) (hr : r.val = 512 * t.val + p.val) :
    (iblk1 V c 0 t : Vec Ideal S512x512 .f32) (ix2 p k) = (V c (Pipeline.arrRef spec1 0) : Vec Ideal S65536x512 .f32) (ix2 r k) := by
  obtain ⟨⟨e0, e1⟩, -, -, -, -⟩ := idx_facts t
  unfold iblk1
  rw [View.read_apply]
  show V c (Pipeline.arrRef spec1 0) (((cfg1.win 0).blk t).view.emb (ix2 p k)) = V c (Pipeline.arrRef spec1 0) (ix2 r k)
  congr 1
  funext a; apply Fin.ext
  match a with
  | ⟨0, _⟩ => show win1_0.index t (0 : Fin 2) * 512 + 1 * p.val = r.val; omega
  | ⟨1, _⟩ => show win1_0.index t (1 : Fin 2) * 512 + 1 * k.val = k.val; omega

/-- Row-tiled window 1: row p of its block at point t is row 512·t + p of its array. -/
theorem iblk_row1 (c : Dev nD) (t : Fin cfg1.N) (p : Fin 512) (k : Fin 512) (r : Fin 65536) (hr : r.val = 512 * t.val + p.val) :
    (iblk1 V c 1 t : Vec Ideal S512x512 .f32) (ix2 p k) = (V c (Pipeline.arrRef spec1 1) : Vec Ideal S65536x512 .f32) (ix2 r k) := by
  obtain ⟨-, ⟨e0, e1⟩, -, -, -⟩ := idx_facts t
  unfold iblk1
  rw [View.read_apply]
  show V c (Pipeline.arrRef spec1 1) (((cfg1.win 1).blk t).view.emb (ix2 p k)) = V c (Pipeline.arrRef spec1 1) (ix2 r k)
  congr 1
  funext a; apply Fin.ext
  match a with
  | ⟨0, _⟩ => show win1_1.index t (0 : Fin 2) * 512 + 1 * p.val = r.val; omega
  | ⟨1, _⟩ => show win1_1.index t (1 : Fin 2) * 512 + 1 * k.val = k.val; omega

/-- Row-tiled window 2: row p of its block at point t is row 512·t + p of its array. -/
theorem iblk_row2 (c : Dev nD) (t : Fin cfg1.N) (p : Fin 512) (k : Fin 4096) (r : Fin 65536) (hr : r.val = 512 * t.val + p.val) :
    (iblk1 V c 2 t : Vec Ideal S512x4096 .f32) (ix2 p k) = (V c (Pipeline.arrRef spec1 2) : Vec Ideal S65536x4096 .f32) (ix2 r k) := by
  obtain ⟨-, -, ⟨e0, e1⟩, -, -⟩ := idx_facts t
  unfold iblk1
  rw [View.read_apply]
  show V c (Pipeline.arrRef spec1 2) (((cfg1.win 2).blk t).view.emb (ix2 p k)) = V c (Pipeline.arrRef spec1 2) (ix2 r k)
  congr 1
  funext a; apply Fin.ext
  match a with
  | ⟨0, _⟩ => show win1_2.index t (0 : Fin 2) * 512 + 1 * p.val = r.val; omega
  | ⟨1, _⟩ => show win1_2.index t (1 : Fin 2) * 4096 + 1 * k.val = k.val; omega

/-- Row-tiled window 3: row p of its block at point t is row 512·t + p of its array. -/
theorem iblk_row3 (c : Dev nD) (t : Fin cfg1.N) (p : Fin 512) (k : Fin 51) (r : Fin 65536) (hr : r.val = 512 * t.val + p.val) :
    (iblk1 V c 3 t : Vec Ideal S512x51 .f32) (ix2 p k) = (V c (Pipeline.arrRef spec1 3) : Vec Ideal S65536x51 .f32) (ix2 r k) := by
  obtain ⟨-, -, -, ⟨e0, e1⟩, -⟩ := idx_facts t
  unfold iblk1
  rw [View.read_apply]
  show V c (Pipeline.arrRef spec1 3) (((cfg1.win 3).blk t).view.emb (ix2 p k)) = V c (Pipeline.arrRef spec1 3) (ix2 r k)
  congr 1
  funext a; apply Fin.ext
  match a with
  | ⟨0, _⟩ => show win1_3.index t (0 : Fin 2) * 512 + 1 * p.val = r.val; omega
  | ⟨1, _⟩ => show win1_3.index t (1 : Fin 2) * 51 + 1 * k.val = k.val; omega

/-! ## The output array as one function of the twelve arrays -/

/-- The kernel's row formula at row r of the four row-tiled arrays, the eight resident arrays whole. -/
abbrev rowOf (a0 a1 : Vec Ideal S65536x512 .f32) (a2 : Vec Ideal S65536x4096 .f32) (a3 : Vec Ideal S65536x51 .f32)
    (a4 a5 : Vec Ideal S512x4096 .bf16) (a6 : Vec Ideal S1x4096 .f32) (a7 : Vec Ideal S4096x51 .bf16) (a8 : Vec Ideal S1x51 .f32)
    (a9 a10 : Vec Ideal S512x51 .bf16) (a11 : Vec Ideal S1x51 .f32) (r : Fin 65536) (j : Fin 51) : EReal :=
  Spec.kerRow (fun k => c2 a0 r k) (fun k => c2 a1 r k) (fun a => c2 a2 r a) (c2 a4) (c2 a5) (r1 a6) (c2 a7) (r1 a8)
    (c2 a9) (c2 a10) (r1 a11) (fun a => c2 a3 r a) j

/-- The whole output array: the row formula at each index's row and column. -/
abbrev arrOf (a0 a1 : Vec Ideal S65536x512 .f32) (a2 : Vec Ideal S65536x4096 .f32) (a3 : Vec Ideal S65536x51 .f32)
    (a4 a5 : Vec Ideal S512x4096 .bf16) (a6 : Vec Ideal S1x4096 .f32) (a7 : Vec Ideal S4096x51 .bf16) (a8 : Vec Ideal S1x51 .f32)
    (a9 a10 : Vec Ideal S512x51 .bf16) (a11 : Vec Ideal S1x51 .f32) : Vec Ideal S65536x51 .f32 :=
  fun i => rowOf a0 a1 a2 a3 a4 a5 a6 a7 a8 a9 a10 a11 (i 0) (i 1)

/-- One element of an output block, from blocks whose rows are the arrays' rows and resident blocks that are their
    arrays: the row formula of the arrays. -/
theorem block_point (x0 x1 : Vec Ideal S512x512 .f32) (x2 : Vec Ideal S512x4096 .f32) (x3 : Vec Ideal S512x51 .f32)
    (x4 x5 : Vec Ideal S512x4096 .bf16) (x6 : Vec Ideal S1x4096 .f32) (x7 : Vec Ideal S4096x51 .bf16) (x8 : Vec Ideal S1x51 .f32)
    (x9 x10 : Vec Ideal S512x51 .bf16) (x11 : Vec Ideal S1x51 .f32)
    (a0 a1 : Vec Ideal S65536x512 .f32) (a2 : Vec Ideal S65536x4096 .f32) (a3 : Vec Ideal S65536x51 .f32)
    (a4 a5 : Vec Ideal S512x4096 .bf16) (a6 : Vec Ideal S1x4096 .f32) (a7 : Vec Ideal S4096x51 .bf16) (a8 : Vec Ideal S1x51 .f32)
    (a9 a10 : Vec Ideal S512x51 .bf16) (a11 : Vec Ideal S1x51 .f32) (p : Fin 512) (q : Fin 51) (r : Fin 65536)
    (h0 : ∀ k : Fin 512, x0 (ix2 p k) = a0 (ix2 r k)) (h1 : ∀ k : Fin 512, x1 (ix2 p k) = a1 (ix2 r k))
    (h2 : ∀ k : Fin 4096, x2 (ix2 p k) = a2 (ix2 r k)) (h3 : ∀ k : Fin 51, x3 (ix2 p k) = a3 (ix2 r k))
    (h4 : x4 = a4) (h5 : x5 = a5) (h6 : x6 = a6) (h7 : x7 = a7) (h8 : x8 = a8) (h9 : x9 = a9) (h10 : x10 = a10) (h11 : x11 = a11) :
    out1_12 (F := Ideal) x0 x1 x2 x3 x4 x5 x6 x7 x8 x9 x10 x11 (ix2 p q) = rowOf a0 a1 a2 a3 a4 a5 a6 a7 a8 a9 a10 a11 r q := by
  subst h4 h5 h6 h7 h8 h9 h10 h11
  rw [RelPay.out1_12_apply]
  have e0 : (fun k => x0 (ix2 p k)) = fun k => a0 (ix2 r k) := funext h0
  have e1 : (fun k => x1 (ix2 p k)) = fun k => a1 (ix2 r k) := funext h1
  have e2 : (fun k => x2 (ix2 p k)) = fun k => a2 (ix2 r k) := funext h2
  have e3 : (fun k => x3 (ix2 p k)) = fun k => a3 (ix2 r k) := funext h3
  rw [e0, e1, e2, e3]

/-- What point t writes back is block t of the row formula of the arrays as the region finds them. -/
theorem flushed_eq (c : Dev nD) (t : Fin cfg1.N) :
    (dat1 V c).flushed 12 t = ((cfg1.win 12).blk t).view.read (Elt Ideal)
      (arrOf (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) (V c (Pipeline.arrRef spec1 11))) := by
  show (cfg1.win 12).cut (grid1.coords t) ((dat1 V c).after 12 t) = _
  rw [after1_12]
  obtain ⟨-, -, -, -, ⟨e0, e1⟩⟩ := idx_facts t
  have hN : cfg1.N = 128 := N_1
  have ht : t.val < 128 := hN ▸ t.isLt
  funext y
  obtain ⟨p, q, rfl⟩ : ∃ (p : Fin 512) (q : Fin 51), y = ix2 p q := ⟨y 0, y 1, eq_ix2 y⟩
  have he : ((cfg1.win 12).blk t).view.emb (ix2 p q) = ix2 (⟨512 * t.val + p.val, by omega⟩ : Fin 65536) q := by
    funext a; apply Fin.ext
    match a with
    | ⟨0, _⟩ => show win1_12.index t (0 : Fin 2) * 512 + 1 * p.val = 512 * t.val + p.val; omega
    | ⟨1, _⟩ => show win1_12.index t (1 : Fin 2) * 51 + 1 * q.val = q.val; omega
  rw [View.read_apply, he]
  exact block_point (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t) (iblk1 V c 11 t)
    (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (V c (Pipeline.arrRef spec1 7))
    (V c (Pipeline.arrRef spec1 8)) (V c (Pipeline.arrRef spec1 9)) (V c (Pipeline.arrRef spec1 10)) (V c (Pipeline.arrRef spec1 11))
    p q ⟨512 * t.val + p.val, by omega⟩
    (fun k => iblk_row0 V c t p k _ rfl) (fun k => iblk_row1 V c t p k _ rfl)
    (fun k => iblk_row2 V c t p k _ rfl) (fun k => iblk_row3 V c t p k _ rfl)
    (iblk_whole4 V c t) (iblk_whole5 V c t) (iblk_whole6 V c t) (iblk_whole7 V c t) (iblk_whole8 V c t) (iblk_whole9 V c t)
    (iblk_whole10 V c t) (iblk_whole11 V c t)

/-! ## The blocks cover the array -/

/-- An index of the output array is in point t's block iff each coordinate is in the block's range on its axis. -/
theorem mem_blk (t : Fin cfg1.N) (i : S65536x51.Idx) :
    i ∈ ((cfg1.win 12).blk t).view.set ↔ ∀ a : Fin 2, win1_12.index t a * S512x51.size a ≤ (i a).val ∧ (i a).val < win1_12.index t a * S512x51.size a + S512x51.size a := by
  show i ∈ ((View.whole main_v45).slice (win1_12.rect t)).set ↔ _
  rw [View.set_slice_whole, Rect.mem_set_unit]
  exact Iff.rfl

/-- Every index of the output array lies in the block of the point of its row block, row / 512. -/
theorem cover (i : S65536x51.Idx) : ∃ t : Fin cfg1.N, (cfg1.win 12).flush t = true ∧ i ∈ ((cfg1.win 12).blk t).view.set := by
  have hN : cfg1.N = 128 := N_1
  have hi0 : (i 0).val < 65536 := idx2_lt0 i
  have hi1 : (i 1).val < 51 := idx2_lt1 i
  obtain ⟨t, ht⟩ : ∃ t : Fin cfg1.N, t.val = (i 0).val / 512 := ⟨⟨(i 0).val / 512, by rw [hN]; omega⟩, rfl⟩
  obtain ⟨-, -, -, -, ⟨e0, e1⟩⟩ := idx_facts t
  refine ⟨t, flush1_12 t, ?_⟩
  rw [mem_blk]
  intro a
  match a with
  | ⟨0, _⟩ => show win1_12.index t (0 : Fin 2) * 512 ≤ (i 0).val ∧ (i 0).val < win1_12.index t (0 : Fin 2) * 512 + 512; omega
  | ⟨1, _⟩ => show win1_12.index t (1 : Fin 2) * 51 ≤ (i 1).val ∧ (i 1).val < win1_12.index t (1 : Fin 2) * 51 + 51; omega

/-- The output array after the region: the row formula of the arrays the region finds on entry, at every index. -/
theorem final (c : Dev nD) :
    (dat1 V c).arrAt 12 cfg1.N
      = arrOf (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) (V c (Pipeline.arrRef spec1 11)) :=
  (dat1 V c).arrAt_eq_of_cover 12
    (arrOf (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) (V c (Pipeline.arrRef spec1 11)))
    (fun t _ => flushed_eq V c t) cover

/-- The second region's output array after the region, at (r, j). -/
theorem rel_apply (c : Dev nD) (r : Fin 65536) (j : Fin 51) :
    (dat1 V c).arrAt 12 cfg1.N (ix2 r j)
      = Spec.kerRow (fun k => c2 (V c (Pipeline.arrRef spec1 0)) r k) (fun k => c2 (V c (Pipeline.arrRef spec1 1)) r k)
          (fun a => c2 (V c (Pipeline.arrRef spec1 2)) r a)
          (c2 (V c (Pipeline.arrRef spec1 4))) (c2 (V c (Pipeline.arrRef spec1 5))) (r1 (V c (Pipeline.arrRef spec1 6)))
          (c2 (V c (Pipeline.arrRef spec1 7))) (r1 (V c (Pipeline.arrRef spec1 8)))
          (c2 (V c (Pipeline.arrRef spec1 9))) (c2 (V c (Pipeline.arrRef spec1 10))) (r1 (V c (Pipeline.arrRef spec1 11)))
          (fun a => c2 (V c (Pipeline.arrRef spec1 3)) r a) j :=
  congrFun (final V c) (ix2 r j)

end Cert.KernelIdeal.RelVal

end
-- ==== Proof.HostW.lean ====
/-
  What the host operations leave in the windows that hold weights, biases and the pooled features, when each kernel
  region is entered, element by element in terms of the launch memory: a weight window is the argument itself or its
  top or bottom 512 rows (the change of float format is the identity on the extended reals), a bias window is the
  argument laid out as one row, the pooled features are passed through.
-/
import proofs.«405842_j56667798503473_3_alg».proof.Proof.Gen.KernelIdeal.Frame
import proofs.«405842_j56667798503473_3_alg».proof.Proof.Spec
import Idealize.ShloMosaic.Lib.Pipeline.Value
import Idealize.ShloMosaic.Lib.StableHlo.Run
import Idealize.ShloMosaic.Lib.ValueLayout

noncomputable section

open scoped BigOperators

namespace Cert.KernelIdeal.HostW

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (m : (ℓ : Loc nD τ sig) → Buf (Elt Ideal) ℓ) (ρ : Dev nD → PrngReg)

/-- A stretch of host operations leaves a buffer as it found it when none of its operations writes that buffer: the
    written buffer of each operation is compared with the given one. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## From region 1's entry back to region 0's entry

Each buffer below is an argument or a result of the first stretch of host operations; no later stretch writes it and it
is none of region 0's arrays, so at region 1's entry it holds what it held at region 0's entry. -/

theorem back_arg1 (c : Dev nD) : W8 m ρ c (Proc.devRef .tc main_arg1) = W1 m ρ c (Proc.devRef .tc main_arg1) :=
  calc W8 m ρ c (Proc.devRef .tc main_arg1)
    _ = W7 m ρ c (Proc.devRef .tc main_arg1) := by not_written hostOps1_5
    _ = W6 m ρ c (Proc.devRef .tc main_arg1) := by not_written hostOps1_4
    _ = W5 m ρ c (Proc.devRef .tc main_arg1) := by not_written hostOps1_3
    _ = W4 m ρ c (Proc.devRef .tc main_arg1) := by not_written hostOps1_2
    _ = W3 m ρ c (Proc.devRef .tc main_arg1) := by not_written hostOps1_1
    _ = W2 m ρ c (Proc.devRef .tc main_arg1) := by not_written hostOps1
    _ = W1 m ρ c (Proc.devRef .tc main_arg1) := W2_of_ne m ρ c main_arg1 (by decide)

theorem back_v3 (c : Dev nD) : W8 m ρ c (Proc.devRef .tc main_v3) = W1 m ρ c (Proc.devRef .tc main_v3) :=
  calc W8 m ρ c (Proc.devRef .tc main_v3)
    _ = W7 m ρ c (Proc.devRef .tc main_v3) := by not_written hostOps1_5
    _ = W6 m ρ c (Proc.devRef .tc main_v3) := by not_written hostOps1_4
    _ = W5 m ρ c (Proc.devRef .tc main_v3) := by not_written hostOps1_3
    _ = W4 m ρ c (Proc.devRef .tc main_v3) := by not_written hostOps1_2
    _ = W3 m ρ c (Proc.devRef .tc main_v3) := by not_written hostOps1_1
    _ = W2 m ρ c (Proc.devRef .tc main_v3) := by not_written hostOps1
    _ = W1 m ρ c (Proc.devRef .tc main_v3) := W2_of_ne m ρ c main_v3 (by decide)

theorem back_v5 (c : Dev nD) : W8 m ρ c (Proc.devRef .tc main_v5) = W1 m ρ c (Proc.devRef .tc main_v5) :=
  calc W8 m ρ c (Proc.devRef .tc main_v5)
    _ = W7 m ρ c (Proc.devRef .tc main_v5) := by not_written hostOps1_5
    _ = W6 m ρ c (Proc.devRef .tc main_v5) := by not_written hostOps1_4
    _ = W5 m ρ c (Proc.devRef .tc main_v5) := by not_written hostOps1_3
    _ = W4 m ρ c (Proc.devRef .tc main_v5) := by not_written hostOps1_2
    _ = W3 m ρ c (Proc.devRef .tc main_v5) := by not_written hostOps1_1
    _ = W2 m ρ c (Proc.devRef .tc main_v5) := by not_written hostOps1
    _ = W1 m ρ c (Proc.devRef .tc main_v5) := W2_of_ne m ρ c main_v5 (by decide)

theorem back_v6 (c : Dev nD) : W8 m ρ c (Proc.devRef .tc main_v6) = W1 m ρ c (Proc.devRef .tc main_v6) :=
  calc W8 m ρ c (Proc.devRef .tc main_v6)
    _ = W7 m ρ c (Proc.devRef .tc main_v6) := by not_written hostOps1_5
    _ = W6 m ρ c (Proc.devRef .tc main_v6) := by not_written hostOps1_4
    _ = W5 m ρ c (Proc.devRef .tc main_v6) := by not_written hostOps1_3
    _ = W4 m ρ c (Proc.devRef .tc main_v6) := by not_written hostOps1_2
    _ = W3 m ρ c (Proc.devRef .tc main_v6) := by not_written hostOps1_1
    _ = W2 m ρ c (Proc.devRef .tc main_v6) := by not_written hostOps1
    _ = W1 m ρ c (Proc.devRef .tc main_v6) := W2_of_ne m ρ c main_v6 (by decide)

theorem back_v7 (c : Dev nD) : W8 m ρ c (Proc.devRef .tc main_v7) = W1 m ρ c (Proc.devRef .tc main_v7) :=
  calc W8 m ρ c (Proc.devRef .tc main_v7)
    _ = W7 m ρ c (Proc.devRef .tc main_v7) := by not_written hostOps1_5
    _ = W6 m ρ c (Proc.devRef .tc main_v7) := by not_written hostOps1_4
    _ = W5 m ρ c (Proc.devRef .tc main_v7) := by not_written hostOps1_3
    _ = W4 m ρ c (Proc.devRef .tc main_v7) := by not_written hostOps1_2
    _ = W3 m ρ c (Proc.devRef .tc main_v7) := by not_written hostOps1_1
    _ = W2 m ρ c (Proc.devRef .tc main_v7) := by not_written hostOps1
    _ = W1 m ρ c (Proc.devRef .tc main_v7) := W2_of_ne m ρ c main_v7 (by decide)

theorem back_v8 (c : Dev nD) : W8 m ρ c (Proc.devRef .tc main_v8) = W1 m ρ c (Proc.devRef .tc main_v8) :=
  calc W8 m ρ c (Proc.devRef .tc main_v8)
    _ = W7 m ρ c (Proc.devRef .tc main_v8) := by not_written hostOps1_5
    _ = W6 m ρ c (Proc.devRef .tc main_v8) := by not_written hostOps1_4
    _ = W5 m ρ c (Proc.devRef .tc main_v8) := by not_written hostOps1_3
    _ = W4 m ρ c (Proc.devRef .tc main_v8) := by not_written hostOps1_2
    _ = W3 m ρ c (Proc.devRef .tc main_v8) := by not_written hostOps1_1
    _ = W2 m ρ c (Proc.devRef .tc main_v8) := by not_written hostOps1
    _ = W1 m ρ c (Proc.devRef .tc main_v8) := W2_of_ne m ρ c main_v8 (by decide)

theorem back_v10 (c : Dev nD) : W8 m ρ c (Proc.devRef .tc main_v10) = W1 m ρ c (Proc.devRef .tc main_v10) :=
  calc W8 m ρ c (Proc.devRef .tc main_v10)
    _ = W7 m ρ c (Proc.devRef .tc main_v10) := by not_written hostOps1_5
    _ = W6 m ρ c (Proc.devRef .tc main_v10) := by not_written hostOps1_4
    _ = W5 m ρ c (Proc.devRef .tc main_v10) := by not_written hostOps1_3
    _ = W4 m ρ c (Proc.devRef .tc main_v10) := by not_written hostOps1_2
    _ = W3 m ρ c (Proc.devRef .tc main_v10) := by not_written hostOps1_1
    _ = W2 m ρ c (Proc.devRef .tc main_v10) := by not_written hostOps1
    _ = W1 m ρ c (Proc.devRef .tc main_v10) := W2_of_ne m ρ c main_v10 (by decide)

theorem back_v12 (c : Dev nD) : W8 m ρ c (Proc.devRef .tc main_v12) = W1 m ρ c (Proc.devRef .tc main_v12) :=
  calc W8 m ρ c (Proc.devRef .tc main_v12)
    _ = W7 m ρ c (Proc.devRef .tc main_v12) := by not_written hostOps1_5
    _ = W6 m ρ c (Proc.devRef .tc main_v12) := by not_written hostOps1_4
    _ = W5 m ρ c (Proc.devRef .tc main_v12) := by not_written hostOps1_3
    _ = W4 m ρ c (Proc.devRef .tc main_v12) := by not_written hostOps1_2
    _ = W3 m ρ c (Proc.devRef .tc main_v12) := by not_written hostOps1_1
    _ = W2 m ρ c (Proc.devRef .tc main_v12) := by not_written hostOps1
    _ = W1 m ρ c (Proc.devRef .tc main_v12) := W2_of_ne m ρ c main_v12 (by decide)

theorem back_v13 (c : Dev nD) : W8 m ρ c (Proc.devRef .tc main_v13) = W1 m ρ c (Proc.devRef .tc main_v13) :=
  calc W8 m ρ c (Proc.devRef .tc main_v13)
    _ = W7 m ρ c (Proc.devRef .tc main_v13) := by not_written hostOps1_5
    _ = W6 m ρ c (Proc.devRef .tc main_v13) := by not_written hostOps1_4
    _ = W5 m ρ c (Proc.devRef .tc main_v13) := by not_written hostOps1_3
    _ = W4 m ρ c (Proc.devRef .tc main_v13) := by not_written hostOps1_2
    _ = W3 m ρ c (Proc.devRef .tc main_v13) := by not_written hostOps1_1
    _ = W2 m ρ c (Proc.devRef .tc main_v13) := by not_written hostOps1
    _ = W1 m ρ c (Proc.devRef .tc main_v13) := W2_of_ne m ρ c main_v13 (by decide)

/-! ## What the first stretch leaves in each buffer, as a term over the launch memory -/

theorem w1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by not_written hostOps0
    _ = m ((c : Thread nD τ).loc main_arg0) := rfl

theorem w1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by not_written hostOps0
    _ = m ((c : Thread nD τ).loc main_arg1) := rfl

theorem w1_v0 (c : Dev nD) :
    (W1 m ρ c (Proc.devRef .tc main_v0) : FVec Ideal S512x1024 .bf16) =
      truncf (F := Ideal) .bf16 (m ((c : Thread nD τ).loc main_arg4) : FVec Ideal S512x1024 .f32) bitsLt_bf16_f32 := by
  show StableHlo.after hostOps0 _ (Proc.devRef .tc main_v0) = _
  after_results

theorem w1_v1 (c : Dev nD) :
    (W1 m ρ c (Proc.devRef .tc main_v1) : FVec Ideal S1x1024 .f32) =
      shapeCast S1x1024 (m ((c : Thread nD τ).loc main_arg5) : FVec Ideal S1024 .f32) shapeCasts_S1024_S1x1024 := by
  show StableHlo.after hostOps0 _ (Proc.devRef .tc main_v1) = _
  after_results; rfl

theorem w1_v3 (c : Dev nD) :
    (W1 m ρ c (Proc.devRef .tc main_v3) : FVec Ideal S512x4096 .bf16) =
      truncf (F := Ideal) .bf16 (extractStridedSlice S512x4096 ![0, 0] (m ((c : Thread nD τ).loc main_arg6) : FVec Ideal S1024x4096 .f32) slices_S1024x4096_S512x4096_0_0) bitsLt_bf16_f32 := by
  show StableHlo.after hostOps0 _ (Proc.devRef .tc main_v3) = _
  after_results

theorem w1_v5 (c : Dev nD) :
    (W1 m ρ c (Proc.devRef .tc main_v5) : FVec Ideal S512x4096 .bf16) =
      truncf (F := Ideal) .bf16 (extractStridedSlice S512x4096 ![512, 0] (m ((c : Thread nD τ).loc main_arg6) : FVec Ideal S1024x4096 .f32) slices_S1024x4096_S512x4096_512_0) bitsLt_bf16_f32 := by
  show StableHlo.after hostOps0 _ (Proc.devRef .tc main_v5) = _
  after_results

theorem w1_v6 (c : Dev nD) :
    (W1 m ρ c (Proc.devRef .tc main_v6) : FVec Ideal S1x4096 .f32) =
      shapeCast S1x4096 (m ((c : Thread nD τ).loc main_arg7) : FVec Ideal S4096 .f32) shapeCasts_S4096_S1x4096 := by
  show StableHlo.after hostOps0 _ (Proc.devRef .tc main_v6) = _
  after_results; rfl

theorem w1_v7 (c : Dev nD) :
    (W1 m ρ c (Proc.devRef .tc main_v7) : FVec Ideal S4096x51 .bf16) =
      truncf (F := Ideal) .bf16 (m ((c : Thread nD τ).loc main_arg8) : FVec Ideal S4096x51 .f32) bitsLt_bf16_f32 := by
  show StableHlo.after hostOps0 _ (Proc.devRef .tc main_v7) = _
  after_results

theorem w1_v8 (c : Dev nD) :
    (W1 m ρ c (Proc.devRef .tc main_v8) : FVec Ideal S1x51 .f32) =
      shapeCast S1x51 (m ((c : Thread nD τ).loc main_arg9) : FVec Ideal S51 .f32) shapeCasts_S51_S1x51 := by
  show StableHlo.after hostOps0 _ (Proc.devRef .tc main_v8) = _
  after_results; rfl

theorem w1_v10 (c : Dev nD) :
    (W1 m ρ c (Proc.devRef .tc main_v10) : FVec Ideal S512x51 .bf16) =
      truncf (F := Ideal) .bf16 (extractStridedSlice S512x51 ![0, 0] (m ((c : Thread nD τ).loc main_arg10) : FVec Ideal S1024x51 .f32) slices_S1024x51_S512x51_0_0) bitsLt_bf16_f32 := by
  show StableHlo.after hostOps0 _ (Proc.devRef .tc main_v10) = _
  after_results

theorem w1_v12 (c : Dev nD) :
    (W1 m ρ c (Proc.devRef .tc main_v12) : FVec Ideal S512x51 .bf16) =
      truncf (F := Ideal) .bf16 (extractStridedSlice S512x51 ![512, 0] (m ((c : Thread nD τ).loc main_arg10) : FVec Ideal S1024x51 .f32) slices_S1024x51_S512x51_512_0) bitsLt_bf16_f32 := by
  show StableHlo.after hostOps0 _ (Proc.devRef .tc main_v12) = _
  after_results

theorem w1_v13 (c : Dev nD) :
    (W1 m ρ c (Proc.devRef .tc main_v13) : FVec Ideal S1x51 .f32) =
      shapeCast S1x51 (m ((c : Thread nD τ).loc main_arg11) : FVec Ideal S51 .f32) shapeCasts_S51_S1x51 := by
  show StableHlo.after hostOps0 _ (Proc.devRef .tc main_v13) = _
  after_results; rfl

/-! ## The windows read at one index -/

/-- Region 0, window 0: the edge contexts, as launched. -/
theorem v1_x (c : Dev nD) (i : Fin 20480) (k : Fin 512) :
    c2 (V1 m ρ c (Pipeline.arrRef spec0 0)) i k = c2 (m ((c : Thread nD τ).loc main_arg0)) i k := by
  show (W1 m ρ c (Proc.devRef .tc main_arg0) : FVec Ideal S20480x512 .f32) (ix2 i k) = _
  rw [w1_arg0]
/-- Region 0, window 1: the embedding weight. -/
theorem v1_w (c : Dev nD) (k : Fin 512) (j : Fin 1024) :
    c2 (V1 m ρ c (Pipeline.arrRef spec0 1)) k j = c2 (m ((c : Thread nD τ).loc main_arg4)) k j := by
  show (W1 m ρ c (Proc.devRef .tc main_v0) : FVec Ideal S512x1024 .bf16) (ix2 k j) = _
  rw [w1_v0, truncf_apply]
/-- Region 0, window 2: the embedding bias as one row. -/
theorem v1_b (c : Dev nD) (j : Fin 1024) :
    r1 (V1 m ρ c (Pipeline.arrRef spec0 2)) j = c1 (m ((c : Thread nD τ).loc main_arg5)) j := by
  show (W1 m ρ c (Proc.devRef .tc main_v1) : FVec Ideal S1x1024 .f32) (ix2 (0 : Fin 1) j) = _
  rw [w1_v1]
  exact shapeCast_a_1a_apply _ _ 0 j
/-- Region 1, window 2: the pooled features, as launched. -/
theorem v8_union (c : Dev nD) (r : Fin 65536) (a : Fin 4096) :
    c2 (V8 m ρ c (Pipeline.arrRef spec1 2)) r a = c2 (m ((c : Thread nD τ).loc main_arg1)) r a := by
  show (W8 m ρ c (Proc.devRef .tc main_arg1) : FVec Ideal S65536x4096 .f32) (ix2 r a) = _
  rw [back_arg1, w1_arg1]
/-- Region 1, window 4: the top 512 rows of the gate weight. -/
theorem v8_w1t (c : Dev nD) (k : Fin 512) (a : Fin 4096) :
    c2 (V8 m ρ c (Pipeline.arrRef spec1 4)) k a = c2 (m ((c : Thread nD τ).loc main_arg6)) (Spec.lo k) a := by
  show (W8 m ρ c (Proc.devRef .tc main_v3) : FVec Ideal S512x4096 .bf16) (ix2 k a) = _
  rw [back_v3, w1_v3, truncf_apply]
  exact slice2_axis0_apply 0 _ _ k a (Spec.lo k) (Nat.zero_add _).symm
/-- Region 1, window 5: the bottom 512 rows of the gate weight. -/
theorem v8_w1b (c : Dev nD) (k : Fin 512) (a : Fin 4096) :
    c2 (V8 m ρ c (Pipeline.arrRef spec1 5)) k a = c2 (m ((c : Thread nD τ).loc main_arg6)) (Spec.hi k) a := by
  show (W8 m ρ c (Proc.devRef .tc main_v5) : FVec Ideal S512x4096 .bf16) (ix2 k a) = _
  rw [back_v5, w1_v5, truncf_apply]
  exact slice2_axis0_apply 512 _ _ k a (Spec.hi k) rfl
/-- Region 1, window 6: the gate bias as one row. -/
theorem v8_b1 (c : Dev nD) (a : Fin 4096) :
    r1 (V8 m ρ c (Pipeline.arrRef spec1 6)) a = c1 (m ((c : Thread nD τ).loc main_arg7)) a := by
  show (W8 m ρ c (Proc.devRef .tc main_v6) : FVec Ideal S1x4096 .f32) (ix2 (0 : Fin 1) a) = _
  rw [back_v6, w1_v6]
  exact shapeCast_a_1a_apply _ _ 0 a
/-- Region 1, window 7: the compression weight. -/
theorem v8_w2 (c : Dev nD) (a : Fin 4096) (j : Fin 51) :
    c2 (V8 m ρ c (Pipeline.arrRef spec1 7)) a j = c2 (m ((c : Thread nD τ).loc main_arg8)) a j := by
  show (W8 m ρ c (Proc.devRef .tc main_v7) : FVec Ideal S4096x51 .bf16) (ix2 a j) = _
  rw [back_v7, w1_v7, truncf_apply]
/-- Region 1, window 8: the compression bias as one row. -/
theorem v8_b2 (c : Dev nD) (j : Fin 51) :
    r1 (V8 m ρ c (Pipeline.arrRef spec1 8)) j = c1 (m ((c : Thread nD τ).loc main_arg9)) j := by
  show (W8 m ρ c (Proc.devRef .tc main_v8) : FVec Ideal S1x51 .f32) (ix2 (0 : Fin 1) j) = _
  rw [back_v8, w1_v8]
  exact shapeCast_a_1a_apply _ _ 0 j
/-- Region 1, window 9: the top 512 rows of the context weight. -/
theorem v8_w3t (c : Dev nD) (k : Fin 512) (j : Fin 51) :
    c2 (V8 m ρ c (Pipeline.arrRef spec1 9)) k j = c2 (m ((c : Thread nD τ).loc main_arg10)) (Spec.lo k) j := by
  show (W8 m ρ c (Proc.devRef .tc main_v10) : FVec Ideal S512x51 .bf16) (ix2 k j) = _
  rw [back_v10, w1_v10, truncf_apply]
  exact slice2_axis0_apply 0 _ _ k j (Spec.lo k) (Nat.zero_add _).symm
/-- Region 1, window 10: the bottom 512 rows of the context weight. -/
theorem v8_w3b (c : Dev nD) (k : Fin 512) (j : Fin 51) :
    c2 (V8 m ρ c (Pipeline.arrRef spec1 10)) k j = c2 (m ((c : Thread nD τ).loc main_arg10)) (Spec.hi k) j := by
  show (W8 m ρ c (Proc.devRef .tc main_v12) : FVec Ideal S512x51 .bf16) (ix2 k j) = _
  rw [back_v12, w1_v12, truncf_apply]
  exact slice2_axis0_apply 512 _ _ k j (Spec.hi k) rfl
/-- Region 1, window 11: the context bias as one row. -/
theorem v8_b3 (c : Dev nD) (j : Fin 51) :
    r1 (V8 m ρ c (Pipeline.arrRef spec1 11)) j = c1 (m ((c : Thread nD τ).loc main_arg11)) j := by
  show (W8 m ρ c (Proc.devRef .tc main_v13) : FVec Ideal S1x51 .f32) (ix2 (0 : Fin 1) j) = _
  rw [back_v13, w1_v13]
  exact shapeCast_a_1a_apply _ _ 0 j

end Cert.KernelIdeal.HostW

end
-- ==== Proof.LibGatherRows.lean ====
/-
  General lemmas about gathering whole rows (or single elements) of a table at a column of signed 32-bit start
  indices, read at one index: the element comes from the table's row at the start index clamped into the table
  (`Cert.Spec.row`), whatever the table holds.  And the word facts about wrapping a negative index
  (`Cert.Spec.wrap`) and about words that already are row numbers: wrapping and clamping leave them alone, and the
  two range tests a fill-mode take performs on them both pass.
-/
import Idealize.ShloMosaic.PureOps.Ideal
import Idealize.ShloMosaic.Lib.ValueIdx
import proofs.«405842_j56667798503473_3_alg».proof.Proof.Spec

noncomputable section

open scoped BigOperators

namespace Cert.LibGatherRows

open Idealize.ShloMosaic Idealize.ShloMosaic.ValueIdx Cert.Spec

variable {α : Type}

/-- The dimension numbers of a gather of rows: operand [N, K], start indices [R, 1], result [R, K]. -/
private abbrev rowsDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- An axis of a rank-2 shape is the first or the second. -/
private theorem axis2 (a : Fin 2) : a = 0 ∨ a = 1 := by
  rcases a with ⟨v, hv⟩
  rcases v with _ | _ | v
  · left; rfl
  · right; rfl
  · omega

/-- A gather of rows of an [N, K] table at an [R, 1] column of start indices (offset axis 1, collapsed axis 0,
    start index map [0], index vector axis 1, slices [1, K]): element (r, k) is the table's at the clamped start row. -/
theorem gather_rows_apply {N K R : Nat} (hN : 0 < N)
    (d : GatherDims ⟨2, ![N, K]⟩ ⟨2, ![R, 1]⟩ ⟨2, ![R, K]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, K])
    (x : (⟨2, ![N, K]⟩ : Shape).Idx → α) (idx : IVec ⟨2, ![R, 1]⟩ 32) (r : Fin R) (k : Fin K) :
    Host.gather d x idx (ix2 r k) = x (ix2 (Spec.row N hN (idx (ix2 r (0 : Fin 1)))) k) := by
  obtain ⟨od, cd, ob, sb, sm, iv, ss, wf⟩ := d
  simp only at h1 h2 h3 h4 h5 h6 h7
  subst h1 h2 h3 h4 h5 h6 h7
  show Host.gather (rowsDims N K R wf) x idx (ix2 r k) = _
  unfold Host.gather
  congr 1
  funext a
  refine Fin.ext ?_
  show (rowsDims N K R wf).start (ix2 r k) idx a + (rowsDims N K R wf).batchCoord (ix2 r k) a
    + (rowsDims N K R wf).offCoord (ix2 r k) a = _
  rw [GatherDims.batchCoord_eq_zero _ _ _ List.not_mem_nil, Nat.add_zero]
  rcases axis2 a with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N K R wf).startIndexMap from List.mem_singleton.mpr rfl)]
    have hsi : (rowsDims N K R wf).siIdx (ix2 r k) ⟨List.idxOf (0 : Fin 2) (rowsDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · have h10 : (1 : Fin 2) ∉ ([0] : List (Fin 2)) := by decide
    unfold GatherDims.start
    rw [dif_neg (show (1 : Fin 2) ∉ (rowsDims N K R wf).startIndexMap from h10), Nat.zero_add]
    unfold GatherDims.offCoord
    rw [dif_pos (show (1 : Fin 2) ∈ (rowsDims N K R wf).sKept from
      (GatherDims.mem_sKept _ _).mpr ⟨h10, List.not_mem_nil⟩)]
    rfl

/-- The dimension numbers of a gather of single elements: operand [N], start indices [R, 1], result [R]. -/
private abbrev elemsDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A gather of single elements of an [N] table at an [R, 1] column of start indices: element r is the table's at the
    clamped start index. -/
theorem gather_elems_apply {N R : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ 32) (r : Fin R) :
    Host.gather d x idx (ix1 r) = x (ix1 (Spec.row N hN (idx (ix2 r (0 : Fin 1))))) := by
  obtain ⟨od, cd, ob, sb, sm, iv, ss, wf⟩ := d
  simp only at h1 h2 h3 h4 h5 h6 h7
  subst h1 h2 h3 h4 h5 h6 h7
  show Host.gather (elemsDims N R wf) x idx (ix1 r) = _
  unfold Host.gather
  congr 1
  funext a
  obtain rfl : a = 0 := Subsingleton.elim _ _
  refine Fin.ext ?_
  show (elemsDims N R wf).start (ix1 r) idx 0 + (elemsDims N R wf).batchCoord (ix1 r) 0
    + (elemsDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N R wf).startIndexMap from List.mem_singleton.mpr rfl)]
  have hsi : (elemsDims N R wf).siIdx (ix1 r) ⟨List.idxOf (0 : Fin 1) (elemsDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The printed wrap of a possibly negative index word: select (v <s 0) (v + n) v. -/
theorem select_slt_wrap (n v : BitVec 32) :
    Scalar.select (IntOp.cmpi .slt v 0#32) (v + n) v = Spec.wrap n v := by
  unfold Scalar.select IntOp.cmpi Spec.wrap
  cases h : v.slt 0#32 <;> simp

/-- A word that is a row number is left alone by the wrap. -/
theorem wrap_of_range (n v : BitVec 32) (h0 : 0 ≤ v.toInt) : Spec.wrap n v = v := by
  unfold Spec.wrap
  have : v.slt 0#32 = false := by
    simp only [BitVec.slt, BitVec.toInt_zero, decide_eq_false_iff_not]; omega
  simp [this]

/-- A word that is a row number passes the lower range test. -/
theorem sge_zero_of_range (v : BitVec 32) (h0 : 0 ≤ v.toInt) : IntOp.cmpi .sge v 0#32 = 1#1 := by
  unfold IntOp.cmpi
  have : (0#32).sle v = true := by
    simp only [BitVec.sle, BitVec.toInt_zero, decide_eq_true_eq]; exact h0
  simp [this]

/-- A word that is a row number passes the upper range test. -/
theorem sle_of_range (v : BitVec 32) (N : Nat) (hN : 0 < N) (hN' : N < 2 ^ 31) (h1 : v.toInt < N) :
    IntOp.cmpi .sle v (BitVec.ofNat 32 (N - 1)) = 1#1 := by
  unfold IntOp.cmpi
  have hn : (BitVec.ofNat 32 (N - 1)).toNat = N - 1 := by
    rw [BitVec.toNat_ofNat]; omega
  have hi : (BitVec.ofNat 32 (N - 1)).toInt = ((N - 1 : Nat) : Int) := by
    rw [BitVec.toInt_eq_toNat_of_lt (by rw [hn]; omega), hn]
  have : v.sle (BitVec.ofNat 32 (N - 1)) = true := by
    simp only [BitVec.sle, decide_eq_true_eq, hi]
    omega
  simp [this]

/-- The label word of two labels below 151 is a row number of the 151 · 151 table. -/
theorem lbl_range (a b : BitVec 32) (ha0 : 0 ≤ a.toInt) (ha1 : a.toInt < 151) (hb0 : 0 ≤ b.toInt) (hb1 : b.toInt < 151) :
    0 ≤ (a * 151#32 + b).toInt ∧ (a * 151#32 + b).toInt < 22801 := by
  have la : a.toNat < 151 := by
    have ea := BitVec.toInt_eq_toNat_cond a
    have := a.isLt
    split at ea <;> omega
  have lb : b.toNat < 151 := by
    have eb := BitVec.toInt_eq_toNat_cond b
    have := b.isLt
    split at eb <;> omega
  have hc : (a * 151#32 + b).toNat = a.toNat * 151 + b.toNat := by
    rw [BitVec.toNat_add, BitVec.toNat_mul]
    simp only [BitVec.toNat_ofNat]
    omega
  have hi : (a * 151#32 + b).toInt = ((a.toNat * 151 + b.toNat : Nat) : Int) := by
    rw [BitVec.toInt_eq_toNat_of_lt (by rw [hc]; omega), hc]
  rw [hi]
  omega

end Cert.LibGatherRows

end
-- ==== Proof.HostGFb.lean ====
/-
  What the host operations leave in the label-table window when the second region is entered, element by element,
  when every pair word is a row number and every label word a label: the pair's label word (head label times 151 plus
  tail label, the labels read out of the label array at the pair's two row numbers) is then a row number of the
  151 · 151 table, the take's two range tests pass, and the gathered row is the table's row at that word.
-/
import proofs.«405842_j56667798503473_3_alg».proof.Proof.Gen.KernelIdeal.Frame
import proofs.«405842_j56667798503473_3_alg».proof.Proof.Spec
import proofs.«405842_j56667798503473_3_alg».proof.Proof.LibGatherRows
import Idealize.ShloMosaic.Lib.Pipeline.Value
import Idealize.ShloMosaic.Lib.StableHlo.Run
import Idealize.ShloMosaic.Lib.ValueLayout
import Idealize.ShloMosaic.PureOps.Reduce

noncomputable section

open scoped BigOperators

namespace Cert.KernelIdeal.HostGFb

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (m : (ℓ : Loc nD τ sig) → Buf (Elt Ideal) ℓ) (ρ : Dev nD → PrngReg)

/-! ## The arrays the two stretches compute, as functions of their operands -/

/-- Column 0 of the pair table as a vector of words. -/
def headWords (p : IVec S65536x2 32) : IVec S65536 32 :=
  shapeCast S65536 (extractStridedSlice S65536x1 ![0, 0] p slices_S65536x2_S65536x1_0_0) shapeCasts_S65536x1_S65536
/-- Column 1 of the pair table as a vector of words. -/
def tailWords (p : IVec S65536x2 32) : IVec S65536 32 :=
  shapeCast S65536 (extractStridedSlice S65536x1 ![0, 1] p slices_S65536x2_S65536x1_0_1) shapeCasts_S65536x1_S65536

theorem headWords_apply (p : IVec S65536x2 32) (r : Fin 65536) : headWords p (ix1 r) = p (ix2 r (0 : Fin 2)) := by
  unfold headWords
  refine (shapeCast_apply _ _ (ix1 r) (ix2 r (0 : Fin 1)) ?_).trans (slice2_axis1_apply 0 p _ r (0 : Fin 1) (0 : Fin 2) rfl)
  rw [Shape.rowMajor_val_two, Shape.rowMajor_val_one]
  show r.val * 1 + 0 = r.val
  omega
theorem tailWords_apply (p : IVec S65536x2 32) (r : Fin 65536) : tailWords p (ix1 r) = p (ix2 r (1 : Fin 2)) := by
  unfold tailWords
  refine (shapeCast_apply _ _ (ix1 r) (ix2 r (0 : Fin 1)) ?_).trans (slice2_axis1_apply 1 p _ r (0 : Fin 1) (1 : Fin 2) rfl)
  rw [Shape.rowMajor_val_two, Shape.rowMajor_val_one]
  show r.val * 1 + 0 = r.val
  omega

/-- The column of start indices of a take at a table of n rows: each word with n added when it is negative. -/
def wrapCol (n : BitVec 32) (v : IVec S65536 32) : IVec S65536x1 32 :=
  broadcastInDim S65536x1 ![0] bcast_S65536_S65536x1_0
    (select (cmpi .slt v (broadcastInDim S65536 ![] bcast_S_S65536 (constantI S_ 32 0#32)))
      (addi v (broadcastInDim S65536 ![] bcast_S_S65536 (constantI S_ 32 n))) v)

theorem wrapCol_apply (n : BitVec 32) (v : IVec S65536 32) (r : Fin 65536) (z : Fin 1) :
    wrapCol n v (ix2 r z) = Spec.wrap n (v (ix1 r)) := by
  unfold wrapCol
  refine (broadcastInDim_apply _ _ _ (ix2 r z) (ix1 r) (fun a => match a with | ⟨0, _⟩ => rfl)).trans ?_
  rw [select_apply]
  exact LibGatherRows.select_slt_wrap n (v (ix1 r))

/-- The labels read out of the label array at the wrapped words v. -/
def gatherWords (o : IVec S20480 32) (v : IVec S65536 32) : IVec S65536 32 :=
  Host.gather gather_S20480_S65536x1_S65536_n_0_n_n_0_1_1 o (wrapCol 20480#32 v)

theorem gatherWords_apply (o : IVec S20480 32) (v : IVec S65536 32) (r : Fin 65536) :
    gatherWords o v (ix1 r) = o (ix1 (Spec.row 20480 (by decide) (Spec.wrap 20480#32 (v (ix1 r))))) := by
  unfold gatherWords
  rw [LibGatherRows.gather_elems_apply (by decide : 0 < 20480) _ rfl rfl rfl rfl rfl rfl rfl o _ r, wrapCol_apply]

/-- The label words: head label times 151 plus tail label. -/
def lblWords (p : IVec S65536x2 32) (o : IVec S20480 32) : IVec S65536 32 :=
  addi (muli (gatherWords o (headWords p)) (broadcastInDim S65536 ![] bcast_S_S65536 (constantI S_ 32 151#32)))
    (gatherWords o (tailWords p))

theorem lblWords_apply (p : IVec S65536x2 32) (o : IVec S20480 32) (r : Fin 65536) :
    lblWords p o (ix1 r) = Spec.lbl (c2 p) (c1 o) r := by
  unfold lblWords
  show gatherWords o (headWords p) (ix1 r) * 151#32 + gatherWords o (tailWords p) (ix1 r) = _
  rw [gatherWords_apply, gatherWords_apply, headWords_apply, tailWords_apply]
  rfl

/-- A left fold by "and" from 1 over bits that are all 1 is 1. -/
theorem foldl_andi_one {ι : Type} (f : ι → BitVec 1) (hf : ∀ i, f i = 1#1) :
    ∀ l : List ι, l.foldl (fun b i => IntOp.andi b (f i)) 1#1 = 1#1
  | [] => rfl
  | a :: l => by
    rw [List.foldl_cons, hf a]
    exact foldl_andi_one f hf l

/-- The take's mask: both range tests on the column of start indices, and-ed, and reduced by "and" over the unit axis. -/
def maskRow (hi : BitVec 32) (ic : IVec S65536x1 32) : IVec S65536 1 :=
  Host.reduce IntOp.andi
    (andi (cmpi .sge ic (broadcastInDim S65536x1 ![] bcast_S_S65536x1 (constantI S_ 32 0#32)))
      (cmpi .sle ic (broadcastInDim S65536x1 ![0, 1] bcast_S1x1_S65536x1_0_1
        (broadcastInDim S1x1 ![1] bcast_S1_S1x1_1 (constantI S1 32 hi)))))
    (constantI S_ 1 1#1) reducesTo_S65536x1_S65536_d1 h_S_

theorem maskRow_one (N : Nat) (hN : 0 < N) (hN' : N < 2 ^ 31) (ic : IVec S65536x1 32)
    (hic : ∀ (r : Fin 65536) (z : Fin 1), 0 ≤ (ic (ix2 r z)).toInt ∧ (ic (ix2 r z)).toInt < N) (j : S65536.Idx) :
    maskRow (BitVec.ofNat 32 (N - 1)) ic j = 1#1 := by
  unfold maskRow
  rw [Host.reduce_eq_foldl]
  refine foldl_andi_one _ (fun i => ?_) _
  obtain ⟨a, z, rfl⟩ : ∃ (a : Fin 65536) (z : Fin 1), i = ix2 a z := ⟨i 0, i 1, eq_ix2 i⟩
  show IntOp.andi (IntOp.cmpi .sge (ic (ix2 a z)) 0#32) (IntOp.cmpi .sle (ic (ix2 a z)) (BitVec.ofNat 32 (N - 1))) = 1#1
  rw [LibGatherRows.sge_zero_of_range _ (hic a z).1, LibGatherRows.sle_of_range _ N hN hN' (hic a z).2]
  rfl

/-- The take of rows of the label table at the words v: where both range tests pass the gathered row, elsewhere the
    fill value. -/
def takeFb (x : FVec Ideal S22801x51 .f32) (v : IVec S65536 32) : FVec Ideal S65536x51 .f32 :=
  select (broadcastInDim S65536x51 ![0] bcast_S65536_S65536x51_0 (maskRow 22800#32 (wrapCol 22801#32 v)))
    (Host.gather gather_S22801x51_S65536x1_S65536x51_1_0_n_n_0_1_151 x (wrapCol 22801#32 v))
    (broadcastInDim S65536x51 ![] bcast_S_S65536x51 (constant (F := Ideal) S_ .f32 0x7FC00000#32))

theorem takeFb_apply (x : FVec Ideal S22801x51 .f32) (v : IVec S65536 32)
    (hv : ∀ r : Fin 65536, 0 ≤ (v (ix1 r)).toInt ∧ (v (ix1 r)).toInt < 22801) (r : Fin 65536) (j : Fin 51) :
    takeFb x v (ix2 r j) = x (ix2 (Spec.row 22801 (by decide) (Spec.wrap 22801#32 (v (ix1 r)))) j) := by
  unfold takeFb
  rw [select_apply]
  have hm : broadcastInDim S65536x51 ![0] bcast_S65536_S65536x51_0 (maskRow 22800#32 (wrapCol 22801#32 v)) (ix2 r j) = 1#1 := by
    refine (broadcastInDim_apply _ _ _ (ix2 r j) (ix1 r) (fun a => match a with | ⟨0, _⟩ => rfl)).trans ?_
    refine maskRow_one 22801 (by decide) (by decide) _ (fun a z => ?_) _
    rw [wrapCol_apply, LibGatherRows.wrap_of_range _ _ (hv a).1]
    exact hv a
  rw [hm, select_one,
    LibGatherRows.gather_rows_apply (by decide : 0 < 22801) _ rfl rfl rfl rfl rfl rfl rfl x _ r j, wrapCol_apply]

/-! ## The two stretches evaluated at their results, from any contents -/

/-- What the label stretch leaves in the label words' buffer. -/
theorem after_lbl (X : Valuation τ sig (Elt Ideal)) :
    (StableHlo.after (hostOps1_4 (F := Ideal)) X (Proc.devRef .tc main_v43) : IVec S65536 32)
      = lblWords (X (Proc.devRef .tc main_arg2)) (X (Proc.devRef .tc main_arg3)) := by
  after_results_simp
  unfold lblWords gatherWords headWords tailWords wrapCol
  rfl

/-- What the take's stretch leaves in its result buffer. -/
theorem after_takeFb (X : Valuation τ sig (Elt Ideal)) :
    (StableHlo.after (hostOps1_5 (F := Ideal)) X (Proc.devRef .tc main_v44) : FVec Ideal S65536x51 .f32)
      = takeFb (X (Proc.devRef .tc main_arg12)) (X (Proc.devRef .tc main_v43)) := by
  after_results_simp
  simp only [StableHlo.TRef.ofBuf, StableHlo.TRef.toBuf, cast_eq]
  unfold takeFb maskRow wrapCol
  rfl

/-! ## The three operands at the stretches' entries are as launched -/

/-- A stretch of host operations leaves a buffer as it found it when none of its operations writes that buffer: the
    written buffer of each operation is compared with the given one. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The pair table when the label stretch starts. -/
theorem w6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := by not_written hostOps1_3
    _ = W4 m ρ c (Proc.devRef .tc main_arg2) := by not_written hostOps1_2
    _ = W3 m ρ c (Proc.devRef .tc main_arg2) := by not_written hostOps1_1
    _ = W2 m ρ c (Proc.devRef .tc main_arg2) := by not_written hostOps1
    _ = W1 m ρ c (Proc.devRef .tc main_arg2) := W2_of_ne m ρ c main_arg2 (by decide)
    _ = W0 m ρ c (Proc.devRef .tc main_arg2) := by not_written hostOps0
    _ = m ((c : Thread nD τ).loc main_arg2) := rfl
/-- The label array when the label stretch starts. -/
theorem w6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by not_written hostOps1_3
    _ = W4 m ρ c (Proc.devRef .tc main_arg3) := by not_written hostOps1_2
    _ = W3 m ρ c (Proc.devRef .tc main_arg3) := by not_written hostOps1_1
    _ = W2 m ρ c (Proc.devRef .tc main_arg3) := by not_written hostOps1
    _ = W1 m ρ c (Proc.devRef .tc main_arg3) := W2_of_ne m ρ c main_arg3 (by decide)
    _ = W0 m ρ c (Proc.devRef .tc main_arg3) := by not_written hostOps0
    _ = m ((c : Thread nD τ).loc main_arg3) := rfl
/-- The label table when the take's stretch starts. -/
theorem w7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := by not_written hostOps1_4
    _ = W5 m ρ c (Proc.devRef .tc main_arg12) := by not_written hostOps1_3
    _ = W4 m ρ c (Proc.devRef .tc main_arg12) := by not_written hostOps1_2
    _ = W3 m ρ c (Proc.devRef .tc main_arg12) := by not_written hostOps1_1
    _ = W2 m ρ c (Proc.devRef .tc main_arg12) := by not_written hostOps1
    _ = W1 m ρ c (Proc.devRef .tc main_arg12) := W2_of_ne m ρ c main_arg12 (by decide)
    _ = W0 m ρ c (Proc.devRef .tc main_arg12) := by not_written hostOps0
    _ = m ((c : Thread nD τ).loc main_arg12) := rfl

/-! ## The window -/

/-- The label words when the take's stretch starts, over the launch memory. -/
theorem w7_v43 (c : Dev nD) :
    (W7 m ρ c (Proc.devRef .tc main_v43) : IVec S65536 32)
      = lblWords (m ((c : Thread nD τ).loc main_arg2)) (m ((c : Thread nD τ).loc main_arg3)) :=
  (after_lbl (W6 m ρ c)).trans (by rw [w6_arg2, w6_arg3])

/-- The take's result when the second region is entered, over the launch memory. -/
theorem w8_v44 (c : Dev nD) :
    (W8 m ρ c (Proc.devRef .tc main_v44) : FVec Ideal S65536x51 .f32)
      = takeFb (m ((c : Thread nD τ).loc main_arg12))
          (lblWords (m ((c : Thread nD τ).loc main_arg2)) (m ((c : Thread nD τ).loc main_arg3))) :=
  (after_takeFb (W7 m ρ c)).trans (by rw [w7_arg12, w7_v43])

/-- Region 1, window 3: row r is the label table's row at pair r's label word. -/
theorem v8_fb (c : Dev nD)
    (hok : Spec.IdxOk (c2 (m ((c : Thread nD τ).loc main_arg2))) (c1 (m ((c : Thread nD τ).loc main_arg3))))
    (r : Fin 65536) (j : Fin 51) :
    c2 (V8 m ρ c (Pipeline.arrRef spec1 3)) r j
      = c2 (m ((c : Thread nD τ).loc main_arg12))
          (Spec.lblRow (c2 (m ((c : Thread nD τ).loc main_arg2))) (c1 (m ((c : Thread nD τ).loc main_arg3))) r) j := by
  show (W8 m ρ c (Proc.devRef .tc main_v44) : FVec Ideal S65536x51 .f32) (ix2 r j) = _
  rw [w8_v44, takeFb_apply _ _ (fun a => ?_) r j, lblWords_apply]
  · rfl
  · rw [lblWords_apply]
    exact LibGatherRows.lbl_range _ _ (hok.2 _).1 (hok.2 _).2 (hok.2 _).1 (hok.2 _).2

end Cert.KernelIdeal.HostGFb

end
-- ==== Proof.HostG.lean ====
/-
  What the host operations leave in the three gathered windows when the second region is entered, element by element,
  when every pair word is a row number and every label word a label: the fill-mode takes' range tests then all pass,
  so each gathered row is the table's row — the head rows and tail rows out of the first region's output array (its
  first and last 512 columns), the label rows out of the label table at the pair's label word.
-/
import proofs.«405842_j56667798503473_3_alg».proof.Proof.Gen.KernelIdeal.Frame
import proofs.«405842_j56667798503473_3_alg».proof.Proof.Spec
import proofs.«405842_j56667798503473_3_alg».proof.Proof.HostGFb
import proofs.«405842_j56667798503473_3_alg».proof.Proof.LibGatherRows
import Idealize.ShloMosaic.Lib.Pipeline.Value
import Idealize.ShloMosaic.Lib.StableHlo.Run
import Idealize.ShloMosaic.PureOps.Reduce

noncomputable section

open scoped BigOperators

namespace Cert.KernelIdeal.HostG

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (m : (ℓ : Loc nD τ sig) → Buf (Elt Ideal) ℓ) (ρ : Dev nD → PrngReg)

/-- The index column of a fill-mode take: each word wrapped, as a column. -/
def wrapCol (n : BitVec 32) (v : IVec S65536 32) : IVec S65536x1 32 :=
  broadcastInDim S65536x1 ![0] bcast_S65536_S65536x1_0
    (select (cmpi .slt v (broadcastInDim S65536 ![] bcast_S_S65536 (constantI S_ 32 0#32)))
      (addi v (broadcastInDim S65536 ![] bcast_S_S65536 (constantI S_ 32 n))) v)

theorem wrapCol_apply (n : BitVec 32) (v : IVec S65536 32) (r : Fin 65536) (z : Fin 1) :
    wrapCol n v (ix2 r z) = Spec.wrap n (v (ix1 r)) := by
  unfold wrapCol
  refine (broadcastInDim_apply _ _ _ (ix2 r z) (ix1 r) (fun a => match a with | ⟨0, _⟩ => rfl)).trans ?_
  rw [select_apply]
  exact LibGatherRows.select_slt_wrap n (v (ix1 r))

/-- A left fold by and from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_one f hf l

/-- A reduction by and, from 1, of an array of 1s is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-- The mask of a fill-mode take: both range tests on the index column, and-ed and reduced over the unit axis. -/
def maskRow (hi : BitVec 32) (ic : IVec S65536x1 32) : IVec S65536 1 :=
  Host.reduce IntOp.andi
    (andi (cmpi .sge ic (broadcastInDim S65536x1 ![] bcast_S_S65536x1 (constantI S_ 32 0#32)))
      (cmpi .sle ic (broadcastInDim S65536x1 ![0, 1] bcast_S1x1_S65536x1_0_1
        (broadcastInDim S1x1 ![1] bcast_S1_S1x1_1 (constantI S1 32 hi)))))
    (constantI S_ 1 1#1) reducesTo_S65536x1_S65536_d1 h_S_

theorem maskRow_one (N : Nat) (hN : 0 < N) (hN' : N < 2 ^ 31) (ic : IVec S65536x1 32)
    (hic : ∀ (r : Fin 65536) (z : Fin 1), 0 ≤ (ic (ix2 r z)).toInt ∧ (ic (ix2 r z)).toInt < N) (j : S65536.Idx) :
    maskRow (BitVec.ofNat 32 (N - 1)) ic j = 1#1 := by
  unfold maskRow
  refine reduce_andi_one _ _ _ _ (fun _ => rfl) (fun i => ?_) j
  obtain ⟨a, b, rfl⟩ : ∃ (a : Fin 65536) (b : Fin 1), i = ix2 a b := ⟨i 0, i 1, eq_ix2 i⟩
  show IntOp.andi (IntOp.cmpi .sge (ic (ix2 a b)) 0#32)
    (IntOp.cmpi .sle (ic (ix2 a b)) (BitVec.ofNat 32 (N - 1))) = 1#1
  rw [LibGatherRows.sge_zero_of_range _ (hic a b).1, LibGatherRows.sle_of_range _ N hN hN' (hic a b).2]
  rfl

/-- A fill-mode take of rows of a [20480, 512] table at the words v: masked gather at the wrapped words. -/
def takeRows512 (x : S20480x512.Idx → EReal) (v : IVec S65536 32) : S65536x512.Idx → EReal :=
  select (broadcastInDim S65536x512 ![0] bcast_S65536_S65536x512_0 (maskRow 20479#32 (wrapCol 20480#32 v)))
    (Host.gather gather_S20480x512_S65536x1_S65536x512_1_0_n_n_0_1_1512 x (wrapCol 20480#32 v))
    (broadcastInDim S65536x512 ![] bcast_S_S65536x512 (constant (F := Ideal) S_ .f32 0x7FC00000#32))

theorem takeRows512_apply (x : S20480x512.Idx → EReal) (v : IVec S65536 32)
    (hv : ∀ r : Fin 65536, 0 ≤ (v (ix1 r)).toInt ∧ (v (ix1 r)).toInt < 20480) (r : Fin 65536) (k : Fin 512) :
    takeRows512 x v (ix2 r k) = x (ix2 (Spec.row 20480 (by decide) (Spec.wrap 20480#32 (v (ix1 r)))) k) := by
  unfold takeRows512
  rw [select_apply]
  have hm : broadcastInDim S65536x512 ![0] bcast_S65536_S65536x512_0 (maskRow 20479#32 (wrapCol 20480#32 v)) (ix2 r k) = 1#1 := by
    refine (broadcastInDim_apply _ _ _ (ix2 r k) (ix1 r) (fun a => match a with | ⟨0, _⟩ => rfl)).trans ?_
    refine maskRow_one 20480 (by decide) (by decide) _ (fun a z => ?_) _
    rw [wrapCol_apply, LibGatherRows.wrap_of_range _ _ (hv a).1]
    exact hv a
  rw [hm, select_one]
  rw [LibGatherRows.gather_rows_apply (by decide : 0 < 20480) _ rfl rfl rfl rfl rfl rfl rfl x _ r k, wrapCol_apply]

set_option maxHeartbeats 1000000 in
/-- What the first take leaves in its result buffer, from any contents. -/
theorem after_take0 (X : Valuation τ sig (Elt Ideal)) :
    (StableHlo.after (hostOps1_1 (F := Ideal)) X (Proc.devRef .tc main_v19) : S65536x512.Idx → EReal)
      = takeRows512 (X (Proc.devRef .tc main_v15)) (X (Proc.devRef .tc main_v18)) := by
  after_results_simp
  simp only [StableHlo.TRef.ofBuf, StableHlo.TRef.toBuf, cast_eq]
  unfold takeRows512 maskRow wrapCol
  rfl

set_option maxHeartbeats 1000000 in
/-- What the second take leaves in its result buffer, from any contents. -/
theorem after_take1 (X : Valuation τ sig (Elt Ideal)) :
    (StableHlo.after (hostOps1_3 (F := Ideal)) X (Proc.devRef .tc main_v22) : S65536x512.Idx → EReal)
      = takeRows512 (X (Proc.devRef .tc main_v16)) (X (Proc.devRef .tc main_v21)) := by
  after_results_simp
  simp only [StableHlo.TRef.ofBuf, StableHlo.TRef.toBuf, cast_eq]
  unfold takeRows512 maskRow wrapCol
  rfl

/-- A buffer that no operation of a stretch writes keeps its contents over the stretch. -/
macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The pair table is as launched when the first region has run. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

/-- The first stretch leaves the first column of the pair table, flattened, in its index buffer. -/
theorem after_col0 (X : Valuation τ sig (Elt Ideal)) (r : Fin 65536) :
    (StableHlo.after (hostOps1 (F := Ideal)) X (Proc.devRef .tc main_v18) : S65536.Idx → BitVec 32) (ix1 r)
      = (X (Proc.devRef .tc main_arg2) : S65536x2.Idx → BitVec 32) (ix2 r (0 : Fin 2)) := by
  after_results
  show shapeCast S65536 (extractStridedSlice S65536x1 ![0, 0] (X (Proc.devRef .tc main_arg2)) slices_S65536x2_S65536x1_0_0)
    shapeCasts_S65536x1_S65536 (ix1 r) = _
  refine (shapeCast_apply _ _ (ix1 r) (ix2 r (0 : Fin 1)) ?_).trans ?_
  · rw [Shape.rowMajor_val_two, Shape.rowMajor_val_one]
    show r.val * 1 + 0 = r.val
    omega
  · exact extractStridedSlice_apply _ _ _ (ix2 r (0 : Fin 1)) (ix2 r (0 : Fin 2))
      (fun a => match a with | ⟨0, _⟩ => by show r.val = 0 + r.val; omega | ⟨1, _⟩ => rfl)

/-- The first stretch leaves the first 512 columns of the first region's output in the head table. -/
theorem after_lo (X : Valuation τ sig (Elt Ideal)) (a : Fin 20480) (k : Fin 512) :
    (StableHlo.after (hostOps1 (F := Ideal)) X (Proc.devRef .tc main_v15) : S20480x512.Idx → EReal) (ix2 a k)
      = (X (Proc.devRef .tc main_v14) : S20480x1024.Idx → EReal) (ix2 a (Spec.lo k)) := by
  after_results
  exact extractStridedSlice_apply _ _ _ (ix2 a k) (ix2 a (Spec.lo k))
    (fun b => match b with | ⟨0, _⟩ => by show a.val = 0 + a.val; omega | ⟨1, _⟩ => by show k.val = 0 + k.val; omega)

/-- The first stretch leaves the last 512 columns of the first region's output in the tail table. -/
theorem after_hi (X : Valuation τ sig (Elt Ideal)) (a : Fin 20480) (k : Fin 512) :
    (StableHlo.after (hostOps1 (F := Ideal)) X (Proc.devRef .tc main_v16) : S20480x512.Idx → EReal) (ix2 a k)
      = (X (Proc.devRef .tc main_v14) : S20480x1024.Idx → EReal) (ix2 a (Spec.hi k)) := by
  after_results
  exact extractStridedSlice_apply _ _ _ (ix2 a k) (ix2 a (Spec.hi k))
    (fun b => match b with | ⟨0, _⟩ => by show a.val = 0 + a.val; omega | ⟨1, _⟩ => by show 512 + k.val = 512 + k.val; rfl)

/-- The third stretch leaves the second column of the pair table, flattened, in its index buffer. -/
theorem after_col1 (X : Valuation τ sig (Elt Ideal)) (r : Fin 65536) :
    (StableHlo.after (hostOps1_2 (F := Ideal)) X (Proc.devRef .tc main_v21) : S65536.Idx → BitVec 32) (ix1 r)
      = (X (Proc.devRef .tc main_arg2) : S65536x2.Idx → BitVec 32) (ix2 r (1 : Fin 2)) := by
  after_results
  show shapeCast S65536 (extractStridedSlice S65536x1 ![0, 1] (X (Proc.devRef .tc main_arg2)) slices_S65536x2_S65536x1_0_1)
    shapeCasts_S65536x1_S65536 (ix1 r) = _
  refine (shapeCast_apply _ _ (ix1 r) (ix2 r (0 : Fin 1)) ?_).trans ?_
  · rw [Shape.rowMajor_val_two, Shape.rowMajor_val_one]
    show r.val * 1 + 0 = r.val
    omega
  · exact extractStridedSlice_apply _ _ _ (ix2 r (0 : Fin 1)) (ix2 r (1 : Fin 2))
      (fun a => match a with | ⟨0, _⟩ => by show r.val = 0 + r.val; omega | ⟨1, _⟩ => rfl)

/-- Region 1, window 0: row r is the head row of pair r, first 512 columns of the first region's output. -/
theorem v8_head (c : Dev nD)
    (hok : Spec.IdxOk (c2 (m ((c : Thread nD τ).loc main_arg2))) (c1 (m ((c : Thread nD τ).loc main_arg3))))
    (r : Fin 65536) (k : Fin 512) :
    c2 (V8 m ρ c (Pipeline.arrRef spec1 0)) r k
      = (dat0 (V1 m ρ) c).arrAt 3 cfg0.N (ix2 (Spec.headRow (c2 (m ((c : Thread nD τ).loc main_arg2))) r) (Spec.lo k)) := by
  have h18 : ∀ a : Fin 65536, (W3 m ρ c (Proc.devRef .tc main_v18) : S65536.Idx → BitVec 32) (ix1 a)
      = c2 (m ((c : Thread nD τ).loc main_arg2)) a 0 := fun a =>
    (after_col0 (W2 m ρ c) a).trans (congrFun (W2_arg2 m ρ c) (ix2 a (0 : Fin 2)))
  have h15 : ∀ (a : Fin 20480) (k : Fin 512), (W3 m ρ c (Proc.devRef .tc main_v15) : S20480x512.Idx → EReal) (ix2 a k)
      = (dat0 (V1 m ρ) c).arrAt 3 cfg0.N (ix2 a (Spec.lo k)) := fun a k =>
    (after_lo (W2 m ρ c) a k).trans (congrFun (W2_arr m ρ c 3) (ix2 a (Spec.lo k)))
  have e : W8 m ρ c (Proc.devRef .tc main_v19) = W4 m ρ c (Proc.devRef .tc main_v19) :=
    calc W8 m ρ c (Proc.devRef .tc main_v19)
      _ = W7 m ρ c (Proc.devRef .tc main_v19) := by unwritten hostOps1_5
      _ = W6 m ρ c (Proc.devRef .tc main_v19) := by unwritten hostOps1_4
      _ = W5 m ρ c (Proc.devRef .tc main_v19) := by unwritten hostOps1_3
      _ = W4 m ρ c (Proc.devRef .tc main_v19) := by unwritten hostOps1_2
  show (W8 m ρ c (Proc.devRef .tc main_v19) : S65536x512.Idx → EReal) (ix2 r k) = _
  rw [e]
  show (StableHlo.after (hostOps1_1 (F := Ideal)) (W3 m ρ c) (Proc.devRef .tc main_v19) : S65536x512.Idx → EReal) (ix2 r k) = _
  rw [after_take0, takeRows512_apply _ _ (fun a => by rw [h18]; exact hok.1 a 0) r k, h15, h18]
  rfl
/-- Region 1, window 1: row r is the tail row of pair r, last 512 columns of the first region's output. -/
theorem v8_tail (c : Dev nD)
    (hok : Spec.IdxOk (c2 (m ((c : Thread nD τ).loc main_arg2))) (c1 (m ((c : Thread nD τ).loc main_arg3))))
    (r : Fin 65536) (k : Fin 512) :
    c2 (V8 m ρ c (Pipeline.arrRef spec1 1)) r k
      = (dat0 (V1 m ρ) c).arrAt 3 cfg0.N (ix2 (Spec.tailRow (c2 (m ((c : Thread nD τ).loc main_arg2))) r) (Spec.hi k)) := by
  have ha : W4 m ρ c (Proc.devRef .tc main_arg2) = m ((c : Thread nD τ).loc main_arg2) :=
    calc W4 m ρ c (Proc.devRef .tc main_arg2)
      _ = W3 m ρ c (Proc.devRef .tc main_arg2) := by unwritten hostOps1_1
      _ = W2 m ρ c (Proc.devRef .tc main_arg2) := by unwritten hostOps1
      _ = m ((c : Thread nD τ).loc main_arg2) := W2_arg2 m ρ c
  have h21 : ∀ a : Fin 65536, (W5 m ρ c (Proc.devRef .tc main_v21) : S65536.Idx → BitVec 32) (ix1 a)
      = c2 (m ((c : Thread nD τ).loc main_arg2)) a 1 := fun a =>
    (after_col1 (W4 m ρ c) a).trans (congrFun ha (ix2 a (1 : Fin 2)))
  have hb : W5 m ρ c (Proc.devRef .tc main_v16) = W3 m ρ c (Proc.devRef .tc main_v16) :=
    calc W5 m ρ c (Proc.devRef .tc main_v16)
      _ = W4 m ρ c (Proc.devRef .tc main_v16) := by unwritten hostOps1_2
      _ = W3 m ρ c (Proc.devRef .tc main_v16) := by unwritten hostOps1_1
  have h16 : ∀ (a : Fin 20480) (k : Fin 512), (W5 m ρ c (Proc.devRef .tc main_v16) : S20480x512.Idx → EReal) (ix2 a k)
      = (dat0 (V1 m ρ) c).arrAt 3 cfg0.N (ix2 a (Spec.hi k)) := fun a k =>
    (congrFun hb (ix2 a k)).trans ((after_hi (W2 m ρ c) a k).trans (congrFun (W2_arr m ρ c 3) (ix2 a (Spec.hi k))))
  have e : W8 m ρ c (Proc.devRef .tc main_v22) = W6 m ρ c (Proc.devRef .tc main_v22) :=
    calc W8 m ρ c (Proc.devRef .tc main_v22)
      _ = W7 m ρ c (Proc.devRef .tc main_v22) := by unwritten hostOps1_5
      _ = W6 m ρ c (Proc.devRef .tc main_v22) := by unwritten hostOps1_4
  show (W8 m ρ c (Proc.devRef .tc main_v22) : S65536x512.Idx → EReal) (ix2 r k) = _
  rw [e]
  show (StableHlo.after (hostOps1_3 (F := Ideal)) (W5 m ρ c) (Proc.devRef .tc main_v22) : S65536x512.Idx → EReal) (ix2 r k) = _
  rw [after_take1, takeRows512_apply _ _ (fun a => by rw [h21]; exact hok.1 a 1) r k, h16, h21]
  rfl
/-- Region 1, window 3: row r is the label table's row at pair r's label word. -/
theorem v8_fb (c : Dev nD)
    (hok : Spec.IdxOk (c2 (m ((c : Thread nD τ).loc main_arg2))) (c1 (m ((c : Thread nD τ).loc main_arg3))))
    (r : Fin 65536) (j : Fin 51) :
    c2 (V8 m ρ c (Pipeline.arrRef spec1 3)) r j
      = c2 (m ((c : Thread nD τ).loc main_arg12))
          (Spec.lblRow (c2 (m ((c : Thread nD τ).loc main_arg2))) (c1 (m ((c : Thread nD τ).loc main_arg3))) r) j :=
  HostGFb.v8_fb m ρ c hok r j

end Cert.KernelIdeal.HostG

end
-- ==== Proof.KVal.lean ====
/-
  The kernel's result array after the run, element by element: the second region's row formula over the windows the
  host operations prepared, the gathered windows read out of the first region's affine map — `Cert.Spec.kout` of the
  arguments, when every pair word is a row number and every label word a label.
-/
import proofs.«405842_j56667798503473_3_alg».proof.Proof.Gen.KernelIdeal.Frame
import proofs.«405842_j56667798503473_3_alg».proof.Proof.Spec
import proofs.«405842_j56667798503473_3_alg».proof.Proof.EdgeVal
import proofs.«405842_j56667798503473_3_alg».proof.Proof.RelVal
import proofs.«405842_j56667798503473_3_alg».proof.Proof.HostW
import proofs.«405842_j56667798503473_3_alg».proof.Proof.HostG

noncomputable section

open scoped BigOperators

namespace Cert.KernelIdeal.KVal

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (m : (ℓ : Loc nD τ sig) → Buf (Elt Ideal) ℓ) (ρ : Dev nD → PrngReg)

/-- The affine map depends on its three arrays only through their values. -/
theorem edge_congr {x x' : Fin 20480 → Fin 512 → EReal} {we we' : Fin 512 → Fin 1024 → EReal} {be be' : Fin 1024 → EReal}
    (i : Fin 20480) (j : Fin 1024) (ex : x = x') (ew : we = we') (eb : be = be') :
    Spec.edge x we be i j = Spec.edge x' we' be' i j := by
  subst ex ew eb; rfl

/-- The kernel's row formula depends on its twelve rows and arrays only through their values. -/
theorem kerRow_congr {h h' t t' : Fin 512 → EReal} {u u' : Fin 4096 → EReal} {w1t w1t' w1b w1b' : Fin 512 → Fin 4096 → EReal}
    {b1 b1' : Fin 4096 → EReal} {w2 w2' : Fin 4096 → Fin 51 → EReal} {b2 b2' : Fin 51 → EReal}
    {w3t w3t' w3b w3b' : Fin 512 → Fin 51 → EReal} {b3 b3' : Fin 51 → EReal} {fb fb' : Fin 51 → EReal} (j : Fin 51)
    (e0 : h = h') (e1 : t = t') (e2 : u = u') (e4 : w1t = w1t') (e5 : w1b = w1b') (e6 : b1 = b1') (e7 : w2 = w2')
    (e8 : b2 = b2') (e9 : w3t = w3t') (e10 : w3b = w3b') (e11 : b3 = b3') (e3 : fb = fb') :
    Spec.kerRow h t u w1t w1b b1 w2 b2 w3t w3b b3 fb j = Spec.kerRow h' t' u' w1t' w1b' b1' w2' b2' w3t' w3b' b3' fb' j := by
  subst e0 e1 e2 e3 e4 e5 e6 e7 e8 e9 e10 e11; rfl

/-- The first region's output array, at (i, j), in terms of the launch memory: the affine map of the edge contexts, the
    embedding weight and the embedding bias. -/
theorem edge_launch (c : Dev nD) (i : Fin 20480) (j : Fin 1024) :
    (dat0 (V1 m ρ) c).arrAt 3 cfg0.N (ix2 i j)
      = Spec.edge (c2 (m ((c : Thread nD τ).loc main_arg0))) (c2 (m ((c : Thread nD τ).loc main_arg4))) (c1 (m ((c : Thread nD τ).loc main_arg5))) i j :=
  (EdgeVal.edge_apply (V1 m ρ) c i j).trans
    (edge_congr i j (funext fun a => funext fun k => HostW.v1_x m ρ c a k)
      (funext fun k => funext fun b => HostW.v1_w m ρ c k b) (funext fun b => HostW.v1_b m ρ c b))

/-- The result buffer at the last boundary, at (r, j). -/
theorem result_apply (c : Dev nD)
    (hok : Spec.IdxOk (c2 (m ((c : Thread nD τ).loc main_arg2))) (c1 (m ((c : Thread nD τ).loc main_arg3))))
    (r : Fin 65536) (j : Fin 51) :
    c2 (W9 m ρ c (Proc.devRef .tc main_v45)) r j
      = Spec.kout (c2 (m ((c : Thread nD τ).loc main_arg2))) (c1 (m ((c : Thread nD τ).loc main_arg3)))
          (c2 (m ((c : Thread nD τ).loc main_arg0))) (c2 (m ((c : Thread nD τ).loc main_arg4))) (c1 (m ((c : Thread nD τ).loc main_arg5)))
          (c2 (m ((c : Thread nD τ).loc main_arg1))) (c2 (m ((c : Thread nD τ).loc main_arg6))) (c1 (m ((c : Thread nD τ).loc main_arg7)))
          (c2 (m ((c : Thread nD τ).loc main_arg8))) (c1 (m ((c : Thread nD τ).loc main_arg9)))
          (c2 (m ((c : Thread nD τ).loc main_arg10))) (c1 (m ((c : Thread nD τ).loc main_arg11)))
          (c2 (m ((c : Thread nD τ).loc main_arg12))) r j := by
  have hW : W9 m ρ c (Proc.devRef .tc main_v45) = (dat1 (V8 m ρ) c).arrAt 12 cfg1.N := W9_arr m ρ c 12
  refine (congrFun hW (ix2 r j)).trans ((RelVal.rel_apply (V8 m ρ) c r j).trans ?_)
  unfold Spec.kout
  exact kerRow_congr j
    (funext fun k => (HostG.v8_head m ρ c hok r k).trans (edge_launch m ρ c _ _))
    (funext fun k => (HostG.v8_tail m ρ c hok r k).trans (edge_launch m ρ c _ _))
    (funext fun a => HostW.v8_union m ρ c r a)
    (funext fun k => funext fun a => HostW.v8_w1t m ρ c k a)
    (funext fun k => funext fun a => HostW.v8_w1b m ρ c k a)
    (funext fun a => HostW.v8_b1 m ρ c a)
    (funext fun a => funext fun q => HostW.v8_w2 m ρ c a q)
    (funext fun q => HostW.v8_b2 m ρ c q)
    (funext fun k => funext fun q => HostW.v8_w3t m ρ c k q)
    (funext fun k => funext fun q => HostW.v8_w3b m ρ c k q)
    (funext fun q => HostW.v8_b3 m ρ c q)
    (funext fun a => HostG.v8_fb m ρ c hok r a)

end Cert.KernelIdeal.KVal

end
-- ==== Proof.RefVal.lean ====
/-
  The reference's result, read at one index: it is the row formula `Cert.Spec.out` of the argument arrays.
  The row gathers read the table at the wrapped and clamped pair words; the concatenation puts the head row's
  first 512 columns before the tail row's last 512; the three contractions and the bias additions are read in order.
-/
import proofs.«405842_j56667798503473_3_alg».proof.Proof.Gen.ReferenceIdeal.Read
import proofs.«405842_j56667798503473_3_alg».proof.Proof.Spec
import proofs.«405842_j56667798503473_3_alg».proof.Proof.LibGatherRows

noncomputable section

open scoped BigOperators

namespace Cert.ReferenceIdeal.RefVal

open Cert.ReferenceIdeal Cert.ReferenceIdeal.Gen Cert.ReferenceIdeal.Read Idealize.ShloMosaic Idealize.ShloMosaic.ValueIdx Cert.Spec

/-- The left index of the first contraction at (i, j), term k, is (i, k). -/
theorem lidx0_eq (i : Fin 20480) (j : Fin 1024) (k : Fin 512) : lidx_main_v0 (ix2 i j) k = ix2 i k :=
  funext fun a => Fin.ext (by match a with | ⟨0, _⟩ => rfl | ⟨1, _⟩ => rfl)

/-- The right index of the first contraction at (i, j), term k, is (k, j). -/
theorem ridx0_eq (i : Fin 20480) (j : Fin 1024) (k : Fin 512) : ridx_main_v0 (ix2 i j) k = ix2 k j :=
  funext fun a => Fin.ext (by match a with | ⟨0, _⟩ => rfl | ⟨1, _⟩ => rfl)

/-- The bias of the first affine map, broadcast twice, is read at its column. -/
theorem idx12_eq (i : Fin 20480) (j : Fin 1024) : idx_main_v1 (idx_main_v2 (ix2 i j)) = ix1 j :=
  funext fun a => Fin.ext (by match a with | ⟨0, _⟩ => rfl)

/-- E at (i, j): the affine map of the arguments. -/
theorem edge_apply (x0 : (⟨S20480x512, .f32⟩ : BufTy).Contents (Elt Ideal)) (x4 : (⟨S512x1024, .f32⟩ : BufTy).Contents (Elt Ideal))
    (x5 : (⟨S1024, .f32⟩ : BufTy).Contents (Elt Ideal)) (i : Fin 20480) (j : Fin 1024) :
    val_main_v3 (F := Ideal) x0 x4 x5 (ix2 i j) = Spec.edge (c2 x0) (c2 x4) (c1 x5) i j := by
  rw [val_main_v3_apply, val_main_v0_apply, val_main_v2_apply, val_main_v1_apply, idx12_eq]
  simp only [lidx0_eq, ridx0_eq, Ideal.addf_def]
  rfl

/-- The head slice of the reshaped E at (i, k) is E at (i, k). -/
theorem idx456_eq (i : Fin 20480) (k : Fin 512) : idx_main_v4 (idx_main_v5 (idx_main_v6 (ix2 i k))) = ix2 i (lo k) :=
  funext fun a => Fin.ext (by
    have hi : i.val < 20480 := i.isLt
    have hk : k.val < 512 := k.isLt
    match a with
    | ⟨0, _⟩ => show (((i.val * 512 + k.val) / 512 * 2 + 0) * 512 + (i.val * 512 + k.val) % 512) / 1024 = i.val; omega
    | ⟨1, _⟩ => show (((i.val * 512 + k.val) / 512 * 2 + 0) * 512 + (i.val * 512 + k.val) % 512) % 1024 = k.val; omega)

/-- The tail slice of the reshaped E at (i, k) is E at (i, 512 + k). -/
theorem idx478_eq (i : Fin 20480) (k : Fin 512) : idx_main_v4 (idx_main_v7 (idx_main_v8 (ix2 i k))) = ix2 i (hi k) :=
  funext fun a => Fin.ext (by
    have hi : i.val < 20480 := i.isLt
    have hk : k.val < 512 := k.isLt
    match a with
    | ⟨0, _⟩ => show (((i.val * 512 + k.val) / 512 * 2 + (1 + 0)) * 512 + (i.val * 512 + k.val) % 512) / 1024 = i.val; omega
    | ⟨1, _⟩ => show (((i.val * 512 + k.val) / 512 * 2 + (1 + 0)) * 512 + (i.val * 512 + k.val) % 512) % 1024 = 512 + k.val; omega)

/-- The head table at (i, k) is E at (i, k). -/
theorem head_apply (x0 : (⟨S20480x512, .f32⟩ : BufTy).Contents (Elt Ideal)) (x4 : (⟨S512x1024, .f32⟩ : BufTy).Contents (Elt Ideal))
    (x5 : (⟨S1024, .f32⟩ : BufTy).Contents (Elt Ideal)) (i : Fin 20480) (k : Fin 512) :
    val_main_v6 (F := Ideal) x0 x4 x5 (ix2 i k) = Spec.edge (c2 x0) (c2 x4) (c1 x5) i (lo k) := by
  rw [val_main_v6_apply, val_main_v5_apply, val_main_v4_apply, idx456_eq, edge_apply]

/-- The tail table at (i, k) is E at (i, 512 + k). -/
theorem tail_apply (x0 : (⟨S20480x512, .f32⟩ : BufTy).Contents (Elt Ideal)) (x4 : (⟨S512x1024, .f32⟩ : BufTy).Contents (Elt Ideal))
    (x5 : (⟨S1024, .f32⟩ : BufTy).Contents (Elt Ideal)) (i : Fin 20480) (k : Fin 512) :
    val_main_v8 (F := Ideal) x0 x4 x5 (ix2 i k) = Spec.edge (c2 x0) (c2 x4) (c1 x5) i (hi k) := by
  rw [val_main_v8_apply, val_main_v7_apply, val_main_v4_apply, idx478_eq, edge_apply]

/-- The first pair column, sliced, flattened and broadcast back to a column, is read at (r, 0). -/
theorem idxp0_eq (r : Fin 65536) : idx_main_v9 (idx_main_v10 (idx_main_v16 (ix2 r (0 : Fin 1)))) = ix2 r (0 : Fin 2) :=
  funext fun a => Fin.ext (by match a with | ⟨0, _⟩ => exact Nat.div_one _ | ⟨1, _⟩ => rfl)

/-- The second pair column, sliced, flattened and broadcast back to a column, is read at (r, 1). -/
theorem idxp1_eq (r : Fin 65536) : idx_main_v18 (idx_main_v19 (idx_main_v25 (ix2 r (0 : Fin 1)))) = ix2 r (1 : Fin 2) :=
  funext fun a => Fin.ext (by match a with | ⟨0, _⟩ => exact Nat.div_one _ | ⟨1, _⟩ => rfl)

/-- The head start column at r is the wrapped first pair word. -/
theorem headWord_apply (x2 : (⟨S65536x2, .i32⟩ : BufTy).Contents (Elt Ideal)) (r : Fin 65536) :
    val_main_v16 (F := Ideal) x2 (ix2 r (0 : Fin 1)) = Spec.wrap 20480#32 (c2 x2 r 0) := by
  rw [val_main_v16_apply, val_main_v15_apply, val_main_v12_apply, val_main_v14_apply, val_main_v10_apply, val_main_v9_apply,
    val_main_v11_apply, val_main_c_apply, val_main_v13_apply, val_main_c_0_apply, idxp0_eq]
  exact LibGatherRows.select_slt_wrap _ _

/-- The tail start column at r is the wrapped second pair word. -/
theorem tailWord_apply (x2 : (⟨S65536x2, .i32⟩ : BufTy).Contents (Elt Ideal)) (r : Fin 65536) :
    val_main_v25 (F := Ideal) x2 (ix2 r (0 : Fin 1)) = Spec.wrap 20480#32 (c2 x2 r 1) := by
  rw [val_main_v25_apply, val_main_v24_apply, val_main_v21_apply, val_main_v23_apply, val_main_v19_apply, val_main_v18_apply,
    val_main_v20_apply, val_main_c_1_apply, val_main_v22_apply, val_main_c_2_apply, idxp1_eq]
  exact LibGatherRows.select_slt_wrap _ _

/-- The gathered head rows at (r, k): E at the head row of pair r, column k. -/
theorem headGather_apply (x0 : (⟨S20480x512, .f32⟩ : BufTy).Contents (Elt Ideal)) (x2 : (⟨S65536x2, .i32⟩ : BufTy).Contents (Elt Ideal))
    (x4 : (⟨S512x1024, .f32⟩ : BufTy).Contents (Elt Ideal)) (x5 : (⟨S1024, .f32⟩ : BufTy).Contents (Elt Ideal))
    (r : Fin 65536) (k : Fin 512) :
    val_main_v17 (F := Ideal) x0 x2 x4 x5 (ix2 r k) = Spec.edge (c2 x0) (c2 x4) (c1 x5) (headRow (c2 x2) r) (lo k) := by
  unfold val_main_v17
  rw [LibGatherRows.gather_rows_apply (by decide) _ rfl rfl rfl rfl rfl rfl rfl, headWord_apply, head_apply]
  rfl

/-- The gathered tail rows at (r, k): E at the tail row of pair r, column 512 + k. -/
theorem tailGather_apply (x0 : (⟨S20480x512, .f32⟩ : BufTy).Contents (Elt Ideal)) (x2 : (⟨S65536x2, .i32⟩ : BufTy).Contents (Elt Ideal))
    (x4 : (⟨S512x1024, .f32⟩ : BufTy).Contents (Elt Ideal)) (x5 : (⟨S1024, .f32⟩ : BufTy).Contents (Elt Ideal))
    (r : Fin 65536) (k : Fin 512) :
    val_main_v26 (F := Ideal) x0 x2 x4 x5 (ix2 r k) = Spec.edge (c2 x0) (c2 x4) (c1 x5) (tailRow (c2 x2) r) (hi k) := by
  unfold val_main_v26
  rw [LibGatherRows.gather_rows_apply (by decide) _ rfl rfl rfl rfl rfl rfl rfl, tailWord_apply, tail_apply]
  rfl

/-- The concatenated row at (r, k) is the product row of pair r. -/
theorem prod_apply (x0 : (⟨S20480x512, .f32⟩ : BufTy).Contents (Elt Ideal)) (x2 : (⟨S65536x2, .i32⟩ : BufTy).Contents (Elt Ideal))
    (x4 : (⟨S512x1024, .f32⟩ : BufTy).Contents (Elt Ideal)) (x5 : (⟨S1024, .f32⟩ : BufTy).Contents (Elt Ideal))
    (r : Fin 65536) (k : Fin 1024) :
    val_main_v27 (F := Ideal) x0 x2 x4 x5 (ix2 r k) = Spec.prodRow (c2 x2) (c2 x0) (c2 x4) (c1 x5) r k := by
  unfold val_main_v27 Spec.prodRow
  by_cases hk : k.val < 512
  · rw [if_pos hk, concatenate_pair_apply_left (t := S65536x1024) (s₁ := S65536x512) (s₂ := S65536x512) (1 : Fin 2) _ _ _ (ix2 r k) rfl (ix2 r (⟨k.val, hk⟩ : Fin 512))
      (fun b => by match b with | ⟨0, _⟩ => rfl | ⟨1, _⟩ => rfl), headGather_apply]
    rfl
  · rw [if_neg hk, concatenate_pair_apply_right (t := S65536x1024) (s₁ := S65536x512) (s₂ := S65536x512) (1 : Fin 2) _ _ _ (ix2 r k) rfl rfl
      (ix2 r (⟨k.val - 512, by have := k.isLt; omega⟩ : Fin 512))
      (fun b hb => by match b with | ⟨0, _⟩ => rfl | ⟨1, _⟩ => exact absurd rfl hb)
      (by show k.val - 512 + 512 = k.val; omega), tailGather_apply]
    congr 1
    exact Fin.ext (by show 512 + (k.val - 512) = k.val; omega)

/-- The first pair column of the label computation is read at (r, 0). -/
theorem idxq0_eq (r : Fin 65536) : idx_main_v42 (idx_main_v43 (idx_main_v49 (ix2 r (0 : Fin 1)))) = ix2 r (0 : Fin 2) :=
  funext fun a => Fin.ext (by match a with | ⟨0, _⟩ => exact Nat.div_one _ | ⟨1, _⟩ => rfl)

/-- The second pair column of the label computation is read at (r, 1). -/
theorem idxq1_eq (r : Fin 65536) : idx_main_v53 (idx_main_v54 (idx_main_v60 (ix2 r (0 : Fin 1)))) = ix2 r (1 : Fin 2) :=
  funext fun a => Fin.ext (by match a with | ⟨0, _⟩ => exact Nat.div_one _ | ⟨1, _⟩ => rfl)

/-- The head label's start column at r is the wrapped first pair word. -/
theorem headLblWord_apply (x2 : (⟨S65536x2, .i32⟩ : BufTy).Contents (Elt Ideal)) (r : Fin 65536) :
    val_main_v49 (F := Ideal) x2 (ix2 r (0 : Fin 1)) = Spec.wrap 20480#32 (c2 x2 r 0) := by
  rw [val_main_v49_apply, val_main_v48_apply, val_main_v45_apply, val_main_v47_apply, val_main_v43_apply, val_main_v42_apply,
    val_main_v44_apply, val_main_c_3_apply, val_main_v46_apply, val_main_c_4_apply, idxq0_eq]
  exact LibGatherRows.select_slt_wrap _ _

/-- The tail label's start column at r is the wrapped second pair word. -/
theorem tailLblWord_apply (x2 : (⟨S65536x2, .i32⟩ : BufTy).Contents (Elt Ideal)) (r : Fin 65536) :
    val_main_v60 (F := Ideal) x2 (ix2 r (0 : Fin 1)) = Spec.wrap 20480#32 (c2 x2 r 1) := by
  rw [val_main_v60_apply, val_main_v59_apply, val_main_v56_apply, val_main_v58_apply, val_main_v54_apply, val_main_v53_apply,
    val_main_v55_apply, val_main_c_6_apply, val_main_v57_apply, val_main_c_7_apply, idxq1_eq]
  exact LibGatherRows.select_slt_wrap _ _

/-- The gathered head label at r. -/
theorem headLbl_apply (x2 : (⟨S65536x2, .i32⟩ : BufTy).Contents (Elt Ideal)) (x3 : (⟨S20480, .i32⟩ : BufTy).Contents (Elt Ideal))
    (r : Fin 65536) :
    val_main_v50 (F := Ideal) x2 x3 (ix1 r) = c1 x3 (headRow (c2 x2) r) := by
  unfold val_main_v50
  rw [LibGatherRows.gather_elems_apply (by decide) _ rfl rfl rfl rfl rfl rfl rfl, headLblWord_apply]
  rfl

/-- The gathered tail label at r. -/
theorem tailLbl_apply (x2 : (⟨S65536x2, .i32⟩ : BufTy).Contents (Elt Ideal)) (x3 : (⟨S20480, .i32⟩ : BufTy).Contents (Elt Ideal))
    (r : Fin 65536) :
    val_main_v61 (F := Ideal) x2 x3 (ix1 r) = c1 x3 (tailRow (c2 x2) r) := by
  unfold val_main_v61
  rw [LibGatherRows.gather_elems_apply (by decide) _ rfl rfl rfl rfl rfl rfl rfl, tailLblWord_apply]
  rfl

/-- The label start column, broadcast from the flat label words, is read at r. -/
theorem idx68_eq (r : Fin 65536) : idx_main_v68 (ix2 r (0 : Fin 1)) = ix1 r :=
  funext fun a => Fin.ext (by match a with | ⟨0, _⟩ => rfl)

/-- The label start column at r is the wrapped label word of pair r. -/
theorem lblWord_apply (x2 : (⟨S65536x2, .i32⟩ : BufTy).Contents (Elt Ideal)) (x3 : (⟨S20480, .i32⟩ : BufTy).Contents (Elt Ideal))
    (r : Fin 65536) :
    val_main_v68 (F := Ideal) x2 x3 (ix2 r (0 : Fin 1)) = Spec.wrap 22801#32 (Spec.lbl (c2 x2) (c1 x3) r) := by
  rw [val_main_v68_apply, idx68_eq, val_main_v67_apply, val_main_v64_apply, val_main_v66_apply, val_main_v62_apply, val_main_v52_apply,
    val_main_v63_apply, val_main_c_8_apply, val_main_v65_apply, val_main_c_9_apply, val_main_v51_apply, val_main_c_5_apply,
    headLbl_apply, tailLbl_apply]
  exact LibGatherRows.select_slt_wrap _ _

/-- The gathered label row at (r, j). -/
theorem lblRow_apply (x2 : (⟨S65536x2, .i32⟩ : BufTy).Contents (Elt Ideal)) (x3 : (⟨S20480, .i32⟩ : BufTy).Contents (Elt Ideal))
    (x12 : (⟨S22801x51, .f32⟩ : BufTy).Contents (Elt Ideal)) (r : Fin 65536) (j : Fin 51) :
    val_main_v69 (F := Ideal) x2 x3 x12 (ix2 r j) = c2 x12 (lblRow (c2 x2) (c1 x3) r) j := by
  unfold val_main_v69
  rw [LibGatherRows.gather_rows_apply (by decide) _ rfl rfl rfl rfl rfl rfl rfl, lblWord_apply]
  rfl

/-- The left index of the gate contraction at (r, p), term k, is (r, k). -/
theorem lidx28_eq (r : Fin 65536) (p : Fin 4096) (k : Fin 1024) : lidx_main_v28 (ix2 r p) k = ix2 r k :=
  funext fun a => Fin.ext (by match a with | ⟨0, _⟩ => rfl | ⟨1, _⟩ => rfl)

/-- The right index of the gate contraction at (r, p), term k, is (k, p). -/
theorem ridx28_eq (r : Fin 65536) (p : Fin 4096) (k : Fin 1024) : ridx_main_v28 (ix2 r p) k = ix2 k p :=
  funext fun a => Fin.ext (by match a with | ⟨0, _⟩ => rfl | ⟨1, _⟩ => rfl)

/-- The gate bias, broadcast twice, is read at its column. -/
theorem idx2930_eq (r : Fin 65536) (p : Fin 4096) : idx_main_v29 (idx_main_v30 (ix2 r p)) = ix1 p :=
  funext fun a => Fin.ext (by match a with | ⟨0, _⟩ => rfl)

/-- The left index of the pooled contraction at (r, j), term p, is (r, p). -/
theorem lidx33_eq (r : Fin 65536) (j : Fin 51) (p : Fin 4096) : lidx_main_v33 (ix2 r j) p = ix2 r p :=
  funext fun a => Fin.ext (by match a with | ⟨0, _⟩ => rfl | ⟨1, _⟩ => rfl)

/-- The right index of the pooled contraction at (r, j), term p, is (p, j). -/
theorem ridx33_eq (r : Fin 65536) (j : Fin 51) (p : Fin 4096) : ridx_main_v33 (ix2 r j) p = ix2 p j :=
  funext fun a => Fin.ext (by match a with | ⟨0, _⟩ => rfl | ⟨1, _⟩ => rfl)

/-- The pooled bias, broadcast twice, is read at its column. -/
theorem idx3435_eq (r : Fin 65536) (j : Fin 51) : idx_main_v34 (idx_main_v35 (ix2 r j)) = ix1 j :=
  funext fun a => Fin.ext (by match a with | ⟨0, _⟩ => rfl)

/-- The left index of the context contraction at (r, j), term k, is (r, k). -/
theorem lidx37_eq (r : Fin 65536) (j : Fin 51) (k : Fin 1024) : lidx_main_v37 (ix2 r j) k = ix2 r k :=
  funext fun a => Fin.ext (by match a with | ⟨0, _⟩ => rfl | ⟨1, _⟩ => rfl)

/-- The right index of the context contraction at (r, j), term k, is (k, j). -/
theorem ridx37_eq (r : Fin 65536) (j : Fin 51) (k : Fin 1024) : ridx_main_v37 (ix2 r j) k = ix2 k j :=
  funext fun a => Fin.ext (by match a with | ⟨0, _⟩ => rfl | ⟨1, _⟩ => rfl)

/-- The context bias, broadcast twice, is read at its column. -/
theorem idx3940_eq (r : Fin 65536) (j : Fin 51) : idx_main_v39 (idx_main_v40 (ix2 r j)) = ix1 j :=
  funext fun a => Fin.ext (by match a with | ⟨0, _⟩ => rfl)

/-- The gated row at (r, p): (Σ_k P[k]·w1[k,p] + b1[p]) · u[r,p]. -/
theorem gate_apply (x0 : (⟨S20480x512, .f32⟩ : BufTy).Contents (Elt Ideal)) (x1 : (⟨S65536x4096, .f32⟩ : BufTy).Contents (Elt Ideal))
    (x2 : (⟨S65536x2, .i32⟩ : BufTy).Contents (Elt Ideal)) (x4 : (⟨S512x1024, .f32⟩ : BufTy).Contents (Elt Ideal))
    (x5 : (⟨S1024, .f32⟩ : BufTy).Contents (Elt Ideal)) (x6 : (⟨S1024x4096, .f32⟩ : BufTy).Contents (Elt Ideal))
    (x7 : (⟨S4096, .f32⟩ : BufTy).Contents (Elt Ideal)) (r : Fin 65536) (p : Fin 4096) :
    val_main_v32 (F := Ideal) x0 x1 x2 x4 x5 x6 x7 (ix2 r p)
      = ((∑ k : Fin 1024, Spec.prodRow (c2 x2) (c2 x0) (c2 x4) (c1 x5) r k * c2 x6 k p) + c1 x7 p) * c2 x1 r p := by
  rw [val_main_v32_apply, val_main_v31_apply, val_main_v28_apply, val_main_v30_apply, val_main_v29_apply, idx2930_eq]
  simp only [lidx28_eq, ridx28_eq, prod_apply, Ideal.addf_def, Ideal.mulf_def]

/-- The reference's last stage at (r, j) is the row formula of the arguments. -/
theorem result_apply (x0 : (⟨S20480x512, .f32⟩ : BufTy).Contents (Elt Ideal)) (x1 : (⟨S65536x4096, .f32⟩ : BufTy).Contents (Elt Ideal))
    (x2 : (⟨S65536x2, .i32⟩ : BufTy).Contents (Elt Ideal)) (x3 : (⟨S20480, .i32⟩ : BufTy).Contents (Elt Ideal))
    (x4 : (⟨S512x1024, .f32⟩ : BufTy).Contents (Elt Ideal)) (x5 : (⟨S1024, .f32⟩ : BufTy).Contents (Elt Ideal))
    (x6 : (⟨S1024x4096, .f32⟩ : BufTy).Contents (Elt Ideal)) (x7 : (⟨S4096, .f32⟩ : BufTy).Contents (Elt Ideal))
    (x8 : (⟨S4096x51, .f32⟩ : BufTy).Contents (Elt Ideal)) (x9 : (⟨S51, .f32⟩ : BufTy).Contents (Elt Ideal))
    (x10 : (⟨S1024x51, .f32⟩ : BufTy).Contents (Elt Ideal)) (x11 : (⟨S51, .f32⟩ : BufTy).Contents (Elt Ideal))
    (x12 : (⟨S22801x51, .f32⟩ : BufTy).Contents (Elt Ideal)) (r : Fin 65536) (j : Fin 51) :
    val_main_v70 (F := Ideal) x0 x1 x2 x3 x4 x5 x6 x7 x8 x9 x10 x11 x12 (ix2 r j)
      = Spec.out (c2 x2) (c1 x3) (c2 x0) (c2 x4) (c1 x5) (c2 x1) (c2 x6) (c1 x7) (c2 x8) (c1 x9) (c2 x10) (c1 x11) (c2 x12) r j := by
  rw [val_main_v70_apply, val_main_v41_apply, val_main_v38_apply, val_main_v36_apply, val_main_v33_apply, val_main_v35_apply,
    val_main_v34_apply, val_main_v37_apply, val_main_v40_apply, val_main_v39_apply, lblRow_apply, idx3435_eq, idx3940_eq]
  simp only [lidx33_eq, ridx33_eq, lidx37_eq, ridx37_eq, gate_apply, prod_apply, Ideal.addf_def]
  rfl

end Cert.ReferenceIdeal.RefVal

end
-- ==== Proof.lean ====
/-
  The certificate.  Both programs compute, for every pair r and class j, the row formula of `Cert.Spec`: the affine
  edge map E = x · we + be; the head row of E at the pair's first word and the tail row at its second, first and last
  512 columns; the gate (product row · w1 + b1) times the pooled features, contracted with w2; plus b2, plus the
  product row contracted with w3, plus b3, plus the label table's row at the pair's label word.  The kernel cuts the
  contraction over the product row in its two halves and the contraction over the pooled coordinates in four
  quarters; on the extended reals regrouping sums needs no finiteness.  The kernel takes its rows in fill mode, the
  reference by a clamping gather: they agree where every pair word is a row number and every label word a label,
  which the precondition states; the float inputs' finiteness is not used.
  The three frames are the generated ones (the reference's is its generated run with the result dropped); the ideal
  pass rewrote nothing, so `preserves` is trivial.
-/
import proofs.«405842_j56667798503473_3_alg».proof.Defs
import proofs.«405842_j56667798503473_3_alg».proof.Proof.Gen.Kernel
import proofs.«405842_j56667798503473_3_alg».proof.Proof.Gen.Kernel.Frame
import proofs.«405842_j56667798503473_3_alg».proof.Proof.Gen.KernelIdeal
import proofs.«405842_j56667798503473_3_alg».proof.Proof.Gen.KernelIdeal.Frame
import proofs.«405842_j56667798503473_3_alg».proof.Proof.Gen.ReferenceIdeal
import proofs.«405842_j56667798503473_3_alg».proof.Proof.Gen.ReferenceIdeal.Run
import proofs.«405842_j56667798503473_3_alg».proof.Proof.Gen.ReferenceIdeal.Read
import proofs.«405842_j56667798503473_3_alg».proof.Proof.Gen.Pre_finite_inputs
import proofs.«405842_j56667798503473_3_alg».proof.Proof.Spec
import proofs.«405842_j56667798503473_3_alg».proof.Proof.PreIdx
import proofs.«405842_j56667798503473_3_alg».proof.Proof.RunK
import proofs.«405842_j56667798503473_3_alg».proof.Proof.KVal
import proofs.«405842_j56667798503473_3_alg».proof.Proof.RefVal
import Idealize.ShloMosaic.Adequacy
import Idealize.ShloMosaic.Init

noncomputable section

namespace Cert.Proof

open Idealize.ShloMosaic Idealize.ShloMosaic.ValueIdx Idealize.SL.Sem Cert.Spec

/-- The row formula depends on its thirteen arrays only through their values. -/
theorem out_congr {p p' : Fin 65536 → Fin 2 → BitVec 32} {o o' : Fin 20480 → BitVec 32}
    {x x' : Fin 20480 → Fin 512 → EReal} {we we' : Fin 512 → Fin 1024 → EReal} {be be' : Fin 1024 → EReal}
    {u u' : Fin 65536 → Fin 4096 → EReal} {w1 w1' : Fin 1024 → Fin 4096 → EReal} {b1 b1' : Fin 4096 → EReal}
    {w2 w2' : Fin 4096 → Fin 51 → EReal} {b2 b2' : Fin 51 → EReal} {w3 w3' : Fin 1024 → Fin 51 → EReal} {b3 b3' : Fin 51 → EReal}
    {fbT fbT' : Fin 22801 → Fin 51 → EReal} (r : Fin 65536) (j : Fin 51)
    (e2 : p = p') (e3 : o = o') (e0 : x = x') (e4 : we = we') (e5 : be = be') (e1 : u = u') (e6 : w1 = w1') (e7 : b1 = b1')
    (e8 : w2 = w2') (e9 : b2 = b2') (e10 : w3 = w3') (e11 : b3 = b3') (e12 : fbT = fbT') :
    Spec.out p o x we be u w1 b1 w2 b2 w3 b3 fbT r j = Spec.out p' o' x' we' be' u' w1' b1' w2' b2' w3' b3' fbT' r j := by
  subst e0 e1 e2 e3 e4 e5 e6 e7 e8 e9 e10 e11 e12; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- From memories that agree on the arguments, with every pair word a row number and every label word a label, both
    programs end with the result array holding the row formula of the arguments at every (r, j). -/
theorem algebraic : Cert.algebraic_KernelIdeal_ReferenceIdeal := by
  intro m ρ m' ρ' hpre hagree
  refine ⟨fun c => fun i => Spec.out (c2 (m ((c.tc : Thread Cert.KernelIdeal.nD Cert.KernelIdeal.τ).loc Cert.KernelIdeal.main_arg2))) (c1 (m ((c.tc : Thread Cert.KernelIdeal.nD Cert.KernelIdeal.τ).loc Cert.KernelIdeal.main_arg3))) (c2 (m ((c.tc : Thread Cert.KernelIdeal.nD Cert.KernelIdeal.τ).loc Cert.KernelIdeal.main_arg0))) (c2 (m ((c.tc : Thread Cert.KernelIdeal.nD Cert.KernelIdeal.τ).loc Cert.KernelIdeal.main_arg4))) (c1 (m ((c.tc : Thread Cert.KernelIdeal.nD Cert.KernelIdeal.τ).loc Cert.KernelIdeal.main_arg5))) (c2 (m ((c.tc : Thread Cert.KernelIdeal.nD Cert.KernelIdeal.τ).loc Cert.KernelIdeal.main_arg1))) (c2 (m ((c.tc : Thread Cert.KernelIdeal.nD Cert.KernelIdeal.τ).loc Cert.KernelIdeal.main_arg6))) (c1 (m ((c.tc : Thread Cert.KernelIdeal.nD Cert.KernelIdeal.τ).loc Cert.KernelIdeal.main_arg7))) (c2 (m ((c.tc : Thread Cert.KernelIdeal.nD Cert.KernelIdeal.τ).loc Cert.KernelIdeal.main_arg8))) (c1 (m ((c.tc : Thread Cert.KernelIdeal.nD Cert.KernelIdeal.τ).loc Cert.KernelIdeal.main_arg9))) (c2 (m ((c.tc : Thread Cert.KernelIdeal.nD Cert.KernelIdeal.τ).loc Cert.KernelIdeal.main_arg10))) (c1 (m ((c.tc : Thread Cert.KernelIdeal.nD Cert.KernelIdeal.τ).loc Cert.KernelIdeal.main_arg11))) (c2 (m ((c.tc : Thread Cert.KernelIdeal.nD Cert.KernelIdeal.τ).loc Cert.KernelIdeal.main_arg12))) (i 0) (i 1), ?_, ?_⟩
  · refine (θ_run Cert.KernelIdeal.defs _ _).mono (fun r h c => ⟨(h c).1.trans ?_, (h c).2⟩)
      (Cert.KernelIdeal.RunK.run (F := Ideal) m ρ)
    funext i
    have hok := Cert.PreIdx.idxOk_of_fn _ _ _ _ _ _ _ _ _ _ _ _ _ (hpre c)
    have hi : i = ix2 (i 0) (i 1) := eq_ix2 i
    rw [hi]
    exact (Cert.KernelIdeal.KVal.result_apply m ρ c hok (i 0) (i 1)).trans (Spec.kout_eq_out _ _ _ _ _ _ _ _ _ _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v70_eq]
    funext i
    have hi : i = ix2 (i 0) (i 1) := eq_ix2 i
    rw [hi]
    refine (Cert.ReferenceIdeal.RefVal.result_apply _ _ _ _ _ _ _ _ _ _ _ _ _ (i 0) (i 1)).trans ?_
    exact out_congr (i 0) (i 1)
      (by rw [(hagree c).2.2.1]) (by rw [(hagree c).2.2.2.1]) (by rw [(hagree c).1]) (by rw [(hagree c).2.2.2.2.1]) (by rw [(hagree c).2.2.2.2.2.1])
      (by rw [(hagree c).2.1]) (by rw [(hagree c).2.2.2.2.2.2.1]) (by rw [(hagree c).2.2.2.2.2.2.2.1]) (by rw [(hagree c).2.2.2.2.2.2.2.2.1]) (by rw [(hagree c).2.2.2.2.2.2.2.2.2.1])
      (by rw [(hagree c).2.2.2.2.2.2.2.2.2.2.1]) (by rw [(hagree c).2.2.2.2.2.2.2.2.2.2.2.1]) (by rw [(hagree c).2.2.2.2.2.2.2.2.2.2.2.2])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
